-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S256x512 : Shape := ⟨2, ![256, 512]⟩
abbrev S8 : Shape := ⟨1, ![8]⟩
abbrev S_ : Shape := ⟨0, ![]⟩
abbrev S1 : Shape := ⟨1, ![1]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S256x512, .bf16⟩
  | .local _ .vmem, ⟨3, _⟩ => ⟨S512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v9 : Index := Scalar.indexCast v8
  let c0 : Index := 0#32
  ![v9.toNat, 0]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v17 : BitVec 32 := Scalar.muli v2 c2_i32_7
  let v18 : BitVec 32 := Scalar.addi c0_i32 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v19 : BitVec 32 := Scalar.muli v6 c1_i32_8
  let v20 : BitVec 32 := Scalar.addi v18 v19
  v20.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v21 : BitVec 32 := Scalar.muli v7 c2_i32_10
  let v22 : BitVec 32 := Scalar.addi c0_i32_11 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v23 : BitVec 32 := Scalar.muli v5 c1_i32_12
  let v24 : BitVec 32 := Scalar.addi v22 v23
  v24.toNat
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v25 : BitVec 32 := Scalar.muli v2 c2_i32_16
  let v26 : BitVec 32 := Scalar.addi c0_i32_17 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v27 : BitVec 32 := Scalar.muli v6 c1_i32_18
  let v28 : BitVec 32 := Scalar.addi v26 v27
  v28.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v35 : BitVec 32 := Scalar.muli v2 c2_i32_25
  let v36 : BitVec 32 := Scalar.addi c0_i32_26 v35
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v37 : BitVec 32 := Scalar.muli v6 c1_i32_27
  let v38 : BitVec 32 := Scalar.addi v36 v37
  v38.toNat
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v45 : BitVec 32 := Scalar.muli v2 c2_i32_33
  let v46 : BitVec 32 := Scalar.addi c0_i32_34 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v47 : BitVec 32 := Scalar.muli v6 c1_i32_35
  let v48 : BitVec 32 := Scalar.addi v46 v47
  v48.toNat
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v55 : BitVec 32 := Scalar.muli v2 c2_i32_40
  let v56 : BitVec 32 := Scalar.addi c0_i32_41 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v57 : BitVec 32 := Scalar.muli v6 c1_i32_42
  let v58 : BitVec 32 := Scalar.addi v56 v57
  v58.toNat
def k0_dev7 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v65 : BitVec 32 := Scalar.muli v2 c2_i32_47
  let v66 : BitVec 32 := Scalar.addi c0_i32_48 v65
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v67 : BitVec 32 := Scalar.muli v6 c1_i32_49
  let v68 : BitVec 32 := Scalar.addi v66 v67
  v68.toNat
def k0_dev8 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v75 : BitVec 32 := Scalar.muli v2 c2_i32_54
  let v76 : BitVec 32 := Scalar.addi c0_i32_55 v75
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v77 : BitVec 32 := Scalar.muli v6 c1_i32_56
  let v78 : BitVec 32 := Scalar.addi v76 v77
  v78.toNat
def k0_dev9 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v85 : BitVec 32 := Scalar.muli v2 c2_i32_61
  let v86 : BitVec 32 := Scalar.addi c0_i32_62 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v87 : BitVec 32 := Scalar.muli v6 c1_i32_63
  let v88 : BitVec 32 := Scalar.addi v86 v87
  v88.toNat
def k0_dev10 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v95 : BitVec 32 := Scalar.muli v2 c2_i32_68
  let v96 : BitVec 32 := Scalar.addi c0_i32_69 v95
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v97 : BitVec 32 := Scalar.muli v6 c1_i32_70
  let v98 : BitVec 32 := Scalar.addi v96 v97
  v98.toNat
def k0_dev11 (d0 : Dev nD) : Nat :=
  let c0_i32_86 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_85 : BitVec 32 := 2#32
  let v113 : BitVec 32 := Scalar.muli v7 c2_i32_85
  let v114 : BitVec 32 := Scalar.addi c0_i32_86 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v115 : BitVec 32 := Scalar.muli v5 c1_i32_87
  let v116 : BitVec 32 := Scalar.addi v114 v115
  v116.toNat
def k0_off2 (d0 : Dev nD) (c0_i32_92 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v123 : BitVec 32 := Scalar.addi v8 c0_i32_92
  let v124 : Index := Scalar.indexCast v123
  let c0_93 : Index := 0#32
  ![v124.toNat, 0]
def k0_dev12 (d0 : Dev nD) : Nat :=
  let c0_i32_109 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_108 : BitVec 32 := 2#32
  let v140 : BitVec 32 := Scalar.muli v7 c2_i32_108
  let v141 : BitVec 32 := Scalar.addi c0_i32_109 v140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v142 : BitVec 32 := Scalar.muli v5 c1_i32_110
  let v143 : BitVec 32 := Scalar.addi v141 v142
  v143.toNat
def k0_dev13 (d0 : Dev nD) : Nat :=
  let c0_i32_130 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_129 : BitVec 32 := 2#32
  let v167 : BitVec 32 := Scalar.muli v7 c2_i32_129
  let v168 : BitVec 32 := Scalar.addi c0_i32_130 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v169 : BitVec 32 := Scalar.muli v5 c1_i32_131
  let v170 : BitVec 32 := Scalar.addi v168 v169
  v170.toNat
def k0_dev14 (d0 : Dev nD) : Nat :=
  let c0_i32_151 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_150 : BitVec 32 := 2#32
  let v194 : BitVec 32 := Scalar.muli v7 c2_i32_150
  let v195 : BitVec 32 := Scalar.addi c0_i32_151 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v196 : BitVec 32 := Scalar.muli v5 c1_i32_152
  let v197 : BitVec 32 := Scalar.addi v195 v196
  v197.toNat
def k0_dev15 (d0 : Dev nD) : Nat :=
  let c0_i32_172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_171 : BitVec 32 := 2#32
  let v221 : BitVec 32 := Scalar.muli v7 c2_i32_171
  let v222 : BitVec 32 := Scalar.addi c0_i32_172 v221
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v223 : BitVec 32 := Scalar.muli v5 c1_i32_173
  let v224 : BitVec 32 := Scalar.addi v222 v223
  v224.toNat
def k0_dev16 (d0 : Dev nD) : Nat :=
  let c0_i32_193 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_192 : BitVec 32 := 2#32
  let v248 : BitVec 32 := Scalar.muli v7 c2_i32_192
  let v249 : BitVec 32 := Scalar.addi c0_i32_193 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v250 : BitVec 32 := Scalar.muli v5 c1_i32_194
  let v251 : BitVec 32 := Scalar.addi v249 v250
  v251.toNat
def k0_dev17 (d0 : Dev nD) : Nat :=
  let c0_i32_214 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_213 : BitVec 32 := 2#32
  let v275 : BitVec 32 := Scalar.muli v7 c2_i32_213
  let v276 : BitVec 32 := Scalar.addi c0_i32_214 v275
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_215 : BitVec 32 := 1#32
  let v277 : BitVec 32 := Scalar.muli v5 c1_i32_215
  let v278 : BitVec 32 := Scalar.addi v276 v277
  v278.toNat
def k0_dev18 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v302 : BitVec 32 := Scalar.muli v7 c2_i32_234
  let v303 : BitVec 32 := Scalar.addi c0_i32_235 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v304 : BitVec 32 := Scalar.muli v5 c1_i32_236
  let v305 : BitVec 32 := Scalar.addi v303 v304
  v305.toNat
def k0_off3 (d0 : Dev nD) (c0_i32_255 : BitVec 32) : Fin 2 → Nat :=
  let c1_i32_244 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v321 : BitVec 32 := Scalar.subi c1_i32_244 v2
  let c256_i32_245 : BitVec 32 := 256#32
  let v322 : BitVec 32 := Scalar.muli v321 c256_i32_245
  let v331 : BitVec 32 := Scalar.addi v322 c0_i32_255
  let v332 : Index := Scalar.indexCast v331
  let c0_256 : Index := 0#32
  ![v332.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  h_S256x512 : 0 < S256x512.numel
  shapeCasts_S256x512_S256x512 : S256x512.ShapeCasts S256x512
  bitsLt_bf16_f32 : FTy.bits .bf16 < FTy.bits .f32
  inb_S256x512_S256x512_0_0 : ∀ a, (![0, 0] : Fin 2 → Nat) a + S256x512.size a ≤ S256x512.size a
  packedbf16_S256x512_S256x512_0_0 : (Rect.unit (s := S256x512) ![0, 0] S256x512.size inb_S256x512_S256x512_0_0).PackedRows (EltTy.packing .bf16)
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  inb_S512x512_S32x512_0_0 : ∀ a, (![0, 0] : Fin 2 → Nat) a + S32x512.size a ≤ S512x512.size a
  inb_S256x512_S32x512_0_0 : ∀ a, (![0, 0] : Fin 2 → Nat) a + S32x512.size a ≤ S256x512.size a
  wordsbf16_S256x512_S32x512_0_0 : (Rect.unit (s := S256x512) ![0, 0] S32x512.size inb_S256x512_S32x512_0_0).WholeWords (EltTy.packing .bf16)
  wordsbf16_S512x512_S32x512_0_0 : (Rect.unit (s := S512x512) ![0, 0] S32x512.size inb_S512x512_S32x512_0_0).WholeWords (EltTy.packing .bf16)
  inb_S8_S1_1 : ∀ a, (![1] : Fin 1 → Nat) a + S1.size a ≤ S8.size a
  inb_S512x512_S32x512_32_0 : ∀ a, (![32, 0] : Fin 2 → Nat) a + S32x512.size a ≤ S512x512.size a
  inb_S256x512_S32x512_32_0 : ∀ a, (![32, 0] : Fin 2 → Nat) a + S32x512.size a ≤ S256x512.size a
  wordsbf16_S256x512_S32x512_32_0 : (Rect.unit (s := S256x512) ![32, 0] S32x512.size inb_S256x512_S32x512_32_0).WholeWords (EltTy.packing .bf16)
  wordsbf16_S512x512_S32x512_32_0 : (Rect.unit (s := S512x512) ![32, 0] S32x512.size inb_S512x512_S32x512_32_0).WholeWords (EltTy.packing .bf16)
  inb_S8_S1_2 : ∀ a, (![2] : Fin 1 → Nat) a + S1.size a ≤ S8.size a
  inb_S512x512_S32x512_64_0 : ∀ a, (![64, 0] : Fin 2 → Nat) a + S32x512.size a ≤ S512x512.size a
  inb_S256x512_S32x512_64_0 : ∀ a, (![64, 0] : Fin 2 → Nat) a + S32x512.size a ≤ S256x512.size a
  wordsbf16_S256x512_S32x512_64_0 : (Rect.unit (s := S256x512) ![64, 0] S32x512.size inb_S256x512_S32x512_64_0).WholeWords (EltTy.packing .bf16)
  wordsbf16_S512x512_S32x512_64_0 : (Rect.unit (s := S512x512) ![64, 0] S32x512.size inb_S512x512_S32x512_64_0).WholeWords (EltTy.packing .bf16)
  inb_S8_S1_3 : ∀ a, (![3] : Fin 1 → Nat) a + S1.size a ≤ S8.size a
  inb_S512x512_S32x512_96_0 : ∀ a, (![96, 0] : Fin 2 → Nat) a + S32x512.size a ≤ S512x512.size a
  inb_S256x512_S32x512_96_0 : ∀ a, (![96, 0] : Fin 2 → Nat) a + S32x512.size a ≤ S256x512.size a
  wordsbf16_S256x512_S32x512_96_0 : (Rect.unit (s := S256x512) ![96, 0] S32x512.size inb_S256x512_S32x512_96_0).WholeWords (EltTy.packing .bf16)
  wordsbf16_S512x512_S32x512_96_0 : (Rect.unit (s := S512x512) ![96, 0] S32x512.size inb_S512x512_S32x512_96_0).WholeWords (EltTy.packing .bf16)
  inb_S8_S1_4 : ∀ a, (![4] : Fin 1 → Nat) a + S1.size a ≤ S8.size a
  inb_S512x512_S32x512_128_0 : ∀ a, (![128, 0] : Fin 2 → Nat) a + S32x512.size a ≤ S512x512.size a
  inb_S256x512_S32x512_128_0 : ∀ a, (![128, 0] : Fin 2 → Nat) a + S32x512.size a ≤ S256x512.size a
  wordsbf16_S256x512_S32x512_128_0 : (Rect.unit (s := S256x512) ![128, 0] S32x512.size inb_S256x512_S32x512_128_0).WholeWords (EltTy.packing .bf16)
  wordsbf16_S512x512_S32x512_128_0 : (Rect.unit (s := S512x512) ![128, 0] S32x512.size inb_S512x512_S32x512_128_0).WholeWords (EltTy.packing .bf16)
  inb_S8_S1_5 : ∀ a, (![5] : Fin 1 → Nat) a + S1.size a ≤ S8.size a
  inb_S512x512_S32x512_160_0 : ∀ a, (![160, 0] : Fin 2 → Nat) a + S32x512.size a ≤ S512x512.size a
  inb_S256x512_S32x512_160_0 : ∀ a, (![160, 0] : Fin 2 → Nat) a + S32x512.size a ≤ S256x512.size a
  wordsbf16_S256x512_S32x512_160_0 : (Rect.unit (s := S256x512) ![160, 0] S32x512.size inb_S256x512_S32x512_160_0).WholeWords (EltTy.packing .bf16)
  wordsbf16_S512x512_S32x512_160_0 : (Rect.unit (s := S512x512) ![160, 0] S32x512.size inb_S512x512_S32x512_160_0).WholeWords (EltTy.packing .bf16)
  inb_S8_S1_6 : ∀ a, (![6] : Fin 1 → Nat) a + S1.size a ≤ S8.size a
  inb_S512x512_S32x512_192_0 : ∀ a, (![192, 0] : Fin 2 → Nat) a + S32x512.size a ≤ S512x512.size a
  inb_S256x512_S32x512_192_0 : ∀ a, (![192, 0] : Fin 2 → Nat) a + S32x512.size a ≤ S256x512.size a
  wordsbf16_S256x512_S32x512_192_0 : (Rect.unit (s := S256x512) ![192, 0] S32x512.size inb_S256x512_S32x512_192_0).WholeWords (EltTy.packing .bf16)
  wordsbf16_S512x512_S32x512_192_0 : (Rect.unit (s := S512x512) ![192, 0] S32x512.size inb_S512x512_S32x512_192_0).WholeWords (EltTy.packing .bf16)
  inb_S8_S1_7 : ∀ a, (![7] : Fin 1 → Nat) a + S1.size a ≤ S8.size a
  inb_S512x512_S32x512_224_0 : ∀ a, (![224, 0] : Fin 2 → Nat) a + S32x512.size a ≤ S512x512.size a
  inb_S256x512_S32x512_224_0 : ∀ a, (![224, 0] : Fin 2 → Nat) a + S32x512.size a ≤ S256x512.size a
  wordsbf16_S256x512_S32x512_224_0 : (Rect.unit (s := S256x512) ![224, 0] S32x512.size inb_S256x512_S32x512_224_0).WholeWords (EltTy.packing .bf16)
  wordsbf16_S512x512_S32x512_224_0 : (Rect.unit (s := S512x512) ![224, 0] S32x512.size inb_S512x512_S32x512_224_0).WholeWords (EltTy.packing .bf16)
  inb_S512x512_S32x512_256_0 : ∀ a, (![256, 0] : Fin 2 → Nat) a + S32x512.size a ≤ S512x512.size a
  wordsbf16_S512x512_S32x512_256_0 : (Rect.unit (s := S512x512) ![256, 0] S32x512.size inb_S512x512_S32x512_256_0).WholeWords (EltTy.packing .bf16)
  h_S32x512 : 0 < S32x512.numel
  shapeCasts_S32x512_S32x512 : S32x512.ShapeCasts S32x512
  inb_S512x512_S32x512_288_0 : ∀ a, (![288, 0] : Fin 2 → Nat) a + S32x512.size a ≤ S512x512.size a
  wordsbf16_S512x512_S32x512_288_0 : (Rect.unit (s := S512x512) ![288, 0] S32x512.size inb_S512x512_S32x512_288_0).WholeWords (EltTy.packing .bf16)
  inb_S512x512_S32x512_320_0 : ∀ a, (![320, 0] : Fin 2 → Nat) a + S32x512.size a ≤ S512x512.size a
  wordsbf16_S512x512_S32x512_320_0 : (Rect.unit (s := S512x512) ![320, 0] S32x512.size inb_S512x512_S32x512_320_0).WholeWords (EltTy.packing .bf16)
  inb_S512x512_S32x512_352_0 : ∀ a, (![352, 0] : Fin 2 → Nat) a + S32x512.size a ≤ S512x512.size a
  wordsbf16_S512x512_S32x512_352_0 : (Rect.unit (s := S512x512) ![352, 0] S32x512.size inb_S512x512_S32x512_352_0).WholeWords (EltTy.packing .bf16)
  inb_S512x512_S32x512_384_0 : ∀ a, (![384, 0] : Fin 2 → Nat) a + S32x512.size a ≤ S512x512.size a
  wordsbf16_S512x512_S32x512_384_0 : (Rect.unit (s := S512x512) ![384, 0] S32x512.size inb_S512x512_S32x512_384_0).WholeWords (EltTy.packing .bf16)
  inb_S512x512_S32x512_416_0 : ∀ a, (![416, 0] : Fin 2 → Nat) a + S32x512.size a ≤ S512x512.size a
  wordsbf16_S512x512_S32x512_416_0 : (Rect.unit (s := S512x512) ![416, 0] S32x512.size inb_S512x512_S32x512_416_0).WholeWords (EltTy.packing .bf16)
  inb_S512x512_S32x512_448_0 : ∀ a, (![448, 0] : Fin 2 → Nat) a + S32x512.size a ≤ S512x512.size a
  wordsbf16_S512x512_S32x512_448_0 : (Rect.unit (s := S512x512) ![448, 0] S32x512.size inb_S512x512_S32x512_448_0).WholeWords (EltTy.packing .bf16)
  inb_S512x512_S32x512_480_0 : ∀ a, (![480, 0] : Fin 2 → Nat) a + S32x512.size a ≤ S512x512.size a
  wordsbf16_S512x512_S32x512_480_0 : (Rect.unit (s := S512x512) ![480, 0] S32x512.size inb_S512x512_S32x512_480_0).WholeWords (EltTy.packing .bf16)
  hcc0_scratch2 : 2 + S8.numel ≤ 34
  hcc0_scratch3 : 10 + S8.numel ≤ 34
  hcc0_scratch4 : 18 + S8.numel ≤ 34
  hcc0_scratch5 : 26 + S8.numel ≤ 34
  k0_off1_inb : ∀ d0 : Dev nD, ∀ a, (k0_off1 d0) a + S256x512.size a ≤ S512x512.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 8), ∀ a, (k0_off2 d0 (BitVec.ofNat 32 (32 * r.val))) a + S32x512.size a ≤ S512x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ (r : Fin 8), ∀ a, (k0_off3 d0 (BitVec.ofNat 32 (32 * r.val))) a + S32x512.size a ≤ S512x512.size a
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S8 := SemArray.consecutive 18 S8 hcc0_scratch4
abbrev cc0_scratch5 : DmaSems sig S8 := SemArray.consecutive 26 S8 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x512_S2x512x512 : S1024x512.ShapeCasts S2x512x512
  reducesTo_S2x512x512_S512x512_d0 : S2x512x512.ReducesTo [0] S512x512
  h_S_ : 0 < S_.numel

variable [Facts₀]

class Facts : Prop extends Facts₀ where

variable [Facts]
-- ==== Proof.ARDefs.lean ====
/-
  The all-reduce over a 2 × 2 mesh: the vocabulary every other module of this proof is stated over.

  Device `c` sits at mesh position (c / 2, c % 2) and holds block `c % 2` of the 1024-row input. It rounds the
  half of its block that starts at row 256 · (c / 2) into a send buffer, shakes hands with its two neighbours on the
  barrier semaphore, sends the eight 32-row chunks of the send buffer to its y-neighbour `yn c` (the device with
  the other block), forwards each chunk it receives to its x-neighbour `xn c`, and adds what it received to its
  own rows: the y-neighbour's chunk to the half it sent from, the forwarded chunk to the other half.

  Semaphores, per device: the barrier cell (two unit duties, one from each neighbour), and four families of eight
  transfer cells — departures of phase one, arrivals of phase one, departures of phase two, arrivals of phase two —
  each with one duty of a chunk's credit.
-/
import proofs.«900151_g7700000000000152_dist_ar_v7x_xy2x2_y_m512_n512_f32_1_alg».proof.Proof.Gen.KernelIdeal
import proofs.«900151_g7700000000000152_dist_ar_v7x_xy2x2_y_m512_n512_f32_1_alg».proof.Proof.Gen.KernelIdeal.Skeleton
import proofs.«900151_g7700000000000152_dist_ar_v7x_xy2x2_y_m512_n512_f32_1_alg».proof.Proof.Gen.KernelIdeal.Launch
import proofs.«900151_g7700000000000152_dist_ar_v7x_xy2x2_y_m512_n512_f32_1_alg».proof.Proof.Gen.KernelIdeal.Points
import proofs.«900151_g7700000000000152_dist_ar_v7x_xy2x2_y_m512_n512_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two neighbours -/

/-- The device with the same `x` coordinate and the other `y`: it holds the other block of the input. -/
def yn (c : Dev nD) : Dev nD := ⟨(2 * (c.val / 2) + 1) - (c.val % 2), by have h : c.val < 4 := c.isLt; show _ < 4; omega⟩
/-- The device with the same `y` coordinate and the other `x`: it holds the same block and works on the other half. -/
def xn (c : Dev nD) : Dev nD := ⟨((c.val % 2) + 2) - 2 * (c.val / 2), by have h : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne_xn (c : Dev nD) : yn c ≠ xn c := by revert c; decide
theorem yn_ne (c : Dev nD) : yn c ≠ c := by revert c; decide
theorem xn_ne (c : Dev nD) : xn c ≠ c := by revert c; decide

def ynE : Dev nD ≃ Dev nD := ⟨yn, yn, yn_yn, yn_yn⟩
def xnE : Dev nD ≃ Dev nD := ⟨xn, xn, xn_xn, xn_xn⟩

/-! ## Buffers, chunks, semaphores, cells -/

abbrev xM : Memref sig .tc .vmem S512x512 .f32 := Memref.whole cc0_stg0_0
abbrev oM : Memref sig .tc .vmem S512x512 .f32 := Memref.whole cc0_stg1_0
abbrev sM : Memref sig .tc .vmem S256x512 .bf16 := Memref.whole cc0_scratch0
abbrev cM : Memref sig .tc .vmem S512x512 .bf16 := Memref.whole cc0_scratch1

theorem sOff_inb (k : Fin 8) : ∀ a, (![32 * k.val, 0] : Fin 2 → Nat) a + S32x512.size a ≤ S256x512.size a := by
  revert k; decide
theorem cOff_inb (j : Fin 16) : ∀ a, (![32 * j.val, 0] : Fin 2 → Nat) a + S32x512.size a ≤ S512x512.size a := by
  revert j; decide

/-- Chunk `k` of the send buffer: its rows 32k … 32k + 31. -/
abbrev sRect (k : Fin 8) : Rect S256x512 := Rect.unit (s := S256x512) ![32 * k.val, 0] S32x512.size (sOff_inb k)
/-- Chunk `j` of the landing buffer: its rows 32j … 32j + 31 (chunks 0–7 land from the y-neighbour, 8–15 from the x-neighbour). -/
abbrev cRect (j : Fin 16) : Rect S512x512 := Rect.unit (s := S512x512) ![32 * j.val, 0] S32x512.size (cOff_inb j)

abbrev sSl (k : Fin 8) : Memref sig .tc .vmem S32x512 .bf16 := sM.slice (sRect k) (fun _ => rfl)
abbrev cSl (j : Fin 16) : Memref sig .tc .vmem S32x512 .bf16 := cM.slice (cRect j) (fun _ => rfl)

/-- Arrival chunk `8 + k`. -/
def hi (k : Fin 8) : Fin 16 := ⟨8 + k.val, by have := k.isLt; omega⟩
/-- Arrival chunk `k`. -/
def lo (k : Fin 8) : Fin 16 := ⟨k.val, by have := k.isLt; omega⟩

/-- The runtime's barrier semaphore of collective id 0. -/
abbrev barS : Sem sig := (SemArray.scalar (sig.barrier 0 rfl) : Sems sig S_).sem

/-- Transfer semaphore `k` of family `a`: 0 departures of phase one, 1 arrivals of phase one, 2 departures of phase
    two, 3 arrivals of phase two. -/
def dsem (a : Fin 4) (k : Fin 8) : DmaSem sig := ⟨2 + 8 * a.val + k.val, by have := a.isLt; have := k.isLt; show _ < 34; omega⟩

abbrev cellB (c : Dev nD) : GSem nD τ sig := ((c : Thread nD τ), .reg barS)
abbrev cellD (c : Dev nD) (a : Fin 4) (k : Fin 8) : GSem nD τ sig := ((c : Thread nD τ), .dma (dsem a k))

/-- A chunk's credit on a transfer semaphore. -/
abbrev N : ℕ := (cSl 0 : Memref sig .tc .vmem S32x512 .bf16).view.dmaCredit
theorem N_pos : 0 < N := View.dmaCredit_pos _ (by decide)

end Cert.KernelIdeal.AR

end
-- ==== Proof.ARSched.lean ====
/-
  What each buffer holds along the way, and the schedule of the cells: who pays which duty, with how many
  units, and what the payment hands the cell's owner.

  A device's send buffer holds, throughout, the rounded half of its block (`sbufC`). Arrival chunk `k` holds what
  the y-neighbour's transfer writes there — chunk `k` of the neighbour's send buffer (`cw1`) — and arrival chunk
  `8 + k` what the x-neighbour's forwarding writes — that neighbour's arrival chunk `k` (`cw2`). Each is spelt as the
  transfer's own write over a fixed base, because on the chunk's elements the base does not show.

  Barrier cell of `c`: the y-neighbour's unit hands over that neighbour's eight arrival chunks 0–7 (so that `c` can
  send into them) with the word that its phase-one arrival cells are open; the x-neighbour's unit hands over that
  neighbour's arrival chunks 8–15 and the same word for its phase-two arrival cells.
-/
import proofs.«900151_g7700000000000152_dist_ar_v7x_xy2x2_y_m512_n512_f32_1_alg».proof.Proof.ARDefs

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The half of the input block a device rounds and sends: 256 rows from row 256 · (c / 2). -/
abbrev rX1 (c : Dev nD) : Rect S512x512 := Rect.unit (s := S512x512) (k0_off1 c) S256x512.size (k0_off1_inb c)
/-- Rows 32k … of that half, where the y-neighbour's chunk `k` is added; -/
abbrev rO2 (c : Dev nD) (k : Fin 8) : Rect S512x512 :=
  Rect.unit (s := S512x512) (k0_off2 c (BitVec.ofNat 32 (32 * k.val))) S32x512.size (k0_off2_inb c k)
/-- rows 32k … of the other half, where the forwarded chunk `k` is added. -/
abbrev rO3 (c : Dev nD) (k : Fin 8) : Rect S512x512 :=
  Rect.unit (s := S512x512) (k0_off3 c (BitVec.ofNat 32 (32 * k.val))) S32x512.size (k0_off3_inb c k)

/-- The input block as the pipeline stages it. -/
def xstg (c : Dev nD) : (cc0_stg0_0 : Ref sig .tc).ty.Contents (Elt F) :=
  (win0_0.blk t0_0).view.read (Elt F) (m ((c : Thread nD τ).loc main_arg0))

/-- The send buffer: the device's half of its block, rounded. -/
def sbufC (c : Dev nD) : (cc0_scratch0 : Ref sig .tc).ty.Contents (Elt F) :=
  k0_pay1 (xM.view.readAt (Elt F) (rX1 c).toLoadRect (xstg m c))

/-- A base for the landing buffer's contents outside the chunk spoken of. -/
def cBase : (cc0_scratch1 : Ref sig .tc).ty.Contents (Elt F) := fun _ => Classical.arbitrary _
/-- A base for the result's staging buffer before the first store. -/
def oBase : (cc0_stg1_0 : Ref sig .tc).ty.Contents (Elt F) := fun _ => Classical.arbitrary _

/-- Arrival chunk `k` after the y-neighbour's transfer: chunk `k` of that neighbour's send buffer. -/
def cw1 (c : Dev nD) (k : Fin 8) : (cc0_scratch1 : Ref sig .tc).ty.Contents (Elt F) :=
  (cSl (lo k)).view.write (Elt F) cBase ((sSl k).view.read (Elt F) (sbufC m (yn c))) Finset.univ
/-- Arrival chunk `8 + k` after the x-neighbour's forwarding: that neighbour's arrival chunk `k`. -/
def cw2 (c : Dev nD) (k : Fin 8) : (cc0_scratch1 : Ref sig .tc).ty.Contents (Elt F) :=
  (cSl (hi k)).view.write (Elt F) cBase ((cSl (lo k)).view.read (Elt F) (cw1 m (xn c) k)) Finset.univ

/-! ## Ownership of a chunk -/

def sPts (c : Dev nD) (k : Fin 8) (q : PosShare TreeShare) (f : (cc0_scratch0 : Ref sig .tc).ty.Contents (Elt F)) : sProp 𝕄 :=
  (sSl k).view.loc (c : Thread nD τ) ↦[(sSl k).view.set]{q} f
def cPts (c : Dev nD) (j : Fin 16) (q : PosShare TreeShare) (f : (cc0_scratch1 : Ref sig .tc).ty.Contents (Elt F)) : sProp 𝕄 :=
  (cSl j).view.loc (c : Thread nD τ) ↦[(cSl j).view.set]{q} f

/-- Eight things side by side, indexed by the chunk. -/
def sep8 (Φ : Fin 8 → sProp 𝕄) : sProp 𝕄 := iprop(Φ 0 ∗ Φ 1 ∗ Φ 2 ∗ Φ 3 ∗ Φ 4 ∗ Φ 5 ∗ Φ 6 ∗ Φ 7)

/-- Eight things and then one more, all side by side in one flat chain. -/
def sep8With (Φ : Fin 8 → sProp 𝕄) (R : sProp 𝕄) : sProp 𝕄 := iprop(Φ 0 ∗ Φ 1 ∗ Φ 2 ∗ Φ 3 ∗ Φ 4 ∗ Φ 5 ∗ Φ 6 ∗ Φ 7 ∗ R)

/-! ## The schedule -/

/-- What the y-neighbour's unit on `c`'s barrier cell hands `c`. -/
def barPayY (c : Dev nD) : sProp 𝕄 :=
  sep8With (fun k => iprop(∃ f, cPts (yn c) (lo k) fullShare f)) (sep8 fun k => reached ER (cellD (yn c) 1 k) 0)
/-- What the x-neighbour's unit hands `c`. -/
def barPayX (c : Dev nD) : sProp 𝕄 :=
  sep8With (fun k => iprop(∃ f, cPts (xn c) (hi k) fullShare f)) (sep8 fun k => reached ER (cellD (xn c) 3 k) 0)

/-- What the one duty of transfer cell (family `a`, chunk `k`) of `c` hands `c`: the send chunk back; arrival chunk `k`
    landed; the forwarded half share of arrival chunk `k` back; arrival chunk `8 + k` landed. -/
def dmaPay (c : Dev nD) (a : Fin 4) (k : Fin 8) : sProp 𝕄 :=
  match a with
  | 0 => sPts c k fullShare (sbufC m c)
  | 1 => cPts c (lo k) fullShare (cw1 m c k)
  | 2 => cPts c (lo k) fullShare.left (cw1 m c k)
  | 3 => cPts c (hi k) fullShare (cw2 m c k)

def dmaPayI (c : Dev nD) (i : DmaSem sig) : sProp 𝕄 :=
  if h : 2 ≤ i.val then
    dmaPay m c ⟨(i.val - 2) / 8, by have : i.val < 34 := i.isLt; omega⟩ ⟨(i.val - 2) % 8, Nat.mod_lt _ (by decide)⟩
  else iprop(emp)

/-- One round, round 0, on every TensorCore's cells: the barrier cell's two unit duties (`false` the y-neighbour's,
    `true` the x-neighbour's), each transfer cell's one duty `false` of a chunk's credit. -/
def sched : Rounds.Schedule (GSem nD τ sig) Bool 𝕄 where
  duties g r :=
    if r = 0 ∧ g.1.2 = .tc then
      (match g.2 with
        | .reg _ => Finset.univ
        | .dma i => if 2 ≤ i.val then {false} else ∅)
    else ∅
  unitless _ := False
  amount g _ _ := match g.2 with | .reg _ => 1 | .dma _ => N
  payload g _ d := match g.2 with
    | .reg _ => if d then barPayX g.1.1 else barPayY g.1.1
    | .dma i => dmaPayI m g.1.1 i
  amount_pos g _ _ _ := by
    cases g.2 with
    | reg _ => exact Nat.one_pos
    | dma _ => exact N_pos

/-! ## What each device owes at launch, in the order it pays, last first; the levels -/

/-- The tallies a device pays, numbered from the LAST paid: the eight phase-two arrivals of its x-neighbour (chunk 7
    first), the eight phase-one arrivals of its y-neighbour, the x-neighbour's barrier unit, the y-neighbour's. -/
def tl (c : Dev nD) (n : ℕ) : CellTallies nD τ sig Unit :=
  if h : n < 8 then tallyAt (cellD (xn c) 3 ⟨7 - n, by omega⟩) () N
  else if h : n < 16 then tallyAt (cellD (yn c) 1 ⟨15 - n, by omega⟩) () N
  else if n = 16 then tallyAt (cellB (xn c)) () 1
  else if n = 17 then tallyAt (cellB (yn c)) () 1
  else 0

/-- What is still owed when `n` payments remain. -/
def owedN (c : Dev nD) : ℕ → CellTallies nD τ sig Unit
  | 0 => 0
  | n + 1 => owedN c n + tl c n

def O₀ (c : Dev nD) : CellTallies nD τ sig Unit := owedN c 18

def L (g : GSem nD τ sig) : Finset Unit := if g.1.2 = .tc then {()} else ∅
/-- The barrier cells at 1, the phase-one arrival cells at 2, the phase-two arrival cells at 3, every other cell at 0. -/
def lv (g : GSem nD τ sig) (_ : Unit) : ℕ :=
  match g.2 with
  | .reg _ => 1
  | .dma i => if 10 ≤ i.val ∧ i.val < 18 then 2 else if 26 ≤ i.val then 3 else 0

/-! ## The result's staging buffer -/

/-- Where store `j` of the sixteen goes: the eight chunks of the half the device sent from, then the eight of the other half. -/
def outRect (c : Dev nD) (j : Fin 16) : Rect S512x512 :=
  if h : j.val < 8 then rO2 c ⟨j.val, h⟩ else rO3 c ⟨j.val - 8, by have := j.isLt; omega⟩

/-- The rows of the input the device adds to at chunk `k` of the half it sent from, and what arrived for them. -/
abbrev xA (c : Dev nD) (k : Fin 8) : Vec F S32x512 .f32 := xM.view.readAt (Elt F) (rO2 c k).toLoadRect (xstg m c)
abbrev cA (c : Dev nD) (k : Fin 8) : Vec F S32x512 .bf16 := cM.view.readAt (Elt F) (cRect (lo k)).toLoadRect (cw1 m c k)
/-- The same for the other half. -/
abbrev xB (c : Dev nD) (k : Fin 8) : Vec F S32x512 .f32 := xM.view.readAt (Elt F) (rO3 c k).toLoadRect (xstg m c)
abbrev cB (c : Dev nD) (k : Fin 8) : Vec F S32x512 .bf16 := cM.view.readAt (Elt F) (cRect (hi k)).toLoadRect (cw2 m c k)

/-- The sixteen stores, in program order, from contents `d`. -/
def outW (c : Dev nD) (d : (cc0_stg1_0 : Ref sig .tc).ty.Contents (Elt F)) : (cc0_stg1_0 : Ref sig .tc).ty.Contents (Elt F) :=
  let w (r : Rect S512x512) (f : (cc0_stg1_0 : Ref sig .tc).ty.Contents (Elt F)) (v : r.shape.Idx → Elt F .f32) :=
    ((oM : Memref sig .tc .vmem S512x512 .f32).access r : View sig .tc _ _ _).write (Elt F) f v Finset.univ
  let f1 := w (rO2 c 0) d (k0_pay2 (xA m c 0) (cA m c 0))
  let f2 := w (rO2 c 1) f1 (k0_pay3 (xA m c 1) (cA m c 1))
  let f3 := w (rO2 c 2) f2 (k0_pay5 (k0_pay4 (xA m c 2)) (cA m c 2))
  let f4 := w (rO2 c 3) f3 (k0_pay6 (xA m c 3) (cA m c 3))
  let f5 := w (rO2 c 4) f4 (k0_pay7 (xA m c 4) (cA m c 4))
  let f6 := w (rO2 c 5) f5 (k0_pay8 (xA m c 5) (cA m c 5))
  let f7 := w (rO2 c 6) f6 (k0_pay9 (xA m c 6) (cA m c 6))
  let f8 := w (rO2 c 7) f7 (k0_pay10 (xA m c 7) (cA m c 7))
  let g1 := w (rO3 c 0) f8 (k0_pay11 (xB m c 0) (cB m c 0))
  let g2 := w (rO3 c 1) g1 (k0_pay12 (xB m c 1) (cB m c 1))
  let g3 := w (rO3 c 2) g2 (k0_pay13 (xB m c 2) (cB m c 2))
  let g4 := w (rO3 c 3) g3 (k0_pay14 (xB m c 3) (cB m c 3))
  let g5 := w (rO3 c 4) g4 (k0_pay15 (xB m c 4) (cB m c 4))
  let g6 := w (rO3 c 5) g5 (k0_pay16 (xB m c 5) (cB m c 5))
  let g7 := w (rO3 c 6) g6 (k0_pay17 (xB m c 6) (cB m c 6))
  w (rO3 c 7) g7 (k0_pay18 (xB m c 7) (cB m c 7))

/-- The result block: the sixteen stores cover it, so the base does not show (`outW_base`, in the geometry module). -/
def outAt (c : Dev nD) : (cc0_stg1_0 : Ref sig .tc).ty.Contents (Elt F) := outW m c oBase

end Cert.KernelIdeal.AR

end
-- ==== Proof.ARData.lean ====
/-
  The pipeline's proof data and what one device's body starts from and leaves.

  A device starts from: the invariants of its own thirty-three cells, of both neighbours' barrier cells, of the
  y-neighbour's phase-one arrival cells and of the x-neighbour's phase-two arrival cells (the cells it pays); its
  position at round 0 of its own cells; the word that round 0 is open on every cell it pays and on its own; the
  tokens of the thirty-four duties it pays (a unit on each neighbour's barrier, sixteen arrivals on the
  neighbours, its own sixteen departures); the credit the launch deals it for what others pay its cells (two barrier
  units, sixteen arrivals); and its two scratch buffers at any contents. It leaves the scratch buffers whole again
  and its thirty-two transfer semaphores back at zero.
-/
import proofs.«900151_g7700000000000152_dist_ar_v7x_xy2x2_y_m512_n512_f32_1_alg».proof.Proof.ARSched

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, numbered: 0 the barrier cell, 1 + 8a + k transfer cell (a, k) -/

def ixD (a : Fin 4) (k : Fin 8) : Fin 33 := ⟨1 + 8 * a.val + k.val, by have := a.isLt; have := k.isLt; omega⟩

abbrev csem : Fin 33 → SemLoc sig := fun i => if h : i.val = 0 then .reg barS else .dma ⟨i.val + 1, by have := i.isLt; show _ < 34; omega⟩
abbrev kcell (ck : Dev nD × Fin 33) : GSem nD τ sig := ((ck.1 : Thread nD τ), csem ck.2)
/-- The kernel's own (scoped) semaphores, as the launch theorem indexes them. -/
abbrev osem : Fin 32 → SemLoc sig := fun i => .dma ⟨i.val + 2, by have := i.isLt; show _ < 34; omega⟩

theorem kcell_B (c : Dev nD) : kcell (c, 0) = cellB c := rfl
theorem kcell_D (c : Dev nD) (a : Fin 4) (k : Fin 8) : kcell (c, ixD a k) = cellD c a k := by
  unfold kcell csem ixD cellD dsem
  have h : ¬ (1 + 8 * a.val + k.val = 0) := by omega
  simp only [h, dite_false]
  congr 2
  exact Fin.ext (by show 1 + 8 * a.val + k.val + 1 = 2 + 8 * a.val + k.val; omega)

/-! ## The ghost state a device starts from -/

section Ghost
variable (K : Dev nD × Fin 33 → ℕ) (c : Dev nD)

def invs : sProp 𝕄 :=
  iprop(cellInv ER (sched m) (K (c, 0)) (cellB c)
    ∗ (sep8 fun k => cellInv ER (sched m) (K (c, ixD 0 k)) (cellD c 0 k))
    ∗ (sep8 fun k => cellInv ER (sched m) (K (c, ixD 1 k)) (cellD c 1 k))
    ∗ (sep8 fun k => cellInv ER (sched m) (K (c, ixD 2 k)) (cellD c 2 k))
    ∗ (sep8 fun k => cellInv ER (sched m) (K (c, ixD 3 k)) (cellD c 3 k))
    ∗ cellInv ER (sched m) (K (yn c, 0)) (cellB (yn c)) ∗ cellInv ER (sched m) (K (xn c, 0)) (cellB (xn c))
    ∗ (sep8 fun k => cellInv ER (sched m) (K (yn c, ixD 1 k)) (cellD (yn c) 1 k))
    ∗ (sep8 fun k => cellInv ER (sched m) (K (xn c, ixD 3 k)) (cellD (xn c) 3 k)))

def positions : sProp 𝕄 :=
  iprop(atPos ER (cellB c) 0 ∅ 0
    ∗ (sep8 fun k => atPos ER (cellD c 0 k) 0 ∅ 0) ∗ (sep8 fun k => atPos ER (cellD c 1 k) 0 ∅ 0)
    ∗ (sep8 fun k => atPos ER (cellD c 2 k) 0 ∅ 0) ∗ (sep8 fun k => atPos ER (cellD c 3 k) 0 ∅ 0))

def opened : sProp 𝕄 :=
  iprop(reached ER (cellB (yn c)) 0 ∗ reached ER (cellB (xn c)) 0
    ∗ (sep8 fun k => reached ER (cellD (yn c) 1 k) 0) ∗ (sep8 fun k => reached ER (cellD (xn c) 3 k) 0)
    ∗ (sep8 fun k => reached ER (cellD c 0 k) 0) ∗ (sep8 fun k => reached ER (cellD c 1 k) 0)
    ∗ (sep8 fun k => reached ER (cellD c 2 k) 0) ∗ (sep8 fun k => reached ER (cellD c 3 k) 0))

/-- The tokens of the duties the device pays. -/
def payToks : sProp 𝕄 :=
  iprop(dutyTok ER (cellB (yn c)) 0 false ∗ dutyTok ER (cellB (xn c)) 0 true
    ∗ (sep8 fun k => dutyTok ER (cellD (yn c) 1 k) 0 false) ∗ (sep8 fun k => dutyTok ER (cellD (xn c) 3 k) 0 false)
    ∗ (sep8 fun k => dutyTok ER (cellD c 0 k) 0 false) ∗ (sep8 fun k => dutyTok ER (cellD c 2 k) 0 false))

def ghost : sProp 𝕄 := iprop(invs m K c ∗ positions c ∗ opened c ∗ payToks c)

end Ghost

/-- The credit the launch deals a device for what others pay its cells. -/
def creds (c : Dev nD) : sProp 𝕄 :=
  iprop(cred (tallyAt (cellB c) () 2)
    ∗ (sep8 fun k => cred (tallyAt (cellD c 1 k) () N)) ∗ (sep8 fun k => cred (tallyAt (cellD c 3 k) () N)))

def start (c : Dev nD) : sProp 𝕄 := iprop((∃ K, ghost m K c) ∗ creds c ∗ levAts L lv)

def sWhole (c : Dev nD) (f : (cc0_scratch0 : Ref sig .tc).ty.Contents (Elt F)) : sProp 𝕄 := ((c : Thread nD τ).loc cc0_scratch0) ↦{fullShare} f
def cWhole (c : Dev nD) (f : (cc0_scratch1 : Ref sig .tc).ty.Contents (Elt F)) : sProp 𝕄 := ((c : Thread nD τ).loc cc0_scratch1) ↦{fullShare} f

/-- The thirty-two transfer semaphores at zero. -/
def sems32 (c : Dev nD) : sProp 𝕄 :=
  iprop((sep8 fun k => semVal (cellD c 0 k) 0) ∗ (sep8 fun k => semVal (cellD c 1 k) 0)
    ∗ (sep8 fun k => semVal (cellD c 2 k) 0) ∗ (sep8 fun k => semVal (cellD c 3 k) 0))

def Φ₀ (c : Dev nD) : sProp 𝕄 := iprop(start m c ∗ (∃ f, sWhole c f) ∗ (∃ f, cWhole c f))
def Φ₁ (c : Dev nD) : sProp 𝕄 := iprop((∃ f, sWhole c f) ∗ (∃ f, cWhole c f) ∗ sems32 c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 33 → ℕ) (c : Dev nD) : sProp 𝕄 :=
  iprop((ghost m K c ∗ creds c ∗ levAts L lv ∗ (∃ f, sWhole c f) ∗ (∃ f, cWhole c f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ c ∗ (dats m 0 c).owesAt () t0_0.succ ∗ stg c cc0_stg0_0 (xstg m c) ∗ stg c cc0_stg1_0 (outAt m c))

end Cert.KernelIdeal.AR

end
-- ==== Proof.ARTables.lean ====
/-
  The schedule read cell by cell: which duties a cell has at round 0 (the barrier cell both, a transfer cell one,
  no cell any later), how many units each brings, what a round expects in all, and what each duty hands over.
-/
import proofs.«900151_g7700000000000152_dist_ar_v7x_xy2x2_y_m512_n512_f32_1_alg».proof.Proof.ARSched

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables -/

theorem duties_B (c : Dev nD) : (sched (F := F) m).duties (cellB c) 0 = Finset.univ := by
  dsimp only [sched]; exact if_pos ⟨rfl, rfl⟩
theorem duties_D (c : Dev nD) (a : Fin 4) (k : Fin 8) : (sched (F := F) m).duties (cellD c a k) 0 = {false} := by
  dsimp only [sched]
  rw [if_pos ⟨rfl, rfl⟩]
  exact if_pos (by show 2 ≤ 2 + 8 * a.val + k.val; omega)
theorem duties_later (g : GSem nD τ sig) : ∀ r, 1 ≤ r → (sched (F := F) m).duties g r = ∅ :=
  fun r hr => by dsimp only [sched]; rw [if_neg fun h => by have := h.1; omega]
theorem amount_B (c : Dev nD) (d : Bool) : (sched (F := F) m).amount (cellB c) 0 d = 1 := rfl
theorem amount_D (c : Dev nD) (a : Fin 4) (k : Fin 8) (d : Bool) : (sched (F := F) m).amount (cellD c a k) 0 d = N := rfl
theorem expect_B (c : Dev nD) : (sched (F := F) m).expect (cellB c) 0 = 2 := by
  unfold Schedule.expect Schedule.amountOf
  rw [duties_B, Finset.sum_congr rfl fun d _ => amount_B m c d, Finset.sum_const, Finset.card_univ, Fintype.card_bool, smul_eq_mul]
theorem expect_D (c : Dev nD) (a : Fin 4) (k : Fin 8) : (sched (F := F) m).expect (cellD c a k) 0 = N := by
  unfold Schedule.expect Schedule.amountOf; rw [duties_D, Finset.sum_singleton, amount_D]
theorem payload_B_false (c : Dev nD) : (sched (F := F) m).payload (cellB c) 0 false = barPayY c := by
  dsimp only [sched]; exact if_neg Bool.false_ne_true
theorem payload_B_true (c : Dev nD) : (sched (F := F) m).payload (cellB c) 0 true = barPayX c := by
  dsimp only [sched]; exact if_pos rfl

/-- Transfer semaphore `2 + 8a + k` is read back as family `a`, chunk `k`. -/
private theorem dmaPayI_dsem (c : Dev nD) (a : Fin 4) (k : Fin 8) : dmaPayI m c (dsem a k) = dmaPay m c a k := by
  have ha := a.isLt
  have hk := k.isLt
  unfold dmaPayI
  rw [dif_pos (show 2 ≤ (dsem a k).val by show 2 ≤ 2 + 8 * a.val + k.val; omega)]
  exact congrArg₂ (dmaPay m c)
    (Fin.ext (by show (2 + 8 * a.val + k.val - 2) / 8 = a.val; omega))
    (Fin.ext (by show (2 + 8 * a.val + k.val - 2) % 8 = k.val; omega))

theorem payload_D (c : Dev nD) (a : Fin 4) (k : Fin 8) (d : Bool) : (sched (F := F) m).payload (cellD c a k) 0 d = dmaPay m c a k := by
  dsimp only [sched]; exact dmaPayI_dsem m c a k
/-- The rest of the barrier cell's round, no duty taken: both neighbours' payloads. -/
theorem rest_B (c : Dev nD) :
    bigSep ((sched (F := F) m).duties (cellB c) 0 \ ∅) (fun d => (sched (F := F) m).payload (cellB c) 0 d) = iprop(barPayY c ∗ barPayX c) := by
  rw [Finset.sdiff_empty, duties_B, bigSep_univ_eq_bigSepL [false, true] (by decide) (by decide), bigSepL_cons_cons, bigSepL_singleton,
    payload_B_false, payload_B_true]
  rfl
theorem rest_D (c : Dev nD) (a : Fin 4) (k : Fin 8) :
    bigSep ((sched (F := F) m).duties (cellD c a k) 0 \ ∅) (fun d => (sched (F := F) m).payload (cellD c a k) 0 d) = dmaPay m c a k := by
  rw [Finset.sdiff_empty, duties_D, bigSep_singleton, payload_D]

private instance dmaPay_storable (c : Dev nD) (a : Fin 4) (k : Fin 8) : BI.Storable (upEmb : UEmb _ 𝕄) (dmaPay (F := F) m c a k) := by
  rcases a with ⟨_ | _ | _ | _ | a, ha⟩
  · show BI.Storable upEmb (sPts c k fullShare (sbufC m c)); unfold sPts; infer_instance
  · show BI.Storable upEmb (cPts c (lo k) fullShare (cw1 m c k)); unfold cPts; infer_instance
  · show BI.Storable upEmb (cPts c (lo k) fullShare.left (cw1 m c k)); unfold cPts; infer_instance
  · show BI.Storable upEmb (cPts c (hi k) fullShare (cw2 m c k)); unfold cPts; infer_instance
  · exact absurd ha (by omega)

instance sched_payload_storable (g : GSem nD τ sig) (r : ℕ) (d : Bool) :
    BI.Storable (upEmb : UEmb _ 𝕄) ((sched (F := F) m).payload g r d) := by
  show BI.Storable upEmb (match g.2 with
    | .reg _ => if d then barPayX g.1.1 else barPayY g.1.1
    | .dma i => dmaPayI m g.1.1 i)
  rcases g with ⟨c, s⟩
  cases s with
  | reg s =>
    dsimp only
    unfold barPayX barPayY sep8With sep8 cPts
    split <;> infer_instance
  | dma i =>
    dsimp only
    unfold dmaPayI
    split <;> infer_instance

/-! ## The levels: a wait is allowed below everything the device still owes -/

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive only at its cell. -/
private theorem tallyAt_pos {g₀ g : GSem nD τ sig} {u : Unit} {n : ℕ} (h : 0 < tallyAt g₀ () n g u) : g = g₀ := by
  rw [tallyAt_apply] at h
  by_cases hg : g = g₀ ∧ u = ()
  · exact hg.1
  · rw [if_neg hg] at h; exact absurd h (Nat.lt_irrefl 0)

/-- What is owed with `n` payments remaining is owed by one of them. -/
private theorem owedN_pos {c : Dev nD} {n : ℕ} {g : GSem nD τ sig} {u : Unit} (h : 0 < owedN c n g u) :
    ∃ j, j < n ∧ 0 < tl c j g u := by
  induction n with
  | zero => exact absurd h (Nat.lt_irrefl 0)
  | succ n ih =>
    unfold owedN at h
    rw [Pi.add_apply, Finsupp.add_apply] at h
    rcases (by omega : 0 < owedN c n g u ∨ 0 < tl c n g u) with h1 | h1
    · obtain ⟨j, hj, hp⟩ := ih h1
      exact ⟨j, Nat.lt_succ_of_lt hj, hp⟩
    · exact ⟨n, Nat.lt_succ_self n, h1⟩

/-- Payment `j` (from the last) goes to: a phase-two arrival cell of the x-neighbour (`j < 8`), a phase-one arrival
    cell of the y-neighbour (`8 ≤ j < 16`), a neighbour's barrier cell (`j` = 16, 17). -/
private theorem tl_pos {c : Dev nD} {j : ℕ} {g : GSem nD τ sig} {u : Unit} (h : 0 < tl c j g u) :
    (j < 8 ∧ ∃ k, g = cellD (xn c) 3 k) ∨ (8 ≤ j ∧ j < 16 ∧ ∃ k, g = cellD (yn c) 1 k)
      ∨ (16 ≤ j ∧ (g = cellB (xn c) ∨ g = cellB (yn c))) := by
  unfold tl at h
  split at h
  · next h8 => exact .inl ⟨h8, _, tallyAt_pos h⟩
  · next h8 =>
    split at h
    · next h16 => exact .inr (.inl ⟨by omega, h16, _, tallyAt_pos h⟩)
    · next h16 =>
      split at h
      · next e => exact .inr (.inr ⟨by omega, .inl (tallyAt_pos h)⟩)
      · split at h
        · next e => exact .inr (.inr ⟨by omega, .inr (tallyAt_pos h)⟩)
        · exact absurd h (Nat.lt_irrefl 0)

private theorem lv_B (c : Dev nD) (u : Unit) : lv (cellB c) u = 1 := rfl
private theorem lv_D1 (c : Dev nD) (k : Fin 8) (u : Unit) : lv (cellD c 1 k) u = 2 := by
  have hk := k.isLt
  have e : (dsem 1 k).val = 10 + k.val := by show 2 + 8 * 1 + k.val = 10 + k.val; omega
  show (if 10 ≤ (dsem 1 k).val ∧ (dsem 1 k).val < 18 then 2 else if 26 ≤ (dsem 1 k).val then 3 else 0) = 2
  rw [e]; exact if_pos (by omega)
private theorem lv_D3 (c : Dev nD) (k : Fin 8) (u : Unit) : lv (cellD c 3 k) u = 3 := by
  have hk := k.isLt
  have e : (dsem 3 k).val = 26 + k.val := by show 2 + 8 * 3 + k.val = 26 + k.val; omega
  show (if 10 ≤ (dsem 3 k).val ∧ (dsem 3 k).val < 18 then 2 else if 26 ≤ (dsem 3 k).val then 3 else 0) = 3
  rw [e, if_neg (by omega)]; exact if_pos (by omega)

/-- Every cell a device owes to is a TensorCore's, so its one index is levelled. -/
private theorem owedN_mem_L {c : Dev nD} {n : ℕ} {g : GSem nD τ sig} {u : Unit} (h : 0 < owedN c n g u) : u ∈ L g := by
  obtain ⟨j, _, hp⟩ := owedN_pos h
  rcases tl_pos hp with ⟨_, k, rfl⟩ | ⟨_, _, k, rfl⟩ | ⟨_, rfl | rfl⟩ <;> exact Finset.mem_singleton_self _

/-- At its barrier wait a device owes the sixteen arrivals (levels 2 and 3), above its barrier cell (level 1). -/
theorem mayWait_B (c : Dev nD) : (levAts L lv : sProp 𝕄) ⊢ MayWait (c : Thread nD τ) (.reg barS) () (owedN c 16) :=
  MayOwe.of_cut (L := L) (lev := lv) 1
    (fun p hp => by rw [Finset.mem_singleton.mp hp, L_tc]; exact Finset.mem_singleton_self _)
    (fun g u hg => owedN_mem_L hg)
    (fun p hp => by rw [Finset.mem_singleton.mp hp]; exact Nat.le_refl 1)
    (fun g u hg => by
      obtain ⟨j, hj, hp⟩ := owedN_pos hg
      rcases tl_pos hp with ⟨_, k, rfl⟩ | ⟨_, _, k, rfl⟩ | ⟨h16, _⟩
      · rw [lv_D3]; decide
      · rw [lv_D1]; decide
      · omega)
/-- At a phase-one arrival wait it owes at most the eight phase-two arrivals (level 3), above level 2. -/
theorem mayWait_R1 (c : Dev nD) (k : Fin 8) (n : ℕ) (hn : n ≤ 8) :
    (levAts L lv : sProp 𝕄) ⊢ MayWait (c : Thread nD τ) (.dma (dsem 1 k)) () (owedN c n) :=
  MayOwe.of_cut (L := L) (lev := lv) 2
    (fun p hp => by rw [Finset.mem_singleton.mp hp, L_tc]; exact Finset.mem_singleton_self _)
    (fun g u hg => owedN_mem_L hg)
    (fun p hp => by rw [Finset.mem_singleton.mp hp]; exact (lv_D1 c k ()).le)
    (fun g u hg => by
      obtain ⟨j, hj, hp⟩ := owedN_pos hg
      rcases tl_pos hp with ⟨_, k', rfl⟩ | ⟨h8, _⟩ | ⟨h16, _⟩
      · rw [lv_D3]; decide
      · omega
      · omega)
/-- The pipeline's own waits, on its two staging semaphores (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => owedN_mem_L hg)
      (fun p hp => by
        rw [Finset.mem_singleton.mp hp]
        show (if 10 ≤ q.val ∧ q.val < 18 then 2 else if 26 ≤ q.val then 3 else 0) ≤ 0
        rw [if_neg (by omega), if_neg (by omega)])
      (fun g u hg => by
        obtain ⟨j, hj, hp⟩ := owedN_pos hg
        rcases tl_pos hp with ⟨_, k, rfl⟩ | ⟨_, _, k, rfl⟩ | ⟨_, rfl | rfl⟩
        · rw [lv_D3]; decide
        · rw [lv_D1]; decide
        · rw [lv_B]; decide
        · rw [lv_B]; decide)
  · rw [MayWait_zero]; iintro -; iempintro

end Cert.KernelIdeal.AR

end
-- ==== Proof.ARGeom.lean ====
/-
  Chunks as regions of their buffers: the send buffer is its eight 32-row chunks side by side, the landing buffer its
  sixteen; a transfer that overwrites a whole chunk leaves, on that chunk, contents that do not depend on what the
  buffer held; and the sixteen stores into the result's staging buffer cover its 512 rows — rows 256 · (c / 2) + 32k
  and rows 256 − 256 · (c / 2) + 32k, k < 8 — so what it ends holding does not depend on what it held.
-/
import proofs.«900151_g7700000000000152_dist_ar_v7x_xy2x2_y_m512_n512_f32_1_alg».proof.Proof.ARData
import Idealize.ShloMosaic.Lib.Pipeline.Value

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A full write through a view, on the view's own elements -/

omit [FloatOps F] in
/-- On the elements a view covers, a write of all of them does not show what was there before. -/
theorem write_base_congr {κ : Kind} {sp : Space} {s : Shape} {e : EltTy} (v : View sig κ sp s e)
    (f g : BufTy.Contents (Elt F) v.ty) (w : s.Idx → Elt F e) :
    ∀ i ∈ v.set, v.write (Elt F) f w Finset.univ i = v.write (Elt F) g w Finset.univ i := fun i hi =>
  View.write_congr (fun _ _ _ => rfl) fun h => absurd hi h

/-! ## What the two transfers land, as the arrival cells' payloads state it -/

/-- Phase one: chunk `k` of `c`'s send buffer written over arrival chunk `k` of its y-neighbour. -/
theorem land1 (c : Dev nD) (k : Fin 8) (fd : (cc0_scratch1 : Ref sig .tc).ty.Contents (Elt F)) :
    ((cSl (lo k)).view.loc (yn c : Thread nD τ) ↦[(cSl (lo k)).view.set]{fullShare}
        ((cSl (lo k)).view.write (Elt F) fd ((sSl k).view.read (Elt F) (sbufC m c)) Finset.univ) : sProp 𝕄)
      ⊢ cPts (yn c) (lo k) fullShare (cw1 m (yn c) k) := by
  unfold cPts cw1
  rw [yn_yn]
  exact Entails.of_eq (pointsTo_congr (write_base_congr (F := F) (cSl (lo k)).view fd cBase _))

/-- Phase two: arrival chunk `k` of `c` written over arrival chunk `8 + k` of its x-neighbour. -/
theorem land2 (c : Dev nD) (k : Fin 8) (fd : (cc0_scratch1 : Ref sig .tc).ty.Contents (Elt F)) :
    ((cSl (hi k)).view.loc (xn c : Thread nD τ) ↦[(cSl (hi k)).view.set]{fullShare}
        ((cSl (hi k)).view.write (Elt F) fd ((cSl (lo k)).view.read (Elt F) (cw1 m c k)) Finset.univ) : sProp 𝕄)
      ⊢ cPts (xn c) (hi k) fullShare (cw2 m (xn c) k) := by
  unfold cPts cw2
  rw [xn_xn]
  exact Entails.of_eq (pointsTo_congr (write_base_congr (F := F) (cSl (hi k)).view fd cBase _))

/-! ## A buffer is its chunks -/

namespace Geom

omit [FloatOps F] in
/-- Eight things side by side are the iterated conjunction over the eight indices. -/
theorem sep8_eq (Φ : Fin 8 → sProp 𝕄) : sep8 Φ = bigSep Finset.univ Φ := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- A chunk's elements are its rectangle's. -/
theorem sSet_eq (k : Fin 8) : (sSl k).view.set = (sRect k).set := View.set_slice_whole _ _
theorem cSet_eq (j : Fin 16) : (cSl j).view.set = (cRect j).set := View.set_slice_whole _ _

/-- Chunk `k` of the send buffer is its rows 32k … 32k + 31. -/
theorem mem_sSet (k : Fin 8) (i : S256x512.Idx) :
    i ∈ (sSl k).view.set ↔ 32 * k.val ≤ (i 0).val ∧ (i 0).val < 32 * k.val + 32 := by
  rw [sSet_eq, Rect.mem_set_unit]
  have h1 : (i 1).val < 512 := (i 1).isLt
  constructor
  · intro H; exact H 0
  · intro H a; fin_cases a
    · exact H
    · show 0 ≤ (i 1).val ∧ (i 1).val < 0 + 512; omega

/-- Chunk `j` of the landing buffer is its rows 32j … 32j + 31. -/
theorem mem_cSet (j : Fin 16) (i : S512x512.Idx) :
    i ∈ (cSl j).view.set ↔ 32 * j.val ≤ (i 0).val ∧ (i 0).val < 32 * j.val + 32 := by
  rw [cSet_eq, Rect.mem_set_unit]
  have h1 : (i 1).val < 512 := (i 1).isLt
  constructor
  · intro H; exact H 0
  · intro H a; fin_cases a
    · exact H
    · show 0 ≤ (i 1).val ∧ (i 1).val < 0 + 512; omega

theorem sSet_disj {k k' : Fin 8} (h : k ≠ k') : Disjoint (sSl k).view.set (sSl k').view.set := by
  rw [Finset.disjoint_left]; intro i hi hi'
  rw [mem_sSet] at hi hi'
  exact h (Fin.ext (by omega))

theorem cSet_disj {j j' : Fin 16} (h : j ≠ j') : Disjoint (cSl j).view.set (cSl j').view.set := by
  rw [Finset.disjoint_left]; intro i hi hi'
  rw [mem_cSet] at hi hi'
  exact h (Fin.ext (by omega))

/-- Every row of the send buffer lies in one of its eight chunks. -/
abbrev sAll : Finset S256x512.Idx := (Finset.univ : Finset (Fin 8)).biUnion fun k => (sSl k).view.set

theorem sSet_cover : sAll = Finset.univ := by
  ext i
  simp only [Finset.mem_biUnion, Finset.mem_univ, true_and, iff_true]
  have hi : (i 0).val < 256 := (i 0).isLt
  refine ⟨⟨(i 0).val / 32, by omega⟩, (mem_sSet _ i).mpr ?_⟩
  show 32 * ((i 0).val / 32) ≤ (i 0).val ∧ (i 0).val < 32 * ((i 0).val / 32) + 32
  omega

/-- The rows below 256 of the landing buffer: its chunks 0–7; the rows from 256: its chunks 8–15. -/
abbrev cLo : Finset S512x512.Idx := (Finset.univ : Finset (Fin 8)).biUnion fun k => (cSl (lo k)).view.set
abbrev cHi : Finset S512x512.Idx := (Finset.univ : Finset (Fin 8)).biUnion fun k => (cSl (hi k)).view.set

theorem lo_inj {k k' : Fin 8} (h : k ≠ k') : lo k ≠ lo k' := fun e => h (Fin.ext (by have := congrArg Fin.val e; exact this))
theorem hi_inj {k k' : Fin 8} (h : k ≠ k') : hi k ≠ hi k' := fun e => h (Fin.ext (by have := congrArg Fin.val e; simp only [hi] at this; omega))
theorem lo_ne_hi (k k' : Fin 8) : lo k ≠ hi k' := fun e => by
  have := congrArg Fin.val e; simp only [lo, hi] at this; have := k.isLt; omega

theorem cLo_disj_cHi : Disjoint cLo cHi :=
  (Finset.disjoint_biUnion_left _ _ _).mpr fun k _ => (Finset.disjoint_biUnion_right _ _ _).mpr fun k' _ => cSet_disj (lo_ne_hi k k')

theorem cLo_union_cHi : cLo ∪ cHi = Finset.univ := by
  ext i
  simp only [Finset.mem_union, Finset.mem_biUnion, Finset.mem_univ, true_and, iff_true]
  have hi : (i 0).val < 512 := (i 0).isLt
  by_cases h : (i 0).val < 256
  · refine .inl ⟨⟨(i 0).val / 32, by omega⟩, (mem_cSet _ i).mpr ?_⟩
    show 32 * ((i 0).val / 32) ≤ (i 0).val ∧ (i 0).val < 32 * ((i 0).val / 32) + 32
    omega
  · refine .inr ⟨⟨((i 0).val - 256) / 32, by omega⟩, (mem_cSet _ i).mpr ?_⟩
    show 32 * (8 + ((i 0).val - 256) / 32) ≤ (i 0).val ∧ (i 0).val < 32 * (8 + ((i 0).val - 256) / 32) + 32
    omega

end Geom

open Geom

omit [FloatOps F] in
theorem s_split (c : Dev nD) (f : (cc0_scratch0 : Ref sig .tc).ty.Contents (Elt F)) :
    (sWhole c f : sProp 𝕄) ⊣⊢ sep8 fun k => sPts c k fullShare f := by
  unfold sWhole sPts
  rw [sep8_eq]
  have h := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ (fun k : Fin 8 => (sSl k).view.set)
    fun k _ k' _ hk => sSet_disj hk
  have hc : (Finset.univ.biUnion (fun k : Fin 8 => (sSl k).view.set) : Finset (Idx ((c : Thread nD τ).loc cc0_scratch0)))
      = Finset.univ := sSet_cover
  rw [hc] at h
  exact BiEntails.of_eq h

omit [FloatOps F] in
theorem c_split (c : Dev nD) (f : (cc0_scratch1 : Ref sig .tc).ty.Contents (Elt F)) :
    (cWhole c f : sProp 𝕄) ⊣⊢ iprop((sep8 fun k => cPts c (lo k) fullShare f) ∗ sep8 fun k => cPts c (hi k) fullShare f) := by
  unfold cWhole cPts
  rw [sep8_eq, sep8_eq]
  have hL := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ (fun k : Fin 8 => (cSl (lo k)).view.set)
    fun k _ k' _ hk => cSet_disj (lo_inj hk)
  have hH := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ (fun k : Fin 8 => (cSl (hi k)).view.set)
    fun k _ k' _ hk => cSet_disj (hi_inj hk)
  have hU := pointsTo_union (nD := nD) (τ := τ) (sig := sig) (Ix := Unit) (Val := Elt F) (Name := ℕ) (U := UU) (Lvl := ℕ)
    (ℓ := (c : Thread nD τ).loc cc0_scratch1) (q := fullShare) (f := f) (I := cLo) (J := cHi) cLo_disj_cHi
  have hc : (cLo ∪ cHi : Finset (Idx ((c : Thread nD τ).loc cc0_scratch1))) = Finset.univ := cLo_union_cHi
  rw [hc, hL, hH] at hU
  exact hU

omit [FloatOps F] in
/-- The sixteen chunks, each at contents of its own, are the whole buffer at some contents. -/
theorem c_join (c : Dev nD) (f g : Fin 8 → (cc0_scratch1 : Ref sig .tc).ty.Contents (Elt F)) :
    iprop((sep8 fun k => cPts c (lo k) fullShare (f k)) ∗ sep8 fun k => cPts c (hi k) fullShare (g k))
      ⊢ (∃ h, cWhole c h : sProp 𝕄) := by
  unfold cWhole cPts
  rw [sep8_eq, sep8_eq]
  show iprop(bigSep Finset.univ (fun k : Fin 8 => ((c : Thread nD τ).loc cc0_scratch1) ↦[(cSl (lo k)).view.set]{fullShare} f k)
      ∗ bigSep Finset.univ (fun k : Fin 8 => ((c : Thread nD τ).loc cc0_scratch1) ↦[(cSl (hi k)).view.set]{fullShare} g k))
    ⊢ (∃ h, ((c : Thread nD τ).loc cc0_scratch1) ↦{fullShare} h : sProp 𝕄)
  iintro ⟨HL, HH⟩
  ihave HL := (pointsTo_biUnion_join (nD := nD) (τ := τ) (sig := sig) (Ix := Unit) (Val := Elt F) (Name := ℕ) (U := UU) (Lvl := ℕ)
    (ℓ := (c : Thread nD τ).loc cc0_scratch1) (q := fullShare) Finset.univ (fun k : Fin 8 => (cSl (lo k)).view.set) f (f 0)
    fun k _ k' _ hk => cSet_disj (lo_inj hk)) $$ HL
  icases HL with ⟨%gl, %hgl, HL⟩
  ihave HH := (pointsTo_biUnion_join (nD := nD) (τ := τ) (sig := sig) (Ix := Unit) (Val := Elt F) (Name := ℕ) (U := UU) (Lvl := ℕ)
    (ℓ := (c : Thread nD τ).loc cc0_scratch1) (q := fullShare) Finset.univ (fun k : Fin 8 => (cSl (hi k)).view.set) g (g 0)
    fun k _ k' _ hk => cSet_disj (hi_inj hk)) $$ HH
  icases HH with ⟨%gh, %hgh, HH⟩
  iexists cHi.piecewise gh gl
  have hc : (Finset.univ : Finset (Idx ((c : Thread nD τ).loc cc0_scratch1))) = cLo ∪ cHi := cLo_union_cHi.symm
  rw [hc]
  iapply (pointsTo_join (nD := nD) (τ := τ) (sig := sig) (Ix := Unit) (Val := Elt F) (Name := ℕ) (U := UU) (Lvl := ℕ)
    (ℓ := (c : Thread nD τ).loc cc0_scratch1) (q := fullShare) (I := cLo) (J := cHi) cLo_disj_cHi)
  isplitl [HL]
  · iexact HL
  · iexact HH

omit [FloatOps F] in
/-- A chunk held whole is its two half shares. -/
theorem c_halves (c : Dev nD) (j : Fin 16) (f : (cc0_scratch1 : Ref sig .tc).ty.Contents (Elt F)) :
    (cPts c j fullShare f : sProp 𝕄) ⊣⊢ iprop(cPts c j fullShare.left f ∗ cPts c j fullShare.right f) := by
  unfold cPts
  exact pointsTo_share (PosShare.mem_left_op_right fullShare)

/-! ## The sixteen stores cover the result's staging buffer -/

namespace Geom

omit [FloatOps F] in
/-- A full write through a view extends agreement of two contents to the view's own elements. -/
theorem write_agree {κ : Kind} {sp : Space} {s : Shape} {e : EltTy} (v : View sig κ sp s e) (w : s.Idx → Elt F e)
    {A : Finset v.ty.Idx} {f g : BufTy.Contents (Elt F) v.ty} (h : ∀ i ∈ A, f i = g i) :
    ∀ i ∈ A ∪ v.set, v.write (Elt F) f w Finset.univ i = v.write (Elt F) g w Finset.univ i := fun i hi =>
  View.write_congr (fun _ _ _ => rfl) fun hn => h i ((Finset.mem_union.mp hi).resolve_right hn)

/-- The elements store `k` of the first eight goes through, and store `k` of the last eight. -/
abbrev o2 (c : Dev nD) (k : Fin 8) : Finset S512x512.Idx :=
  ((oM : Memref sig .tc .vmem S512x512 .f32).access (rO2 c k) : View sig .tc _ _ _).set
abbrev o3 (c : Dev nD) (k : Fin 8) : Finset S512x512.Idx :=
  ((oM : Memref sig .tc .vmem S512x512 .f32).access (rO3 c k) : View sig .tc _ _ _).set

/-- Store `k` of the first eight goes through rows 256 · (c / 2) + 32k …; -/
theorem mem_o2 (c : Dev nD) (k : Fin 8) (i : S512x512.Idx) :
    i ∈ o2 c k ↔ 256 * (c.val / 2) + 32 * k.val ≤ (i 0).val ∧ (i 0).val < 256 * (c.val / 2) + 32 * k.val + 32 := by
  have hs : o2 c k = (rO2 c k).set := View.set_slice_whole _ _
  rw [hs, Rect.mem_set_unit, k0_off2_eq]
  have h1 : (i 1).val < 512 := (i 1).isLt
  constructor
  · intro H; exact H 0
  · intro H a; fin_cases a
    · exact H
    · show 0 ≤ (i 1).val ∧ (i 1).val < 0 + 512; omega

/-- store `k` of the last eight through rows 256 − 256 · (c / 2) + 32k …. -/
theorem mem_o3 (c : Dev nD) (k : Fin 8) (i : S512x512.Idx) :
    i ∈ o3 c k ↔ (32 * k.val + 256) - 256 * (c.val / 2) ≤ (i 0).val ∧ (i 0).val < (32 * k.val + 256) - 256 * (c.val / 2) + 32 := by
  have hs : o3 c k = (rO3 c k).set := View.set_slice_whole _ _
  rw [hs, Rect.mem_set_unit, k0_off3_eq]
  have h1 : (i 1).val < 512 := (i 1).isLt
  constructor
  · intro H; exact H 0
  · intro H a; fin_cases a
    · exact H
    · show 0 ≤ (i 1).val ∧ (i 1).val < 0 + 512; omega

/-- Every row lies under one of the sixteen stores, whichever half the device sent from. -/
theorem out_cover (c : Dev nD) (i : S512x512.Idx) :
    i ∈ (∅ : Finset S512x512.Idx) ∪ o2 c 0 ∪ o2 c 1 ∪ o2 c 2 ∪ o2 c 3 ∪ o2 c 4 ∪ o2 c 5 ∪ o2 c 6 ∪ o2 c 7
      ∪ o3 c 0 ∪ o3 c 1 ∪ o3 c 2 ∪ o3 c 3 ∪ o3 c 4 ∪ o3 c 5 ∪ o3 c 6 ∪ o3 c 7 := by
  have hr : (i 0).val < 512 := (i 0).isLt
  have hc : c.val / 2 = 0 ∨ c.val / 2 = 1 := by have h4 : c.val < 4 := c.isLt; omega
  have e0 : (0 : Fin 8).val = 0 := rfl
  have e1 : (1 : Fin 8).val = 1 := rfl
  have e2 : (2 : Fin 8).val = 2 := rfl
  have e3 : (3 : Fin 8).val = 3 := rfl
  have e4 : (4 : Fin 8).val = 4 := rfl
  have e5 : (5 : Fin 8).val = 5 := rfl
  have e6 : (6 : Fin 8).val = 6 := rfl
  have e7 : (7 : Fin 8).val = 7 := rfl
  simp only [Finset.mem_union, Finset.notMem_empty, _root_.false_or, mem_o2, mem_o3, e0, e1, e2, e3, e4, e5, e6, e7]
  rcases hc with h | h <;> simp only [h] <;> omega

/-- The rows under the sixteen stores, in program order. -/
abbrev oAll (c : Dev nD) : Finset S512x512.Idx :=
  (∅ : Finset S512x512.Idx) ∪ o2 c 0 ∪ o2 c 1 ∪ o2 c 2 ∪ o2 c 3 ∪ o2 c 4 ∪ o2 c 5 ∪ o2 c 6 ∪ o2 c 7
    ∪ o3 c 0 ∪ o3 c 1 ∪ o3 c 2 ∪ o3 c 3 ∪ o3 c 4 ∪ o3 c 5 ∪ o3 c 6 ∪ o3 c 7

omit [FloatOps F] in
/-- One store into the result's staging buffer extends agreement of two contents to the rows it goes through. -/
theorem store_agree (r : Rect S512x512) (w : r.shape.Idx → Elt F .f32) {A : Finset S512x512.Idx}
    {f g : (cc0_stg1_0 : Ref sig .tc).ty.Contents (Elt F)} (h : ∀ i ∈ A, f i = g i) :
    ∀ i ∈ A ∪ ((oM : Memref sig .tc .vmem S512x512 .f32).access r : View sig .tc _ _ _).set,
      ((oM : Memref sig .tc .vmem S512x512 .f32).access r : View sig .tc _ _ _).write (Elt F) f w Finset.univ i
        = ((oM : Memref sig .tc .vmem S512x512 .f32).access r : View sig .tc _ _ _).write (Elt F) g w Finset.univ i :=
  write_agree ((oM : Memref sig .tc .vmem S512x512 .f32).access r : View sig .tc _ _ _) w h

end Geom

theorem outW_base (c : Dev nD) (d : (cc0_stg1_0 : Ref sig .tc).ty.Contents (Elt F)) : outW m c d = outAt m c := by
  unfold outAt
  have key : ∀ i ∈ oAll c, outW m c d i = outW m c oBase i := by
    unfold outW
    dsimp only
    iterate 16 refine store_agree _ _ ?_
    exact fun j hj => absurd hj (Finset.notMem_empty j)
  exact funext fun i => key i (out_cover c i)

end Cert.KernelIdeal.AR

end
-- ==== Proof.ARRules.lean ====
/-
  The two transfers as rules of their own, at a symbolic chunk: phase one sends chunk `k` of the send buffer into the
  y-neighbour's arrival chunk `k`; phase two forwards arrival chunk `k`, lent at half share, into the x-neighbour's arrival
  chunk `8 + k`. Each pays the arrival duty on the neighbour's cell and the departure duty on the device's own.
-/
import proofs.«900151_g7700000000000152_dist_ar_v7x_xy2x2_y_m512_n512_f32_1_alg».proof.Proof.ARData
import proofs.«900151_g7700000000000152_dist_ar_v7x_xy2x2_y_m512_n512_f32_1_alg».proof.Proof.ARTables
import proofs.«900151_g7700000000000152_dist_ar_v7x_xy2x2_y_m512_n512_f32_1_alg».proof.Proof.ARGeom

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 33 → ℕ)

/-- Phase one, chunk `k`, the transfer addressed to `n = yn c` (substituted, not rewritten). -/
theorem wp_send1 (c n : Dev nD) (hn : n = yn c) (k : Fin 8)
    {hsc : ((cSl (lo k)) : Memref sig (Dev.tc n : Thread nD τ).2.kind .vmem S32x512 .bf16).view.ref.isScScratch = false}
    {hsrc : (sSl k : Memref sig .tc .vmem S32x512 .bf16).view.WordExact} {hdst : (cSl (lo k) : Memref sig .tc .vmem S32x512 .bf16).view.WordExact}
    {hsem : DmaTarget.Typed .vmem (.dma (dsem 1 k)) (.remote (Dev.tc n : Thread nD τ) (cSl (lo k) : Memref sig .tc .vmem S32x512 .bf16) (.dma (dsem 0 k)) hsc)}
    {α : Type} {Q : α → sProp 𝕄} {kont : PUnit → Prog (TpuEff nD τ sig (Elt F) Λ₀ .tc) α}
    (fd : (cc0_scratch1 : Ref sig .tc).ty.Contents (Elt F)) (O : CellTallies nD τ sig Unit) (W : Waits sig Unit) :
    iprop(cellInv ER (sched m) (K (c, ixD 0 k)) (cellD c 0 k) ∗ cellInv ER (sched m) (K (yn c, ixD 1 k)) (cellD (yn c) 1 k)
        ∗ sPts c k fullShare (sbufC m c) ∗ cPts (yn c) (lo k) fullShare fd
        ∗ owes (c : Thread nD τ) (O + tallyAt (cellD (yn c) 1 k) () N) W
        ∗ dutyTok ER (cellD c 0 k) 0 false ∗ reached ER (cellD c 0 k) 0
        ∗ dutyTok ER (cellD (yn c) 1 k) 0 false ∗ reached ER (cellD (yn c) 1 k) 0)
      ⊢ iprop(((cred (tallyAt (cellD c 0 k) () N) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSl k) (.remote (Dev.tc n : Thread nD τ) (cSl (lo k)) (.dma (dsem 0 k)) hsc) (.dma (dsem 1 k)) hsrc hdst hsem) kont) Q) := by
  subst hn
  unfold sPts cPts
  exact Rounds.wp_send_pointsTo 𝒱₀ ER (sched m) (c : Thread nD τ) none
    (src := sSl k) (dst := cSl (lo k)) (c' := (yn c : Thread nD τ)) (q := fullShare) (fs := sbufC m c) (fd := fd)
    (κ₁ := K (c, ixD 0 k)) (κ₂ := K (yn c, ixD 1 k)) (r₁ := 0) (r₂ := 0) (d₁ := false) (d₂ := false)
    (by rw [duties_D]; exact Finset.mem_singleton_self _) (by rw [duties_D]; exact Finset.mem_singleton_self _)
    () () N rfl (amount_D m c 0 k false) (amount_D m (yn c) 1 k false) O rfl (W := W)
    (by rw [payload_D]; exact BI.Entails.refl _)
    (by rw [payload_D]; exact land1 m c k fd)

/-- Phase two, chunk `k`, the transfer addressed to `n = xn c`; the source lent at the left half share. -/
theorem wp_send2 (c n : Dev nD) (hn : n = xn c) (k : Fin 8)
    {hsc : ((cSl (hi k)) : Memref sig (Dev.tc n : Thread nD τ).2.kind .vmem S32x512 .bf16).view.ref.isScScratch = false}
    {hsrc : (cSl (lo k) : Memref sig .tc .vmem S32x512 .bf16).view.WordExact} {hdst : (cSl (hi k) : Memref sig .tc .vmem S32x512 .bf16).view.WordExact}
    {hsem : DmaTarget.Typed .vmem (.dma (dsem 3 k)) (.remote (Dev.tc n : Thread nD τ) (cSl (hi k) : Memref sig .tc .vmem S32x512 .bf16) (.dma (dsem 2 k)) hsc)}
    {α : Type} {Q : α → sProp 𝕄} {kont : PUnit → Prog (TpuEff nD τ sig (Elt F) Λ₀ .tc) α}
    (fd : (cc0_scratch1 : Ref sig .tc).ty.Contents (Elt F)) (O : CellTallies nD τ sig Unit) (W : Waits sig Unit) :
    iprop(cellInv ER (sched m) (K (c, ixD 2 k)) (cellD c 2 k) ∗ cellInv ER (sched m) (K (xn c, ixD 3 k)) (cellD (xn c) 3 k)
        ∗ cPts c (lo k) fullShare.left (cw1 m c k) ∗ cPts (xn c) (hi k) fullShare fd
        ∗ owes (c : Thread nD τ) (O + tallyAt (cellD (xn c) 3 k) () N) W
        ∗ dutyTok ER (cellD c 2 k) 0 false ∗ reached ER (cellD c 2 k) 0
        ∗ dutyTok ER (cellD (xn c) 3 k) 0 false ∗ reached ER (cellD (xn c) 3 k) 0)
      ⊢ iprop(((cred (tallyAt (cellD c 2 k) () N) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (cSl (lo k)) (.remote (Dev.tc n : Thread nD τ) (cSl (hi k)) (.dma (dsem 2 k)) hsc) (.dma (dsem 3 k)) hsrc hdst hsem) kont) Q) := by
  subst hn
  unfold cPts
  exact Rounds.wp_send_pointsTo 𝒱₀ ER (sched m) (c : Thread nD τ) none
    (src := cSl (lo k)) (dst := cSl (hi k)) (c' := (xn c : Thread nD τ)) (q := fullShare.left) (fs := cw1 m c k) (fd := fd)
    (κ₁ := K (c, ixD 2 k)) (κ₂ := K (xn c, ixD 3 k)) (r₁ := 0) (r₂ := 0) (d₁ := false) (d₂ := false)
    (by rw [duties_D]; exact Finset.mem_singleton_self _) (by rw [duties_D]; exact Finset.mem_singleton_self _)
    () () N rfl (amount_D m c 2 k false) (amount_D m (xn c) 3 k false) O rfl (W := W)
    (by rw [payload_D]; exact BI.Entails.refl _)
    (by rw [payload_D]; exact land2 m c k fd)

end Cert.KernelIdeal.AR

end
-- ==== Proof.ARLoad.lean ====
/-
  A load of one 32-row chunk through the whole landing buffer touches only that chunk's elements.
-/
import proofs.«900151_g7700000000000152_dist_ar_v7x_xy2x2_y_m512_n512_f32_1_alg».proof.Proof.ARData
import proofs.«900151_g7700000000000152_dist_ar_v7x_xy2x2_y_m512_n512_f32_1_alg».proof.Proof.ARGeom

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The box of rows 32j … 32j + 31, seen through the whole landing buffer, lies inside chunk `j`. -/
theorem load_sub (c : Dev nD) (j : Fin 16) :
    (cM : Memref sig .tc .vmem S512x512 .bf16).view.setOn ((cRect j).toLoadRect).set ⊆ (cSl j : Memref sig .tc .vmem S32x512 .bf16).view.set := by
  -- the whole buffer's view places an index at itself, so the elements under the box are the box's own;
  -- and chunk `j`'s elements are that same rectangle's
  rw [Geom.cSet_eq]
  have h : (cM : Memref sig .tc .vmem S512x512 .bf16).view.setOn ((cRect j).toLoadRect).set = ((cRect j).toLoadRect).set :=
    Finset.map_refl
  intro i hi
  rw [h] at hi
  exact hi

end Cert.KernelIdeal.AR

end
-- ==== Proof.ARBody.lean ====
/-
  One device's body, stepped from what the device starts with to what it leaves.

  In program order: the half of the input block the device is in charge of is rounded into the send buffer; the landing
  buffer is cut into its sixteen chunks and handed to the two neighbours with the two barrier signals; the barrier wait
  brings the neighbours' chunks; the eight chunks of the send buffer go to the y-neighbour; as each chunk from the
  y-neighbour arrives it is forwarded to the x-neighbour at half share and, from the half kept, added to the device's own
  rows; as each forwarded chunk arrives it is added to the rows of the other half; the departures are waited for, the
  thirty-two transfer cells close, and the two scratch buffers are whole again.
-/
import proofs.«900151_g7700000000000152_dist_ar_v7x_xy2x2_y_m512_n512_f32_1_alg».proof.Proof.ARData
import proofs.«900151_g7700000000000152_dist_ar_v7x_xy2x2_y_m512_n512_f32_1_alg».proof.Proof.ARTables
import proofs.«900151_g7700000000000152_dist_ar_v7x_xy2x2_y_m512_n512_f32_1_alg».proof.Proof.ARGeom
import proofs.«900151_g7700000000000152_dist_ar_v7x_xy2x2_y_m512_n512_f32_1_alg».proof.Proof.ARRules
import proofs.«900151_g7700000000000152_dist_ar_v7x_xy2x2_y_m512_n512_f32_1_alg».proof.Proof.ARLoad

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Tactic

variable (K : Dev nD × Fin 33 → ℕ)

theorem devY_eq (c : Dev nD) : (⟨k0_dev1 c, k0_dev1_lt c⟩ : Dev nD) = yn c := Fin.ext (k0_dev1_eq c)
theorem devX_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = xn c := Fin.ext (k0_dev14_eq c)
theorem dev15_eq (c : Dev nD) : (⟨k0_dev15 c, k0_dev15_lt c⟩ : Dev nD) = xn c := Fin.ext (k0_dev15_eq c)
theorem dev16_eq (c : Dev nD) : (⟨k0_dev16 c, k0_dev16_lt c⟩ : Dev nD) = xn c := Fin.ext (k0_dev16_eq c)
theorem dev17_eq (c : Dev nD) : (⟨k0_dev17 c, k0_dev17_lt c⟩ : Dev nD) = xn c := Fin.ext (k0_dev17_eq c)
theorem dev18_eq (c : Dev nD) : (⟨k0_dev18 c, k0_dev18_lt c⟩ : Dev nD) = xn c := Fin.ext (k0_dev18_eq c)

/-- What the device owes at launch, summand by summand, last paid first. -/
theorem O₀_eq (c : Dev nD) : O₀ c = 0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N + tallyAt (cellD (yn c) 1 7) () N + tallyAt (cellD (yn c) 1 6) () N + tallyAt (cellD (yn c) 1 5) () N + tallyAt (cellD (yn c) 1 4) () N + tallyAt (cellD (yn c) 1 3) () N + tallyAt (cellD (yn c) 1 2) () N + tallyAt (cellD (yn c) 1 1) () N + tallyAt (cellD (yn c) 1 0) () N
    + tallyAt (cellB (xn c)) () 1 + tallyAt (cellB (yn c)) () 1 := rfl

omit [FloatOps F] in
/-- A whole buffer's points-to, spelt through the whole memref's view. -/
theorem whole_eq (c : Dev nD) (b : Ref sig .tc) (f : b.ty.Contents (Elt F)) :
    ((Memref.whole b : Memref sig .tc _ _ _).view.loc (c : Thread nD τ) ↦[(Memref.whole b : Memref sig .tc _ _ _).view.set]{fullShare} f : sProp 𝕄)
      = (((c : Thread nD τ).loc b) ↦{fullShare} f) := by
  rw [View.set_whole]

/-! ## The schedule's payloads as the stepping reads them -/

/-- The y-unit on the y-neighbour's barrier cell, at the device itself (`yn (yn c) = c`): its own arrival chunks 0–7 and the
    word that its phase-one arrival cells are open. -/
theorem payY_peer (c : Dev nD) : (sched (F := F) m).payload (cellB (yn c)) 0 false = iprop(
    (∃ f, (cSl (lo 0)).view.loc (c : Thread nD τ) ↦[(cSl (lo 0)).view.set]{fullShare} f) ∗ (∃ f, (cSl (lo 1)).view.loc (c : Thread nD τ) ↦[(cSl (lo 1)).view.set]{fullShare} f) ∗ (∃ f, (cSl (lo 2)).view.loc (c : Thread nD τ) ↦[(cSl (lo 2)).view.set]{fullShare} f) ∗ (∃ f, (cSl (lo 3)).view.loc (c : Thread nD τ) ↦[(cSl (lo 3)).view.set]{fullShare} f) ∗ (∃ f, (cSl (lo 4)).view.loc (c : Thread nD τ) ↦[(cSl (lo 4)).view.set]{fullShare} f) ∗ (∃ f, (cSl (lo 5)).view.loc (c : Thread nD τ) ↦[(cSl (lo 5)).view.set]{fullShare} f) ∗ (∃ f, (cSl (lo 6)).view.loc (c : Thread nD τ) ↦[(cSl (lo 6)).view.set]{fullShare} f) ∗ (∃ f, (cSl (lo 7)).view.loc (c : Thread nD τ) ↦[(cSl (lo 7)).view.set]{fullShare} f) ∗ reached ER (cellD c 1 0) 0 ∗ reached ER (cellD c 1 1) 0 ∗ reached ER (cellD c 1 2) 0 ∗ reached ER (cellD c 1 3) 0 ∗ reached ER (cellD c 1 4) 0 ∗ reached ER (cellD c 1 5) 0 ∗ reached ER (cellD c 1 6) 0 ∗ reached ER (cellD c 1 7) 0) := by
  rw [payload_B_false]; unfold barPayY sep8With sep8 cPts; rw [yn_yn]
/-- The x-unit on the x-neighbour's barrier cell: its own arrival chunks 8–15 and the word for its phase-two arrival cells. -/
theorem payX_peer (c : Dev nD) : (sched (F := F) m).payload (cellB (xn c)) 0 true = iprop(
    (∃ f, (cSl (hi 0)).view.loc (c : Thread nD τ) ↦[(cSl (hi 0)).view.set]{fullShare} f) ∗ (∃ f, (cSl (hi 1)).view.loc (c : Thread nD τ) ↦[(cSl (hi 1)).view.set]{fullShare} f) ∗ (∃ f, (cSl (hi 2)).view.loc (c : Thread nD τ) ↦[(cSl (hi 2)).view.set]{fullShare} f) ∗ (∃ f, (cSl (hi 3)).view.loc (c : Thread nD τ) ↦[(cSl (hi 3)).view.set]{fullShare} f) ∗ (∃ f, (cSl (hi 4)).view.loc (c : Thread nD τ) ↦[(cSl (hi 4)).view.set]{fullShare} f) ∗ (∃ f, (cSl (hi 5)).view.loc (c : Thread nD τ) ↦[(cSl (hi 5)).view.set]{fullShare} f) ∗ (∃ f, (cSl (hi 6)).view.loc (c : Thread nD τ) ↦[(cSl (hi 6)).view.set]{fullShare} f) ∗ (∃ f, (cSl (hi 7)).view.loc (c : Thread nD τ) ↦[(cSl (hi 7)).view.set]{fullShare} f) ∗ reached ER (cellD c 3 0) 0 ∗ reached ER (cellD c 3 1) 0 ∗ reached ER (cellD c 3 2) 0 ∗ reached ER (cellD c 3 3) 0 ∗ reached ER (cellD c 3 4) 0 ∗ reached ER (cellD c 3 5) 0 ∗ reached ER (cellD c 3 6) 0 ∗ reached ER (cellD c 3 7) 0) := by
  rw [payload_B_true]; unfold barPayX sep8With sep8 cPts; rw [xn_xn]
/-- What the two units on the device's own barrier cell hand it. -/
theorem payY_own (c : Dev nD) : (sched (F := F) m).payload (cellB c) 0 false = iprop(
    (∃ f, cPts (yn c) (lo 0) fullShare f) ∗ (∃ f, cPts (yn c) (lo 1) fullShare f) ∗ (∃ f, cPts (yn c) (lo 2) fullShare f) ∗ (∃ f, cPts (yn c) (lo 3) fullShare f) ∗ (∃ f, cPts (yn c) (lo 4) fullShare f) ∗ (∃ f, cPts (yn c) (lo 5) fullShare f) ∗ (∃ f, cPts (yn c) (lo 6) fullShare f) ∗ (∃ f, cPts (yn c) (lo 7) fullShare f) ∗ reached ER (cellD (yn c) 1 0) 0 ∗ reached ER (cellD (yn c) 1 1) 0 ∗ reached ER (cellD (yn c) 1 2) 0 ∗ reached ER (cellD (yn c) 1 3) 0 ∗ reached ER (cellD (yn c) 1 4) 0 ∗ reached ER (cellD (yn c) 1 5) 0 ∗ reached ER (cellD (yn c) 1 6) 0 ∗ reached ER (cellD (yn c) 1 7) 0) := by
  rw [payload_B_false]; rfl
theorem payX_own (c : Dev nD) : (sched (F := F) m).payload (cellB c) 0 true = iprop(
    (∃ f, cPts (xn c) (hi 0) fullShare f) ∗ (∃ f, cPts (xn c) (hi 1) fullShare f) ∗ (∃ f, cPts (xn c) (hi 2) fullShare f) ∗ (∃ f, cPts (xn c) (hi 3) fullShare f) ∗ (∃ f, cPts (xn c) (hi 4) fullShare f) ∗ (∃ f, cPts (xn c) (hi 5) fullShare f) ∗ (∃ f, cPts (xn c) (hi 6) fullShare f) ∗ (∃ f, cPts (xn c) (hi 7) fullShare f) ∗ reached ER (cellD (xn c) 3 0) 0 ∗ reached ER (cellD (xn c) 3 1) 0 ∗ reached ER (cellD (xn c) 3 2) 0 ∗ reached ER (cellD (xn c) 3 3) 0 ∗ reached ER (cellD (xn c) 3 4) 0 ∗ reached ER (cellD (xn c) 3 5) 0 ∗ reached ER (cellD (xn c) 3 6) 0 ∗ reached ER (cellD (xn c) 3 7) 0) := by
  rw [payload_B_true]; rfl
/-- The transfer cells' payloads, family by family. -/
theorem payD0 (c : Dev nD) (k : Fin 8) (d : Bool) : (sched (F := F) m).payload (cellD c 0 k) 0 d = sPts c k fullShare (sbufC m c) := by rw [payload_D]; rfl
theorem payD1 (c : Dev nD) (k : Fin 8) (d : Bool) : (sched (F := F) m).payload (cellD c 1 k) 0 d = cPts c (lo k) fullShare (cw1 m c k) := by rw [payload_D]; rfl
theorem payD2 (c : Dev nD) (k : Fin 8) (d : Bool) : (sched (F := F) m).payload (cellD c 2 k) 0 d = cPts c (lo k) fullShare.left (cw1 m c k) := by rw [payload_D]; rfl
theorem payD3 (c : Dev nD) (k : Fin 8) (d : Bool) : (sched (F := F) m).payload (cellD c 3 k) 0 d = cPts c (hi k) fullShare (cw2 m c k) := by rw [payload_D]; rfl

attribute [local sl_rounds] duties_B duties_D amount_B amount_D expect_B expect_D payY_own payX_own payD0 payD1 payD2 payD3
attribute [local sl_rounds high] payY_peer payX_peer
attribute [local sl_canon] devY_eq devX_eq dev3_eq dev4_eq dev5_eq dev6_eq dev7_eq dev8_eq dev9_eq dev10_eq dev11_eq dev12_eq dev13_eq dev14_eq dev15_eq dev16_eq dev17_eq dev18_eq

/-- The barrier cell's round, duty by duty: what the y-neighbour's unit and the x-neighbour's unit hand over. -/
theorem bar_round (c : Dev nD) : (bigSep Finset.univ (fun d : Bool => (sched (F := F) m).payload (cellB c) 0 d)) = iprop(
    ((∃ f, cPts (yn c) (lo 0) fullShare f) ∗ (∃ f, cPts (yn c) (lo 1) fullShare f) ∗ (∃ f, cPts (yn c) (lo 2) fullShare f) ∗ (∃ f, cPts (yn c) (lo 3) fullShare f) ∗ (∃ f, cPts (yn c) (lo 4) fullShare f) ∗ (∃ f, cPts (yn c) (lo 5) fullShare f) ∗ (∃ f, cPts (yn c) (lo 6) fullShare f) ∗ (∃ f, cPts (yn c) (lo 7) fullShare f) ∗ reached ER (cellD (yn c) 1 0) 0 ∗ reached ER (cellD (yn c) 1 1) 0 ∗ reached ER (cellD (yn c) 1 2) 0 ∗ reached ER (cellD (yn c) 1 3) 0 ∗ reached ER (cellD (yn c) 1 4) 0 ∗ reached ER (cellD (yn c) 1 5) 0 ∗ reached ER (cellD (yn c) 1 6) 0 ∗ reached ER (cellD (yn c) 1 7) 0)
    ∗ ((∃ f, cPts (xn c) (hi 0) fullShare f) ∗ (∃ f, cPts (xn c) (hi 1) fullShare f) ∗ (∃ f, cPts (xn c) (hi 2) fullShare f) ∗ (∃ f, cPts (xn c) (hi 3) fullShare f) ∗ (∃ f, cPts (xn c) (hi 4) fullShare f) ∗ (∃ f, cPts (xn c) (hi 5) fullShare f) ∗ (∃ f, cPts (xn c) (hi 6) fullShare f) ∗ (∃ f, cPts (xn c) (hi 7) fullShare f) ∗ reached ER (cellD (xn c) 3 0) 0 ∗ reached ER (cellD (xn c) 3 1) 0 ∗ reached ER (cellD (xn c) 3 2) 0 ∗ reached ER (cellD (xn c) 3 3) 0 ∗ reached ER (cellD (xn c) 3 4) 0 ∗ reached ER (cellD (xn c) 3 5) 0 ∗ reached ER (cellD (xn c) 3 6) 0 ∗ reached ER (cellD (xn c) 3 7) 0)) := by
  rw [bigSep_univ_eq_bigSepL [false, true] (by decide) (by decide), bigSepL_cons_cons, bigSepL_singleton, payY_own, payX_own]
  rfl

omit [FloatOps F] in
theorem cPts_eq (c : Dev nD) (j : Fin 16) (q : PosShare TreeShare) (f : (cc0_scratch1 : Ref sig .tc).ty.Contents (Elt F)) :
    (cPts c j q f : sProp 𝕄) = ((cSl j).view.loc (c : Thread nD τ) ↦[(cSl j).view.set]{q} f) := rfl

omit [FloatOps F] in
theorem hz2 : (![0, 0] : Fin 2 → Nat) = fun _ => 0 := funext fun a => by fin_cases a <;> rfl

omit [FloatOps F] in
/-- One store of the whole send buffer leaves what was stored. -/
theorem sbuf_written (f w : (cc0_scratch0 : Ref sig .tc).ty.Contents (Elt F)) :
    (sM : Memref sig .tc .vmem S256x512 .bf16).view.writes (Elt F) f [⟨Rect.unit (s := S256x512) ![0, 0] S256x512.size inb_S256x512_S256x512_0_0, w⟩] = w := by
  show (((sM : Memref sig .tc .vmem S256x512 .bf16).access (Rect.unit (s := S256x512) ![0, 0] S256x512.size inb_S256x512_S256x512_0_0) : View sig .tc _ _ _).write (Elt F) f w Finset.univ = w)
  exact Memref.write_access_unit_zero_univ (Elt F) cc0_scratch0 hz2 _ f w

/-- The send buffer, held whole at the rounded half, cut into its eight chunks. -/
theorem s_cut (c : Dev nD) :
    ((sM : Memref sig .tc .vmem S256x512 .bf16).view.loc (c : Thread nD τ) ↦[(sM : Memref sig .tc .vmem S256x512 .bf16).view.set]{fullShare} sbufC m c : sProp 𝕄)
      ⊢ iprop(sPts c 0 fullShare (sbufC m c) ∗ sPts c 1 fullShare (sbufC m c) ∗ sPts c 2 fullShare (sbufC m c) ∗ sPts c 3 fullShare (sbufC m c) ∗ sPts c 4 fullShare (sbufC m c) ∗ sPts c 5 fullShare (sbufC m c) ∗ sPts c 6 fullShare (sbufC m c) ∗ sPts c 7 fullShare (sbufC m c)) := by
  rw [whole_eq]; exact (s_split c (sbufC m c)).1

/-- A transfer cell of the device's own, its one round consumed, closes: its counter at zero is the device's again. -/
theorem close_D (c : Dev nD) (a : Fin 4) (k : Fin 8) :
    iprop(cellInv ER (sched m) (K (c, ixD a k)) (cellD c a k) ∗ atPos ER (cellD c a k) 1 ∅ 0)
      ⊢ (|={Set.univ}=> semVal (cellD c a k) 0 : sProp 𝕄) :=
  Rounds.cell_close ER (sched m) (Set.mem_univ (K (c, ixD a k))) (fun h => h) (R := 1) (duties_later m (cellD c a k))

set_option maxHeartbeats 8000000 in
set_option maxRecDepth 65536 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold bodyPre ghost invs positions opened payToks creds sep8 sWhole
  beta_reduce
  iintro ⟨⟨⟨⟨⟨#IB, ⟨#I0_0, #I0_1, #I0_2, #I0_3, #I0_4, #I0_5, #I0_6, #I0_7⟩, ⟨#I1_0, #I1_1, #I1_2, #I1_3, #I1_4, #I1_5, #I1_6, #I1_7⟩, ⟨#I2_0, #I2_1, #I2_2, #I2_3, #I2_4, #I2_5, #I2_6, #I2_7⟩, ⟨#I3_0, #I3_1, #I3_2, #I3_3, #I3_4, #I3_5, #I3_6, #I3_7⟩, #IBy, #IBx, ⟨#Iy_0, #Iy_1, #Iy_2, #Iy_3, #Iy_4, #Iy_5, #Iy_6, #Iy_7⟩, ⟨#Ix_0, #Ix_1, #Ix_2, #Ix_3, #Ix_4, #Ix_5, #Ix_6, #Ix_7⟩⟩,
      ⟨AB, ⟨A0_0, A0_1, A0_2, A0_3, A0_4, A0_5, A0_6, A0_7⟩, ⟨A1_0, A1_1, A1_2, A1_3, A1_4, A1_5, A1_6, A1_7⟩, ⟨A2_0, A2_1, A2_2, A2_3, A2_4, A2_5, A2_6, A2_7⟩, ⟨A3_0, A3_1, A3_2, A3_3, A3_4, A3_5, A3_6, A3_7⟩⟩,
      ⟨#RBy, #RBx, ⟨#Ry_0, #Ry_1, #Ry_2, #Ry_3, #Ry_4, #Ry_5, #Ry_6, #Ry_7⟩, ⟨#Rx_0, #Rx_1, #Rx_2, #Rx_3, #Rx_4, #Rx_5, #Rx_6, #Rx_7⟩, ⟨#R0_0, #R0_1, #R0_2, #R0_3, #R0_4, #R0_5, #R0_6, #R0_7⟩, ⟨#R1_0, #R1_1, #R1_2, #R1_3, #R1_4, #R1_5, #R1_6, #R1_7⟩, ⟨#R2_0, #R2_1, #R2_2, #R2_3, #R2_4, #R2_5, #R2_6, #R2_7⟩, ⟨#R3_0, #R3_1, #R3_2, #R3_3, #R3_4, #R3_5, #R3_6, #R3_7⟩⟩,
      ⟨TBy, TBx, ⟨Ty_0, Ty_1, Ty_2, Ty_3, Ty_4, Ty_5, Ty_6, Ty_7⟩, ⟨Tx_0, Tx_1, Tx_2, Tx_3, Tx_4, Tx_5, Tx_6, Tx_7⟩, ⟨T0_0, T0_1, T0_2, T0_3, T0_4, T0_5, T0_6, T0_7⟩, ⟨T2_0, T2_1, T2_2, T2_3, T2_4, T2_5, T2_6, T2_7⟩⟩⟩,
     ⟨CB, ⟨C1_0, C1_1, C1_2, C1_3, C1_4, C1_5, C1_6, C1_7⟩, ⟨C3_0, C3_1, C3_2, C3_3, C3_4, C3_5, C3_6, C3_7⟩⟩, #Hlev, ⟨%fs0, Hs⟩, ⟨%fc0, Hc⟩⟩,
    Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  ihave Hx := (Entails.of_eq (whole_eq c cc0_stg0_0 _).symm) $$ Hx
  ihave Hout := (Entails.of_eq (whole_eq c cc0_stg1_0 _).symm) $$ Hout
  ihave Hs := (Entails.of_eq (whole_eq c cc0_scratch0 _).symm) $$ Hs
  -- the landing buffer in its sixteen chunks: the two signals hand them to the neighbours
  ihave Hcs := (c_split c fc0).1 $$ Hc
  unfold sep8 cPts
  beta_reduce
  icases Hcs with ⟨⟨CL0, CL1, CL2, CL3, CL4, CL5, CL6, CL7⟩, ⟨CH0, CH1, CH2, CH3, CH4, CH5, CH6, CH7⟩⟩
  rw [O₀_eq]
  have hmwB : (levAts L lv : sProp 𝕄) ⊢ MayWait (c : Thread nD τ) (.reg barS) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N + tallyAt (cellD (yn c) 1 7) () N + tallyAt (cellD (yn c) 1 6) () N + tallyAt (cellD (yn c) 1 5) () N + tallyAt (cellD (yn c) 1 4) () N + tallyAt (cellD (yn c) 1 3) () N + tallyAt (cellD (yn c) 1 2) () N + tallyAt (cellD (yn c) 1 1) () N + tallyAt (cellD (yn c) 1 0) () N) := mayWait_B c
  have hmw1_0 : (levAts L lv : sProp 𝕄) ⊢ MayWait (c : Thread nD τ) (.dma (dsem 1 0)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N) := mayWait_R1 c 0 8 (by omega)
  have hmw1_1 : (levAts L lv : sProp 𝕄) ⊢ MayWait (c : Thread nD τ) (.dma (dsem 1 1)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N) := mayWait_R1 c 1 7 (by omega)
  have hmw1_2 : (levAts L lv : sProp 𝕄) ⊢ MayWait (c : Thread nD τ) (.dma (dsem 1 2)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N) := mayWait_R1 c 2 6 (by omega)
  have hmw1_3 : (levAts L lv : sProp 𝕄) ⊢ MayWait (c : Thread nD τ) (.dma (dsem 1 3)) () (0 + tallyAt (cellD (xn c) 3 7) () N + tallyAt (cellD (xn c) 3 6) () N + tallyAt (cellD (xn c) 3 5) () N + tallyAt (cellD (xn c) 3 4) () N + tallyAt (cellD (xn c) 3 3) () N) := mayWait_R1 c 3 5 (by omega)
  have hmw1_4 : (levAts L lv : sProp 𝕄) ⊢ MayWait (c : Thread nD τ) (.dma (dsem 1 4)) () (0 + tallyAt (cellD (xn c) 3 7) () N + tallyAt (cellD (xn c) 3 6) () N + tallyAt (cellD (xn c) 3 5) () N + tallyAt (cellD (xn c) 3 4) () N) := mayWait_R1 c 4 4 (by omega)
  have hmw1_5 : (levAts L lv : sProp 𝕄) ⊢ MayWait (c : Thread nD τ) (.dma (dsem 1 5)) () (0 + tallyAt (cellD (xn c) 3 7) () N + tallyAt (cellD (xn c) 3 6) () N + tallyAt (cellD (xn c) 3 5) () N) := mayWait_R1 c 5 3 (by omega)
  have hmw1_6 : (levAts L lv : sProp 𝕄) ⊢ MayWait (c : Thread nD τ) (.dma (dsem 1 6)) () (0 + tallyAt (cellD (xn c) 3 7) () N + tallyAt (cellD (xn c) 3 6) () N) := mayWait_R1 c 6 2 (by omega)
  have hmw1_7 : (levAts L lv : sProp 𝕄) ⊢ MayWait (c : Thread nD τ) (.dma (dsem 1 7)) () (0 + tallyAt (cellD (xn c) 3 7) () N) := mayWait_R1 c 7 1 (by omega)
  have hdY := devY_eq c
  have hdX := devX_eq c
  sl_unfold [cc0_body]
  -- the rounded half stored, both neighbours signalled, the barrier waited for
  sl_exec (disch := first | exact land1 m c _ _ | exact land2 m c _ _)
  -- the barrier's round: the y-neighbour's arrival chunks 0–7 and the x-neighbour's 8–15, to send into
  ihave HP := (Entails.of_eq (bar_round m c)) $$ AB_pay1
  icases HP with ⟨⟨⟨%fy0, DY0⟩, ⟨%fy1, DY1⟩, ⟨%fy2, DY2⟩, ⟨%fy3, DY3⟩, ⟨%fy4, DY4⟩, ⟨%fy5, DY5⟩, ⟨%fy6, DY6⟩, ⟨%fy7, DY7⟩, -⟩, ⟨⟨%fx0, DX0⟩, ⟨%fx1, DX1⟩, ⟨%fx2, DX2⟩, ⟨%fx3, DX3⟩, ⟨%fx4, DX4⟩, ⟨%fx5, DX5⟩, ⟨%fx6, DX6⟩, ⟨%fx7, DX7⟩, -⟩⟩
  -- the send buffer holds the rounded half; cut it into the eight chunks the transfers lend
  rw [sbuf_written]
  ihave HS := (s_cut m c) $$ [Hs]
  · iexact Hs
  icases HS with ⟨S0, S1, S2, S3, S4, S5, S6, S7⟩
  -- phase one, chunk 0: into the y-neighbour's arrival chunk 0
  iapply (wp_send1 m K c _ rfl 0 fy0 _ _) $$ [S0 DY0 HO T0_0 Ty_0]
  · isplitr; · iexact I0_0
    isplitr; · iexact Iy_0
    isplitl [S0]; · iexact S0
    isplitl [DY0]; · iexact DY0
    isplitl [HO]; · iexact HO
    isplitl [T0_0]; · iexact T0_0
    isplitr; · iexact R0_0
    isplitl [Ty_0]; · iexact Ty_0
    iexact Ry_0
  iintro ⟨CS1_0, HO⟩
  sl_exec (disch := first | exact land1 m c _ _ | exact land2 m c _ _)
  -- phase one, chunk 1: into the y-neighbour's arrival chunk 1
  iapply (wp_send1 m K c _ rfl 1 fy1 _ _) $$ [S1 DY1 HO T0_1 Ty_1]
  · isplitr; · iexact I0_1
    isplitr; · iexact Iy_1
    isplitl [S1]; · iexact S1
    isplitl [DY1]; · iexact DY1
    isplitl [HO]; · iexact HO
    isplitl [T0_1]; · iexact T0_1
    isplitr; · iexact R0_1
    isplitl [Ty_1]; · iexact Ty_1
    iexact Ry_1
  iintro ⟨CS1_1, HO⟩
  sl_exec (disch := first | exact land1 m c _ _ | exact land2 m c _ _)
  -- phase one, chunk 2: into the y-neighbour's arrival chunk 2
  iapply (wp_send1 m K c _ rfl 2 fy2 _ _) $$ [S2 DY2 HO T0_2 Ty_2]
  · isplitr; · iexact I0_2
    isplitr; · iexact Iy_2
    isplitl [S2]; · iexact S2
    isplitl [DY2]; · iexact DY2
    isplitl [HO]; · iexact HO
    isplitl [T0_2]; · iexact T0_2
    isplitr; · iexact R0_2
    isplitl [Ty_2]; · iexact Ty_2
    iexact Ry_2
  iintro ⟨CS1_2, HO⟩
  sl_exec (disch := first | exact land1 m c _ _ | exact land2 m c _ _)
  -- phase one, chunk 3: into the y-neighbour's arrival chunk 3
  iapply (wp_send1 m K c _ rfl 3 fy3 _ _) $$ [S3 DY3 HO T0_3 Ty_3]
  · isplitr; · iexact I0_3
    isplitr; · iexact Iy_3
    isplitl [S3]; · iexact S3
    isplitl [DY3]; · iexact DY3
    isplitl [HO]; · iexact HO
    isplitl [T0_3]; · iexact T0_3
    isplitr; · iexact R0_3
    isplitl [Ty_3]; · iexact Ty_3
    iexact Ry_3
  iintro ⟨CS1_3, HO⟩
  sl_exec (disch := first | exact land1 m c _ _ | exact land2 m c _ _)
  -- phase one, chunk 4: into the y-neighbour's arrival chunk 4
  iapply (wp_send1 m K c _ rfl 4 fy4 _ _) $$ [S4 DY4 HO T0_4 Ty_4]
  · isplitr; · iexact I0_4
    isplitr; · iexact Iy_4
    isplitl [S4]; · iexact S4
    isplitl [DY4]; · iexact DY4
    isplitl [HO]; · iexact HO
    isplitl [T0_4]; · iexact T0_4
    isplitr; · iexact R0_4
    isplitl [Ty_4]; · iexact Ty_4
    iexact Ry_4
  iintro ⟨CS1_4, HO⟩
  sl_exec (disch := first | exact land1 m c _ _ | exact land2 m c _ _)
  -- phase one, chunk 5: into the y-neighbour's arrival chunk 5
  iapply (wp_send1 m K c _ rfl 5 fy5 _ _) $$ [S5 DY5 HO T0_5 Ty_5]
  · isplitr; · iexact I0_5
    isplitr; · iexact Iy_5
    isplitl [S5]; · iexact S5
    isplitl [DY5]; · iexact DY5
    isplitl [HO]; · iexact HO
    isplitl [T0_5]; · iexact T0_5
    isplitr; · iexact R0_5
    isplitl [Ty_5]; · iexact Ty_5
    iexact Ry_5
  iintro ⟨CS1_5, HO⟩
  sl_exec (disch := first | exact land1 m c _ _ | exact land2 m c _ _)
  -- phase one, chunk 6: into the y-neighbour's arrival chunk 6
  iapply (wp_send1 m K c _ rfl 6 fy6 _ _) $$ [S6 DY6 HO T0_6 Ty_6]
  · isplitr; · iexact I0_6
    isplitr; · iexact Iy_6
    isplitl [S6]; · iexact S6
    isplitl [DY6]; · iexact DY6
    isplitl [HO]; · iexact HO
    isplitl [T0_6]; · iexact T0_6
    isplitr; · iexact R0_6
    isplitl [Ty_6]; · iexact Ty_6
    iexact Ry_6
  iintro ⟨CS1_6, HO⟩
  sl_exec (disch := first | exact land1 m c _ _ | exact land2 m c _ _)
  -- phase one, chunk 7: into the y-neighbour's arrival chunk 7
  iapply (wp_send1 m K c _ rfl 7 fy7 _ _) $$ [S7 DY7 HO T0_7 Ty_7]
  · isplitr; · iexact I0_7
    isplitr; · iexact Iy_7
    isplitl [S7]; · iexact S7
    isplitl [DY7]; · iexact DY7
    isplitl [HO]; · iexact HO
    isplitl [T0_7]; · iexact T0_7
    isplitr; · iexact R0_7
    isplitl [Ty_7]; · iexact Ty_7
    iexact Ry_7
  iintro ⟨CS1_7, HO⟩
  sl_exec (disch := first | exact land1 m c _ _ | exact land2 m c _ _)
  -- phase two, chunk 0: its arrival is in; forward it to the x-neighbour at half share, keep the other half to read
  ihave H2 := (c_halves c (lo 0) (cw1 m c 0)).1 $$ [A1_0_pay1]
  · iexact A1_0_pay1
  icases H2 with ⟨HL0, HR0⟩
  iapply (wp_send2 m K c _ rfl 0 fx0 _ _) $$ [HL0 DX0 HO T2_0 Tx_0]
  · isplitr; · iexact I2_0
    isplitr; · iexact Ix_0
    isplitl [HL0]; · iexact HL0
    isplitl [DX0]; · iexact DX0
    isplitl [HO]; · iexact HO
    isplitl [T2_0]; · iexact T2_0
    isplitr; · iexact R2_0
    isplitl [Tx_0]; · iexact Tx_0
    iexact Rx_0
  iintro ⟨CS2_0, HO⟩
  -- the device's own rows, then what arrived for them, read from the half kept
  sl_exec (disch := first | exact land1 m c _ _ | exact land2 m c _ _)
  ihave HR0u := (Entails.of_eq (cPts_eq c (lo 0) fullShare.right (cw1 m c 0))) $$ HR0
  iapply (wp_load 𝒱₀ (c : Thread nD τ) none Set.univ (m := cM) (S := (cSl (lo 0)).view.set) (q := fullShare.right) (f := cw1 m c 0) (load_sub c (lo 0))) $$ [HR0u]
  · iexact HR0u
  iintro HR0u
  ihave HR0 := (Entails.of_eq (cPts_eq c (lo 0) fullShare.right (cw1 m c 0)).symm) $$ [HR0u]
  · iexact HR0u
  sl_exec (disch := first | exact land1 m c _ _ | exact land2 m c _ _)
  -- phase two, chunk 1: its arrival is in; forward it to the x-neighbour at half share, keep the other half to read
  ihave H2 := (c_halves c (lo 1) (cw1 m c 1)).1 $$ [A1_1_pay1]
  · iexact A1_1_pay1
  icases H2 with ⟨HL1, HR1⟩
  iapply (wp_send2 m K c _ rfl 1 fx1 _ _) $$ [HL1 DX1 HO T2_1 Tx_1]
  · isplitr; · iexact I2_1
    isplitr; · iexact Ix_1
    isplitl [HL1]; · iexact HL1
    isplitl [DX1]; · iexact DX1
    isplitl [HO]; · iexact HO
    isplitl [T2_1]; · iexact T2_1
    isplitr; · iexact R2_1
    isplitl [Tx_1]; · iexact Tx_1
    iexact Rx_1
  iintro ⟨CS2_1, HO⟩
  -- the device's own rows, then what arrived for them, read from the half kept
  sl_exec (disch := first | exact land1 m c _ _ | exact land2 m c _ _)
  ihave HR1u := (Entails.of_eq (cPts_eq c (lo 1) fullShare.right (cw1 m c 1))) $$ HR1
  iapply (wp_load 𝒱₀ (c : Thread nD τ) none Set.univ (m := cM) (S := (cSl (lo 1)).view.set) (q := fullShare.right) (f := cw1 m c 1) (load_sub c (lo 1))) $$ [HR1u]
  · iexact HR1u
  iintro HR1u
  ihave HR1 := (Entails.of_eq (cPts_eq c (lo 1) fullShare.right (cw1 m c 1)).symm) $$ [HR1u]
  · iexact HR1u
  sl_exec (disch := first | exact land1 m c _ _ | exact land2 m c _ _)
  -- phase two, chunk 2: its arrival is in; forward it to the x-neighbour at half share, keep the other half to read
  ihave H2 := (c_halves c (lo 2) (cw1 m c 2)).1 $$ [A1_2_pay1]
  · iexact A1_2_pay1
  icases H2 with ⟨HL2, HR2⟩
  iapply (wp_send2 m K c _ rfl 2 fx2 _ _) $$ [HL2 DX2 HO T2_2 Tx_2]
  · isplitr; · iexact I2_2
    isplitr; · iexact Ix_2
    isplitl [HL2]; · iexact HL2
    isplitl [DX2]; · iexact DX2
    isplitl [HO]; · iexact HO
    isplitl [T2_2]; · iexact T2_2
    isplitr; · iexact R2_2
    isplitl [Tx_2]; · iexact Tx_2
    iexact Rx_2
  iintro ⟨CS2_2, HO⟩
  -- the device's own rows, then what arrived for them, read from the half kept
  sl_exec (disch := first | exact land1 m c _ _ | exact land2 m c _ _)
  ihave HR2u := (Entails.of_eq (cPts_eq c (lo 2) fullShare.right (cw1 m c 2))) $$ HR2
  iapply (wp_load 𝒱₀ (c : Thread nD τ) none Set.univ (m := cM) (S := (cSl (lo 2)).view.set) (q := fullShare.right) (f := cw1 m c 2) (load_sub c (lo 2))) $$ [HR2u]
  · iexact HR2u
  iintro HR2u
  ihave HR2 := (Entails.of_eq (cPts_eq c (lo 2) fullShare.right (cw1 m c 2)).symm) $$ [HR2u]
  · iexact HR2u
  sl_exec (disch := first | exact land1 m c _ _ | exact land2 m c _ _)
  -- phase two, chunk 3: its arrival is in; forward it to the x-neighbour at half share, keep the other half to read
  ihave H2 := (c_halves c (lo 3) (cw1 m c 3)).1 $$ [A1_3_pay1]
  · iexact A1_3_pay1
  icases H2 with ⟨HL3, HR3⟩
  iapply (wp_send2 m K c _ rfl 3 fx3 _ _) $$ [HL3 DX3 HO T2_3 Tx_3]
  · isplitr; · iexact I2_3
    isplitr; · iexact Ix_3
    isplitl [HL3]; · iexact HL3
    isplitl [DX3]; · iexact DX3
    isplitl [HO]; · iexact HO
    isplitl [T2_3]; · iexact T2_3
    isplitr; · iexact R2_3
    isplitl [Tx_3]; · iexact Tx_3
    iexact Rx_3
  iintro ⟨CS2_3, HO⟩
  -- the device's own rows, then what arrived for them, read from the half kept
  sl_exec (disch := first | exact land1 m c _ _ | exact land2 m c _ _)
  ihave HR3u := (Entails.of_eq (cPts_eq c (lo 3) fullShare.right (cw1 m c 3))) $$ HR3
  iapply (wp_load 𝒱₀ (c : Thread nD τ) none Set.univ (m := cM) (S := (cSl (lo 3)).view.set) (q := fullShare.right) (f := cw1 m c 3) (load_sub c (lo 3))) $$ [HR3u]
  · iexact HR3u
  iintro HR3u
  ihave HR3 := (Entails.of_eq (cPts_eq c (lo 3) fullShare.right (cw1 m c 3)).symm) $$ [HR3u]
  · iexact HR3u
  sl_exec (disch := first | exact land1 m c _ _ | exact land2 m c _ _)
  -- phase two, chunk 4: its arrival is in; forward it to the x-neighbour at half share, keep the other half to read
  ihave H2 := (c_halves c (lo 4) (cw1 m c 4)).1 $$ [A1_4_pay1]
  · iexact A1_4_pay1
  icases H2 with ⟨HL4, HR4⟩
  iapply (wp_send2 m K c _ rfl 4 fx4 _ _) $$ [HL4 DX4 HO T2_4 Tx_4]
  · isplitr; · iexact I2_4
    isplitr; · iexact Ix_4
    isplitl [HL4]; · iexact HL4
    isplitl [DX4]; · iexact DX4
    isplitl [HO]; · iexact HO
    isplitl [T2_4]; · iexact T2_4
    isplitr; · iexact R2_4
    isplitl [Tx_4]; · iexact Tx_4
    iexact Rx_4
  iintro ⟨CS2_4, HO⟩
  -- the device's own rows, then what arrived for them, read from the half kept
  sl_exec (disch := first | exact land1 m c _ _ | exact land2 m c _ _)
  ihave HR4u := (Entails.of_eq (cPts_eq c (lo 4) fullShare.right (cw1 m c 4))) $$ HR4
  iapply (wp_load 𝒱₀ (c : Thread nD τ) none Set.univ (m := cM) (S := (cSl (lo 4)).view.set) (q := fullShare.right) (f := cw1 m c 4) (load_sub c (lo 4))) $$ [HR4u]
  · iexact HR4u
  iintro HR4u
  ihave HR4 := (Entails.of_eq (cPts_eq c (lo 4) fullShare.right (cw1 m c 4)).symm) $$ [HR4u]
  · iexact HR4u
  sl_exec (disch := first | exact land1 m c _ _ | exact land2 m c _ _)
  -- phase two, chunk 5: its arrival is in; forward it to the x-neighbour at half share, keep the other half to read
  ihave H2 := (c_halves c (lo 5) (cw1 m c 5)).1 $$ [A1_5_pay1]
  · iexact A1_5_pay1
  icases H2 with ⟨HL5, HR5⟩
  iapply (wp_send2 m K c _ rfl 5 fx5 _ _) $$ [HL5 DX5 HO T2_5 Tx_5]
  · isplitr; · iexact I2_5
    isplitr; · iexact Ix_5
    isplitl [HL5]; · iexact HL5
    isplitl [DX5]; · iexact DX5
    isplitl [HO]; · iexact HO
    isplitl [T2_5]; · iexact T2_5
    isplitr; · iexact R2_5
    isplitl [Tx_5]; · iexact Tx_5
    iexact Rx_5
  iintro ⟨CS2_5, HO⟩
  -- the device's own rows, then what arrived for them, read from the half kept
  sl_exec (disch := first | exact land1 m c _ _ | exact land2 m c _ _)
  ihave HR5u := (Entails.of_eq (cPts_eq c (lo 5) fullShare.right (cw1 m c 5))) $$ HR5
  iapply (wp_load 𝒱₀ (c : Thread nD τ) none Set.univ (m := cM) (S := (cSl (lo 5)).view.set) (q := fullShare.right) (f := cw1 m c 5) (load_sub c (lo 5))) $$ [HR5u]
  · iexact HR5u
  iintro HR5u
  ihave HR5 := (Entails.of_eq (cPts_eq c (lo 5) fullShare.right (cw1 m c 5)).symm) $$ [HR5u]
  · iexact HR5u
  sl_exec (disch := first | exact land1 m c _ _ | exact land2 m c _ _)
  -- phase two, chunk 6: its arrival is in; forward it to the x-neighbour at half share, keep the other half to read
  ihave H2 := (c_halves c (lo 6) (cw1 m c 6)).1 $$ [A1_6_pay1]
  · iexact A1_6_pay1
  icases H2 with ⟨HL6, HR6⟩
  iapply (wp_send2 m K c _ rfl 6 fx6 _ _) $$ [HL6 DX6 HO T2_6 Tx_6]
  · isplitr; · iexact I2_6
    isplitr; · iexact Ix_6
    isplitl [HL6]; · iexact HL6
    isplitl [DX6]; · iexact DX6
    isplitl [HO]; · iexact HO
    isplitl [T2_6]; · iexact T2_6
    isplitr; · iexact R2_6
    isplitl [Tx_6]; · iexact Tx_6
    iexact Rx_6
  iintro ⟨CS2_6, HO⟩
  -- the device's own rows, then what arrived for them, read from the half kept
  sl_exec (disch := first | exact land1 m c _ _ | exact land2 m c _ _)
  ihave HR6u := (Entails.of_eq (cPts_eq c (lo 6) fullShare.right (cw1 m c 6))) $$ HR6
  iapply (wp_load 𝒱₀ (c : Thread nD τ) none Set.univ (m := cM) (S := (cSl (lo 6)).view.set) (q := fullShare.right) (f := cw1 m c 6) (load_sub c (lo 6))) $$ [HR6u]
  · iexact HR6u
  iintro HR6u
  ihave HR6 := (Entails.of_eq (cPts_eq c (lo 6) fullShare.right (cw1 m c 6)).symm) $$ [HR6u]
  · iexact HR6u
  sl_exec (disch := first | exact land1 m c _ _ | exact land2 m c _ _)
  -- phase two, chunk 7: its arrival is in; forward it to the x-neighbour at half share, keep the other half to read
  ihave H2 := (c_halves c (lo 7) (cw1 m c 7)).1 $$ [A1_7_pay1]
  · iexact A1_7_pay1
  icases H2 with ⟨HL7, HR7⟩
  iapply (wp_send2 m K c _ rfl 7 fx7 _ _) $$ [HL7 DX7 HO T2_7 Tx_7]
  · isplitr; · iexact I2_7
    isplitr; · iexact Ix_7
    isplitl [HL7]; · iexact HL7
    isplitl [DX7]; · iexact DX7
    isplitl [HO]; · iexact HO
    isplitl [T2_7]; · iexact T2_7
    isplitr; · iexact R2_7
    isplitl [Tx_7]; · iexact Tx_7
    iexact Rx_7
  iintro ⟨CS2_7, HO⟩
  -- the device's own rows, then what arrived for them, read from the half kept
  sl_exec (disch := first | exact land1 m c _ _ | exact land2 m c _ _)
  ihave HR7u := (Entails.of_eq (cPts_eq c (lo 7) fullShare.right (cw1 m c 7))) $$ HR7
  iapply (wp_load 𝒱₀ (c : Thread nD τ) none Set.univ (m := cM) (S := (cSl (lo 7)).view.set) (q := fullShare.right) (f := cw1 m c 7) (load_sub c (lo 7))) $$ [HR7u]
  · iexact HR7u
  iintro HR7u
  ihave HR7 := (Entails.of_eq (cPts_eq c (lo 7) fullShare.right (cw1 m c 7)).symm) $$ [HR7u]
  · iexact HR7u
  sl_exec (disch := first | exact land1 m c _ _ | exact land2 m c _ _)
  -- the other half, chunk 0: the forwarded chunk is in; read it and add
  ihave A3_0_pay1u := (Entails.of_eq (cPts_eq c (hi 0) fullShare (cw2 m c 0))) $$ A3_0_pay1
  iapply (wp_load 𝒱₀ (c : Thread nD τ) none Set.univ (m := cM) (S := (cSl (hi 0)).view.set) (q := fullShare) (f := cw2 m c 0) (load_sub c (hi 0))) $$ [A3_0_pay1u]
  · iexact A3_0_pay1u
  iintro A3_0_pay1u
  ihave A3_0_pay1 := (Entails.of_eq (cPts_eq c (hi 0) fullShare (cw2 m c 0)).symm) $$ [A3_0_pay1u]
  · iexact A3_0_pay1u
  sl_exec (disch := first | exact land1 m c _ _ | exact land2 m c _ _)
  -- the other half, chunk 1: the forwarded chunk is in; read it and add
  ihave A3_1_pay1u := (Entails.of_eq (cPts_eq c (hi 1) fullShare (cw2 m c 1))) $$ A3_1_pay1
  iapply (wp_load 𝒱₀ (c : Thread nD τ) none Set.univ (m := cM) (S := (cSl (hi 1)).view.set) (q := fullShare) (f := cw2 m c 1) (load_sub c (hi 1))) $$ [A3_1_pay1u]
  · iexact A3_1_pay1u
  iintro A3_1_pay1u
  ihave A3_1_pay1 := (Entails.of_eq (cPts_eq c (hi 1) fullShare (cw2 m c 1)).symm) $$ [A3_1_pay1u]
  · iexact A3_1_pay1u
  sl_exec (disch := first | exact land1 m c _ _ | exact land2 m c _ _)
  -- the other half, chunk 2: the forwarded chunk is in; read it and add
  ihave A3_2_pay1u := (Entails.of_eq (cPts_eq c (hi 2) fullShare (cw2 m c 2))) $$ A3_2_pay1
  iapply (wp_load 𝒱₀ (c : Thread nD τ) none Set.univ (m := cM) (S := (cSl (hi 2)).view.set) (q := fullShare) (f := cw2 m c 2) (load_sub c (hi 2))) $$ [A3_2_pay1u]
  · iexact A3_2_pay1u
  iintro A3_2_pay1u
  ihave A3_2_pay1 := (Entails.of_eq (cPts_eq c (hi 2) fullShare (cw2 m c 2)).symm) $$ [A3_2_pay1u]
  · iexact A3_2_pay1u
  sl_exec (disch := first | exact land1 m c _ _ | exact land2 m c _ _)
  -- the other half, chunk 3: the forwarded chunk is in; read it and add
  ihave A3_3_pay1u := (Entails.of_eq (cPts_eq c (hi 3) fullShare (cw2 m c 3))) $$ A3_3_pay1
  iapply (wp_load 𝒱₀ (c : Thread nD τ) none Set.univ (m := cM) (S := (cSl (hi 3)).view.set) (q := fullShare) (f := cw2 m c 3) (load_sub c (hi 3))) $$ [A3_3_pay1u]
  · iexact A3_3_pay1u
  iintro A3_3_pay1u
  ihave A3_3_pay1 := (Entails.of_eq (cPts_eq c (hi 3) fullShare (cw2 m c 3)).symm) $$ [A3_3_pay1u]
  · iexact A3_3_pay1u
  sl_exec (disch := first | exact land1 m c _ _ | exact land2 m c _ _)
  -- the other half, chunk 4: the forwarded chunk is in; read it and add
  ihave A3_4_pay1u := (Entails.of_eq (cPts_eq c (hi 4) fullShare (cw2 m c 4))) $$ A3_4_pay1
  iapply (wp_load 𝒱₀ (c : Thread nD τ) none Set.univ (m := cM) (S := (cSl (hi 4)).view.set) (q := fullShare) (f := cw2 m c 4) (load_sub c (hi 4))) $$ [A3_4_pay1u]
  · iexact A3_4_pay1u
  iintro A3_4_pay1u
  ihave A3_4_pay1 := (Entails.of_eq (cPts_eq c (hi 4) fullShare (cw2 m c 4)).symm) $$ [A3_4_pay1u]
  · iexact A3_4_pay1u
  sl_exec (disch := first | exact land1 m c _ _ | exact land2 m c _ _)
  -- the other half, chunk 5: the forwarded chunk is in; read it and add
  ihave A3_5_pay1u := (Entails.of_eq (cPts_eq c (hi 5) fullShare (cw2 m c 5))) $$ A3_5_pay1
  iapply (wp_load 𝒱₀ (c : Thread nD τ) none Set.univ (m := cM) (S := (cSl (hi 5)).view.set) (q := fullShare) (f := cw2 m c 5) (load_sub c (hi 5))) $$ [A3_5_pay1u]
  · iexact A3_5_pay1u
  iintro A3_5_pay1u
  ihave A3_5_pay1 := (Entails.of_eq (cPts_eq c (hi 5) fullShare (cw2 m c 5)).symm) $$ [A3_5_pay1u]
  · iexact A3_5_pay1u
  sl_exec (disch := first | exact land1 m c _ _ | exact land2 m c _ _)
  -- the other half, chunk 6: the forwarded chunk is in; read it and add
  ihave A3_6_pay1u := (Entails.of_eq (cPts_eq c (hi 6) fullShare (cw2 m c 6))) $$ A3_6_pay1
  iapply (wp_load 𝒱₀ (c : Thread nD τ) none Set.univ (m := cM) (S := (cSl (hi 6)).view.set) (q := fullShare) (f := cw2 m c 6) (load_sub c (hi 6))) $$ [A3_6_pay1u]
  · iexact A3_6_pay1u
  iintro A3_6_pay1u
  ihave A3_6_pay1 := (Entails.of_eq (cPts_eq c (hi 6) fullShare (cw2 m c 6)).symm) $$ [A3_6_pay1u]
  · iexact A3_6_pay1u
  sl_exec (disch := first | exact land1 m c _ _ | exact land2 m c _ _)
  -- the other half, chunk 7: the forwarded chunk is in; read it and add
  ihave A3_7_pay1u := (Entails.of_eq (cPts_eq c (hi 7) fullShare (cw2 m c 7))) $$ A3_7_pay1
  iapply (wp_load 𝒱₀ (c : Thread nD τ) none Set.univ (m := cM) (S := (cSl (hi 7)).view.set) (q := fullShare) (f := cw2 m c 7) (load_sub c (hi 7))) $$ [A3_7_pay1u]
  · iexact A3_7_pay1u
  iintro A3_7_pay1u
  ihave A3_7_pay1 := (Entails.of_eq (cPts_eq c (hi 7) fullShare (cw2 m c 7)).symm) $$ [A3_7_pay1u]
  · iexact A3_7_pay1u
  sl_exec (disch := first | exact land1 m c _ _ | exact land2 m c _ _)
  -- the return: what is left is to hand back what the body owes the pipeline
  rw [wp_ret]
  -- the thirty-two transfer cells close: their counters at zero are the device's again
  imod (close_D m K c 0 0) $$ [A0_0] with Z0_0
  · isplitr; · iexact I0_0
    iexact A0_0
  imod (close_D m K c 0 1) $$ [A0_1] with Z0_1
  · isplitr; · iexact I0_1
    iexact A0_1
  imod (close_D m K c 0 2) $$ [A0_2] with Z0_2
  · isplitr; · iexact I0_2
    iexact A0_2
  imod (close_D m K c 0 3) $$ [A0_3] with Z0_3
  · isplitr; · iexact I0_3
    iexact A0_3
  imod (close_D m K c 0 4) $$ [A0_4] with Z0_4
  · isplitr; · iexact I0_4
    iexact A0_4
  imod (close_D m K c 0 5) $$ [A0_5] with Z0_5
  · isplitr; · iexact I0_5
    iexact A0_5
  imod (close_D m K c 0 6) $$ [A0_6] with Z0_6
  · isplitr; · iexact I0_6
    iexact A0_6
  imod (close_D m K c 0 7) $$ [A0_7] with Z0_7
  · isplitr; · iexact I0_7
    iexact A0_7
  imod (close_D m K c 1 0) $$ [A1_0] with Z1_0
  · isplitr; · iexact I1_0
    iexact A1_0
  imod (close_D m K c 1 1) $$ [A1_1] with Z1_1
  · isplitr; · iexact I1_1
    iexact A1_1
  imod (close_D m K c 1 2) $$ [A1_2] with Z1_2
  · isplitr; · iexact I1_2
    iexact A1_2
  imod (close_D m K c 1 3) $$ [A1_3] with Z1_3
  · isplitr; · iexact I1_3
    iexact A1_3
  imod (close_D m K c 1 4) $$ [A1_4] with Z1_4
  · isplitr; · iexact I1_4
    iexact A1_4
  imod (close_D m K c 1 5) $$ [A1_5] with Z1_5
  · isplitr; · iexact I1_5
    iexact A1_5
  imod (close_D m K c 1 6) $$ [A1_6] with Z1_6
  · isplitr; · iexact I1_6
    iexact A1_6
  imod (close_D m K c 1 7) $$ [A1_7] with Z1_7
  · isplitr; · iexact I1_7
    iexact A1_7
  imod (close_D m K c 2 0) $$ [A2_0] with Z2_0
  · isplitr; · iexact I2_0
    iexact A2_0
  imod (close_D m K c 2 1) $$ [A2_1] with Z2_1
  · isplitr; · iexact I2_1
    iexact A2_1
  imod (close_D m K c 2 2) $$ [A2_2] with Z2_2
  · isplitr; · iexact I2_2
    iexact A2_2
  imod (close_D m K c 2 3) $$ [A2_3] with Z2_3
  · isplitr; · iexact I2_3
    iexact A2_3
  imod (close_D m K c 2 4) $$ [A2_4] with Z2_4
  · isplitr; · iexact I2_4
    iexact A2_4
  imod (close_D m K c 2 5) $$ [A2_5] with Z2_5
  · isplitr; · iexact I2_5
    iexact A2_5
  imod (close_D m K c 2 6) $$ [A2_6] with Z2_6
  · isplitr; · iexact I2_6
    iexact A2_6
  imod (close_D m K c 2 7) $$ [A2_7] with Z2_7
  · isplitr; · iexact I2_7
    iexact A2_7
  imod (close_D m K c 3 0) $$ [A3_0] with Z3_0
  · isplitr; · iexact I3_0
    iexact A3_0
  imod (close_D m K c 3 1) $$ [A3_1] with Z3_1
  · isplitr; · iexact I3_1
    iexact A3_1
  imod (close_D m K c 3 2) $$ [A3_2] with Z3_2
  · isplitr; · iexact I3_2
    iexact A3_2
  imod (close_D m K c 3 3) $$ [A3_3] with Z3_3
  · isplitr; · iexact I3_3
    iexact A3_3
  imod (close_D m K c 3 4) $$ [A3_4] with Z3_4
  · isplitr; · iexact I3_4
    iexact A3_4
  imod (close_D m K c 3 5) $$ [A3_5] with Z3_5
  · isplitr; · iexact I3_5
    iexact A3_5
  imod (close_D m K c 3 6) $$ [A3_6] with Z3_6
  · isplitr; · iexact I3_6
    iexact A3_6
  imod (close_D m K c 3 7) $$ [A3_7] with Z3_7
  · isplitr; · iexact I3_7
    iexact A3_7
  -- the arrival chunks 0–7 whole again from their two halves
  ihave HC0 := (c_halves c (lo 0) (cw1 m c 0)).2 $$ [A2_0_pay1 HR0]
  · isplitl [A2_0_pay1]; · iexact A2_0_pay1
    iexact HR0
  ihave HC1 := (c_halves c (lo 1) (cw1 m c 1)).2 $$ [A2_1_pay1 HR1]
  · isplitl [A2_1_pay1]; · iexact A2_1_pay1
    iexact HR1
  ihave HC2 := (c_halves c (lo 2) (cw1 m c 2)).2 $$ [A2_2_pay1 HR2]
  · isplitl [A2_2_pay1]; · iexact A2_2_pay1
    iexact HR2
  ihave HC3 := (c_halves c (lo 3) (cw1 m c 3)).2 $$ [A2_3_pay1 HR3]
  · isplitl [A2_3_pay1]; · iexact A2_3_pay1
    iexact HR3
  ihave HC4 := (c_halves c (lo 4) (cw1 m c 4)).2 $$ [A2_4_pay1 HR4]
  · isplitl [A2_4_pay1]; · iexact A2_4_pay1
    iexact HR4
  ihave HC5 := (c_halves c (lo 5) (cw1 m c 5)).2 $$ [A2_5_pay1 HR5]
  · isplitl [A2_5_pay1]; · iexact A2_5_pay1
    iexact HR5
  ihave HC6 := (c_halves c (lo 6) (cw1 m c 6)).2 $$ [A2_6_pay1 HR6]
  · isplitl [A2_6_pay1]; · iexact A2_6_pay1
    iexact HR6
  ihave HC7 := (c_halves c (lo 7) (cw1 m c 7)).2 $$ [A2_7_pay1 HR7]
  · isplitl [A2_7_pay1]; · iexact A2_7_pay1
    iexact HR7
  imodintro
  iapply Hk
  unfold bodyPost Φ₁ sems32 sep8 Dat.owesAt Pipeline.owesWithin
  beta_reduce
  rw [show (dats m 0 c).owed t0_0.succ = 0 from rfl]
  isplitl [A0_0_pay1 A0_1_pay1 A0_2_pay1 A0_3_pay1 A0_4_pay1 A0_5_pay1 A0_6_pay1 A0_7_pay1 HC0 HC1 HC2 HC3 HC4 HC5 HC6 HC7 A3_0_pay1 A3_1_pay1 A3_2_pay1 A3_3_pay1 A3_4_pay1 A3_5_pay1 A3_6_pay1 A3_7_pay1 Z0_0 Z0_1 Z0_2 Z0_3 Z0_4 Z0_5 Z0_6 Z0_7 Z1_0 Z1_1 Z1_2 Z1_3 Z1_4 Z1_5 Z1_6 Z1_7 Z2_0 Z2_1 Z2_2 Z2_3 Z2_4 Z2_5 Z2_6 Z2_7 Z3_0 Z3_1 Z3_2 Z3_3 Z3_4 Z3_5 Z3_6 Z3_7]
  · -- the send buffer is its eight chunks again; the landing buffer its sixteen; the semaphores at zero
    isplitl [A0_0_pay1 A0_1_pay1 A0_2_pay1 A0_3_pay1 A0_4_pay1 A0_5_pay1 A0_6_pay1 A0_7_pay1]
    · iexists (sbufC m c)
      iapply (s_split c (sbufC m c)).2
      unfold sep8; beta_reduce
      isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      iexact A0_7_pay1
    isplitl [HC0 HC1 HC2 HC3 HC4 HC5 HC6 HC7 A3_0_pay1 A3_1_pay1 A3_2_pay1 A3_3_pay1 A3_4_pay1 A3_5_pay1 A3_6_pay1 A3_7_pay1]
    · iapply (c_join c (fun k => cw1 m c k) (fun k => cw2 m c k))
      unfold sep8; beta_reduce
      isplitl [HC0 HC1 HC2 HC3 HC4 HC5 HC6 HC7]
      ·
        isplitl [HC0]; · iexact HC0
        isplitl [HC1]; · iexact HC1
        isplitl [HC2]; · iexact HC2
        isplitl [HC3]; · iexact HC3
        isplitl [HC4]; · iexact HC4
        isplitl [HC5]; · iexact HC5
        isplitl [HC6]; · iexact HC6
        iexact HC7
      isplitl [A3_0_pay1]; · iexact A3_0_pay1
      isplitl [A3_1_pay1]; · iexact A3_1_pay1
      isplitl [A3_2_pay1]; · iexact A3_2_pay1
      isplitl [A3_3_pay1]; · iexact A3_3_pay1
      isplitl [A3_4_pay1]; · iexact A3_4_pay1
      isplitl [A3_5_pay1]; · iexact A3_5_pay1
      isplitl [A3_6_pay1]; · iexact A3_6_pay1
      iexact A3_7_pay1
    · isplitl [Z0_0 Z0_1 Z0_2 Z0_3 Z0_4 Z0_5 Z0_6 Z0_7]
      ·
        isplitl [Z0_0]; · iexact Z0_0
        isplitl [Z0_1]; · iexact Z0_1
        isplitl [Z0_2]; · iexact Z0_2
        isplitl [Z0_3]; · iexact Z0_3
        isplitl [Z0_4]; · iexact Z0_4
        isplitl [Z0_5]; · iexact Z0_5
        isplitl [Z0_6]; · iexact Z0_6
        iexact Z0_7
      isplitl [Z1_0 Z1_1 Z1_2 Z1_3 Z1_4 Z1_5 Z1_6 Z1_7]
      ·
        isplitl [Z1_0]; · iexact Z1_0
        isplitl [Z1_1]; · iexact Z1_1
        isplitl [Z1_2]; · iexact Z1_2
        isplitl [Z1_3]; · iexact Z1_3
        isplitl [Z1_4]; · iexact Z1_4
        isplitl [Z1_5]; · iexact Z1_5
        isplitl [Z1_6]; · iexact Z1_6
        iexact Z1_7
      isplitl [Z2_0 Z2_1 Z2_2 Z2_3 Z2_4 Z2_5 Z2_6 Z2_7]
      ·
        isplitl [Z2_0]; · iexact Z2_0
        isplitl [Z2_1]; · iexact Z2_1
        isplitl [Z2_2]; · iexact Z2_2
        isplitl [Z2_3]; · iexact Z2_3
        isplitl [Z2_4]; · iexact Z2_4
        isplitl [Z2_5]; · iexact Z2_5
        isplitl [Z2_6]; · iexact Z2_6
        iexact Z2_7
      isplitl [Z3_0]; · iexact Z3_0
      isplitl [Z3_1]; · iexact Z3_1
      isplitl [Z3_2]; · iexact Z3_2
      isplitl [Z3_3]; · iexact Z3_3
      isplitl [Z3_4]; · iexact Z3_4
      isplitl [Z3_5]; · iexact Z3_5
      isplitl [Z3_6]; · iexact Z3_6
      iexact Z3_7
  isplitl [HO]
  · iexists _
    isplitr
    rotate_left
    · iexact HO
    · ipureintro; exact fun _ _ => Or.inl trivial
  isplitl [Hx]
  · iexists _; isplitr; · (ipureintro; rfl)
    iapply (Entails.of_eq (whole_eq c cc0_stg0_0 _)); iexact Hx
  -- the result's staging buffer: the sixteen stores, which cover it
  iexists _
  isplitr
  rotate_left
  · iapply (Entails.of_eq (whole_eq c cc0_stg1_0 _)); iexact Hout
  · ipureintro
    rw [← outW_base m c g1]
    rfl

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 8000 in
set_option maxHeartbeats 4000000 in
attribute [local irreducible] outAt in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, Hlev⟩, Hs, Hc⟩, Ho, Hx, Hout⟩
  iapply (sound_body m K c fun _ => bodyPost m c)
  unfold bodyPre
  isplitr []
  · isplitl [Hg Hcr Hlev Hs Hc]
    · isplitl [Hg]; · iexact Hg
      isplitl [Hcr]; · iexact Hcr
      isplitl [Hlev]; · iexact Hlev
      isplitl [Hs]; · iexact Hs
      iexact Hc
    isplitl [Ho]; · iexact Ho
    isplitl [Hx] <;> iassumption
  · iintro H; iexact H

end Cert.KernelIdeal.AR

end
-- ==== Proof.ARLaunch.lean ====
/-
  The launch: from "each device's body is proved" to the run of the whole program on the four devices.

  The protocol's ghost state is allocated once for all devices — every cell's record and the tokens of its duties —,
  each cell's invariant is made from its semaphore at zero (the thirty-two transfer semaphores are the kernel's own,
  the barrier semaphore the runtime's, unscoped), and the tokens are dealt to the devices that pay them: a barrier
  cell's y-unit and its phase-one arrival tokens to the y-neighbour, its x-unit and phase-two arrival tokens to the
  x-neighbour. The credit a device is dealt is what the others owe its cells: two barrier units, sixteen arrivals.
-/
import proofs.«900151_g7700000000000152_dist_ar_v7x_xy2x2_y_m512_n512_f32_1_alg».proof.Proof.ARData
import proofs.«900151_g7700000000000152_dist_ar_v7x_xy2x2_y_m512_n512_f32_1_alg».proof.Proof.ARTables

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- Every device's windowed arrays end at what the proof data computes. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

namespace Launch

/-! ## The cells and the tokens of the protocol -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  intro i j h
  dsimp only [csem] at h
  split at h <;> split at h
  · exact Fin.ext (by omega)
  · cases h
  · cases h
  · injection h with h
    have := congrArg Fin.val h
    simp only at this
    exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The thirty-three cells of every device. -/
def protoCells : Finset (GSem nD τ sig) := Finset.univ.map ⟨kcell, kcell_injective⟩

theorem dsem_injective {a a' : Fin 4} {k k' : Fin 8} (h : dsem a k = dsem a' k') : a = a' ∧ k = k' := by
  have := congrArg Fin.val h
  simp only [dsem] at this
  exact ⟨Fin.ext (by omega), Fin.ext (by omega)⟩

/-- The tokens minted for a device's own cells: the barrier cell's two, and one for each transfer cell. -/
abbrev tokOf (cj : Dev nD × (Bool ⊕ (Fin 4 × Fin 8))) : GSem nD τ sig × ℕ × Bool := match cj.2 with
  | .inl b => (cellB cj.1, 0, b)
  | .inr ak => (cellD cj.1 ak.1 ak.2, 0, false)

theorem tokOf_injective : Function.Injective tokOf := by
  rintro ⟨c, j⟩ ⟨c', j'⟩ h
  have h1 : c = c' := by
    have := congrArg (fun x : GSem nD τ sig × ℕ × Bool => x.1.1.1) h
    rcases j with b | ak <;> rcases j' with b' | ak' <;> exact this
  subst h1
  rcases j with b | ak <;> rcases j' with b' | ak'
  · have : b = b' := congrArg (fun x : GSem nD τ sig × ℕ × Bool => x.2.2) h
    rw [this]
  · exact absurd (congrArg (fun x : GSem nD τ sig × ℕ × Bool => x.1.2) h) (fun h' => by cases h')
  · exact absurd (congrArg (fun x : GSem nD τ sig × ℕ × Bool => x.1.2) h) (fun h' => by cases h')
  · have h2 : (SemLoc.dma (dsem ak.1 ak.2) : SemLoc sig) = .dma (dsem ak'.1 ak'.2) := congrArg (fun x : GSem nD τ sig × ℕ × Bool => x.1.2) h
    injection h2 with h2
    obtain ⟨ha, hk⟩ := dsem_injective h2
    rw [show ak = ak' from Prod.ext ha hk]

def protoToks : Finset (GSem nD τ sig × ℕ × Bool) := Finset.univ.map ⟨tokOf, tokOf_injective⟩

/-- The launch element: the pipeline's copy beside the protocol's. -/
def u₀ : UU :=
  (initOf (Pipeline.cells cfgs cellOf_inj) (Pipeline.launchToks cfgs cellOf_inj), initOf protoCells protoToks)

/-! ## Sums over the chunks, the families and the cells -/

theorem bigSep_fin8 (Φ : Fin 8 → sProp 𝕄) : bigSep Finset.univ Φ = sep8 Φ :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ

/-- A sum over families and chunks, family by family. -/
theorem bigSep_fam (Φ : Fin 4 × Fin 8 → sProp 𝕄) :
    bigSep Finset.univ Φ
      = iprop((sep8 fun k => Φ (0, k)) ∗ (sep8 fun k => Φ (1, k)) ∗ (sep8 fun k => Φ (2, k)) ∗ (sep8 fun k => Φ (3, k))) := by
  rw [bigSep_univ_prod, bigSep_fin4]; simp only [bigSep_fin8]

theorem ixD_injective : Function.Injective (fun ak : Fin 4 × Fin 8 => ixD ak.1 ak.2) := by
  rintro ⟨a, k⟩ ⟨a', k'⟩ h
  have h' : (ixD a k).val = (ixD a' k').val := congrArg Fin.val h
  simp only [ixD] at h'
  have ha : a = a' := Fin.ext (by omega)
  have hk : k = k' := Fin.ext (by omega)
  rw [ha, hk]

/-- The cell numbers: the barrier cell's, and the transfer cells' by family and chunk. -/
theorem univ33 : (Finset.univ : Finset (Fin 33)) = insert 0 (Finset.univ.map ⟨fun ak : Fin 4 × Fin 8 => ixD ak.1 ak.2, ixD_injective⟩) := by
  decide

/-- A sum over a device's cells: the barrier cell, then the transfer cells family by family. -/
theorem bigSep_cells (Φ : Fin 33 → sProp 𝕄) :
    bigSep Finset.univ Φ
      = iprop(Φ 0 ∗ (sep8 fun k => Φ (ixD 0 k)) ∗ (sep8 fun k => Φ (ixD 1 k)) ∗ (sep8 fun k => Φ (ixD 2 k)) ∗ (sep8 fun k => Φ (ixD 3 k))) := by
  rw [univ33, bigSep_insert (by decide), bigSep_map, bigSep_fam]; rfl

/-! ## What the launch element deals each device -/

/-- The duty tokens of device `c`'s own cells. -/
def toks (c : Dev nD) : sProp 𝕄 :=
  iprop((dutyTok ER (cellB c) 0 false ∗ dutyTok ER (cellB c) 0 true)
    ∗ (sep8 fun k => dutyTok ER (cellD c 0 k) 0 false) ∗ (sep8 fun k => dutyTok ER (cellD c 1 k) 0 false)
    ∗ (sep8 fun k => dutyTok ER (cellD c 2 k) 0 false) ∗ (sep8 fun k => dutyTok ER (cellD c 3 k) 0 false))

/-- What the launch element deals device `c`: its cells' round states, its positions with the word that round 0 is
    open, and its cells' tokens. -/
def G (c : Dev nD) : sProp 𝕄 :=
  iprop((bigSep Finset.univ fun i : Fin 33 => roundState ER (sched m) (kcell (c, i)) 0)
    ∗ (bigSep Finset.univ fun i : Fin 33 => iprop(atPos ER (kcell (c, i)) 0 ∅ 0 ∗ reached ER (kcell (c, i)) 0)) ∗ toks c)

/-- What the global step makes of it. -/
def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun i : Fin 33 => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_bool, bigSep_fam]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each cell's invariant, from its semaphore at zero -/

/-- The families' semaphores are the kernel's own thirty-two, in order. -/
def jD (a : Fin 4) (k : Fin 8) : Fin 32 := ⟨8 * a.val + k.val, by have := a.isLt; have := k.isLt; omega⟩

theorem jD_injective : Function.Injective (fun ak : Fin 4 × Fin 8 => jD ak.1 ak.2) := by
  rintro ⟨a, k⟩ ⟨a', k'⟩ h
  have h' : (jD a k).val = (jD a' k').val := congrArg Fin.val h
  simp only [jD] at h'
  have ha : a = a' := Fin.ext (by omega)
  have hk : k = k' := Fin.ext (by omega)
  rw [ha, hk]

theorem univ32 : (Finset.univ : Finset (Fin 32)) = Finset.univ.map ⟨fun ak : Fin 4 × Fin 8 => jD ak.1 ak.2, jD_injective⟩ := by
  decide

theorem osem_jD (c : Dev nD) (a : Fin 4) (k : Fin 8) : (((c : Thread nD τ), osem (jD a k)) : GSem nD τ sig) = cellD c a k := by
  unfold osem jD cellD dsem
  congr 2
  exact Fin.ext (by show 8 * a.val + k.val + 2 = 2 + 8 * a.val + k.val; omega)

/-- The kernel's own semaphores at zero are the thirty-two transfer semaphores at zero; -/
theorem ownSems0_eq (c : Dev nD) : (Pipeline.ownSems0 (Ix := Unit) (Name := ℕ) (U := UU) (Lvl := ℕ) (Val := Elt F) (τ := τ) osem c : sProp 𝕄)
    = sems32 c := by
  unfold Pipeline.ownSems0 sems32
  rw [univ32, bigSep_map, bigSep_fam]
  simp only [Function.Embedding.coeFn_mk, osem_jD]
/-- the barrier semaphore is the launch's one unscoped semaphore. -/
theorem unscopedSems0_eq (c : Dev nD) : (unscopedSems0 c : sProp 𝕄) = semVal (cellB c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 33 => semVal (kcell (c, i)) 0 : sProp 𝕄) := by
  rw [ownSems0_eq, unscopedSems0_eq, bigSep_cells]
  simp only [kcell_D]
  unfold sems32
  iintro ⟨HD, HB⟩
  isplitl [HB]; · iexact HB
  iexact HD

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i : Fin 33 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 33 => semVal (kcell (c, i)) 0) ∗ bigSep Finset.univ fun i : Fin 33 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt, the records shared: each device's ghost state -/

/-- What every device may read: every cell's invariant at its chosen name, and that round 0 of every cell is open. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) : records m K ⊢ cellInv ER (sched m) (K ck) (kcell ck) :=
  sep_elim_left.trans (bigSep_elim (Finset.mem_univ ck))
theorem reached_at (K : Dev nD × Fin 33 → ℕ) (ck : Dev nD × Fin 33) : records m K ⊢ reached ER (kcell ck) 0 :=
  sep_elim_right.trans (bigSep_elim (Finset.mem_univ ck))
theorem inv_atD (K : Dev nD × Fin 33 → ℕ) (c : Dev nD) (a : Fin 4) (k : Fin 8) :
    records m K ⊢ cellInv ER (sched m) (K (c, ixD a k)) (cellD c a k) := by
  rw [← kcell_D]; exact inv_at m K (c, ixD a k)
theorem reached_atD (K : Dev nD × Fin 33 → ℕ) (c : Dev nD) (a : Fin 4) (k : Fin 8) : records m K ⊢ reached ER (cellD c a k) 0 := by
  rw [← kcell_D]; exact reached_at m K (c, ixD a k)

/-- Something persistent yields each of eight things, so all eight. -/
theorem sep8_intro {R : sProp 𝕄} [BI.Persistent R] {Φ : Fin 8 → sProp 𝕄} (h : ∀ k, R ⊢ Φ k) : R ⊢ sep8 Φ := by
  rw [← bigSep_fin8]; exact BI.bigSep_intro_persistent fun k _ => h k

theorem invs_intro (K : Dev nD × Fin 33 → ℕ) (c : Dev nD) : records m K ⊢ invs m K c := by
  unfold invs
  iintro #H
  isplitr; · iapply (inv_at m K (c, 0)); iexact H
  isplitr; · iapply (sep8_intro fun k => inv_atD m K c 0 k); iexact H
  isplitr; · iapply (sep8_intro fun k => inv_atD m K c 1 k); iexact H
  isplitr; · iapply (sep8_intro fun k => inv_atD m K c 2 k); iexact H
  isplitr; · iapply (sep8_intro fun k => inv_atD m K c 3 k); iexact H
  isplitr; · iapply (inv_at m K (yn c, 0)); iexact H
  isplitr; · iapply (inv_at m K (xn c, 0)); iexact H
  isplitr; · iapply (sep8_intro fun k => inv_atD m K (yn c) 1 k); iexact H
  iapply (sep8_intro fun k => inv_atD m K (xn c) 3 k); iexact H

theorem opened_intro (K : Dev nD × Fin 33 → ℕ) (c : Dev nD) : records m K ⊢ opened c := by
  unfold opened
  iintro #H
  isplitr; · iapply (reached_at m K (yn c, 0)); iexact H
  isplitr; · iapply (reached_at m K (xn c, 0)); iexact H
  isplitr; · iapply (sep8_intro fun k => reached_atD m K (yn c) 1 k); iexact H
  isplitr; · iapply (sep8_intro fun k => reached_atD m K (xn c) 3 k); iexact H
  isplitr; · iapply (sep8_intro fun k => reached_atD m K c 0 k); iexact H
  isplitr; · iapply (sep8_intro fun k => reached_atD m K c 1 k); iexact H
  isplitr; · iapply (sep8_intro fun k => reached_atD m K c 2 k); iexact H
  iapply (sep8_intro fun k => reached_atD m K c 3 k); iexact H

/-- A device's ghost state from the shared records, its own positions and the tokens of the duties it pays. -/
theorem ghost_intro (K : Dev nD × Fin 33 → ℕ) (c : Dev nD) : iprop(records m K ∗ positions c ∗ payToks c) ⊢ G' m c := by
  unfold G' ghost
  iintro ⟨#HR, Hpos, Htok⟩
  iexists K
  isplitr; · iapply (invs_intro m K c); iexact HR
  isplitl [Hpos]; · iexact Hpos
  isplitr; · iapply (opened_intro m K c); iexact HR
  iexact Htok

theorem positions_eq (c : Dev nD) : (bigSep Finset.univ fun i : Fin 33 => (atPos ER (kcell (c, i)) 0 ∅ 0 : sProp 𝕄)) = positions c := by
  unfold positions
  rw [bigSep_cells]
  simp only [kcell_D]
  rfl

/-- The tokens dealt over the mesh: a barrier cell's y-unit and its phase-one arrival tokens go to the y-neighbour,
    its x-unit and phase-two arrival tokens to the x-neighbour; the departure tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (cellB c) 0 false : sProp 𝕄)),
    bigSep_univ_equiv xnE (fun c : Dev nD => (dutyTok ER (cellB c) 0 true : sProp 𝕄)),
    bigSep_univ_equiv ynE (fun c : Dev nD => (sep8 fun k => dutyTok ER (cellD c 1 k) 0 false : sProp 𝕄)),
    bigSep_univ_equiv xnE (fun c : Dev nD => (sep8 fun k => dutyTok ER (cellD c 3 k) 0 false : sProp 𝕄))]
  iintro ⟨⟨HBf, HBt⟩, H0, H1, H2, H3⟩
  isplitl [HBf]; · iexact HBf
  isplitl [HBt]; · iexact HBt
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ (bigSep Finset.univ fun i : Fin 33 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun i : Fin 33 => (atPos ER (kcell (c, i)) 0 ∅ 0 : sProp 𝕄)) (fun i => reached ER (kcell (c, i)) 0)),
    bigSep_sep', ← bigSep_univ_prod (fun ck : Dev nD × Fin 33 => (reached ER (kcell ck) 0 : sProp 𝕄)),
    bigSep_congr (s := Finset.univ) (fun (c : Dev nD) _ => positions_eq (F := F) c)]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the others owe a device's cells -/

theorem cellB_inj {a b : Dev nD} : Iff (cellB a = cellB b) (a = b) :=
  ⟨fun h => Fin.ext (congrArg (fun g : GSem nD τ sig => g.1.1.val) h), fun h => h ▸ rfl⟩
theorem cellD_inj {c c' : Dev nD} {a a' : Fin 4} {k k' : Fin 8} : Iff (cellD c a k = cellD c' a' k') (c = c' ∧ a = a' ∧ k = k') := by
  constructor
  · intro h
    have h1 : c = c' := Fin.ext (congrArg (fun g : GSem nD τ sig => g.1.1.val) h)
    have h2 : (SemLoc.dma (dsem a k) : SemLoc sig) = .dma (dsem a' k') := congrArg Prod.snd h
    injection h2 with h2
    exact ⟨h1, dsem_injective h2⟩
  · rintro ⟨rfl, rfl, rfl⟩; rfl
theorem cellB_ne_cellD (c c' : Dev nD) (a : Fin 4) (k : Fin 8) : cellB c ≠ cellD c' a k := fun h => by
  have := congrArg Prod.snd h; cases this
theorem cellD_ne_cellB (c c' : Dev nD) (a : Fin 4) (k : Fin 8) : cellD c' a k ≠ cellB c := fun h => by
  have := congrArg Prod.snd h; cases this

theorem eq_yn_comm (c d : Dev nD) : Iff (c = yn d) (d = yn c) := ⟨fun h => by rw [h, yn_yn], fun h => by rw [h, yn_yn]⟩
theorem eq_xn_comm (c d : Dev nD) : Iff (c = xn d) (d = xn c) := ⟨fun h => by rw [h, xn_xn], fun h => by rw [h, xn_xn]⟩

/-- What a device owes at launch, family by family: the x-neighbour's phase-two arrivals, the y-neighbour's
    phase-one arrivals, a unit on each neighbour's barrier cell. -/
theorem O₀_eq (d : Dev nD) : O₀ d
    = (∑ k : Fin 8, tallyAt (cellD (xn d) 3 k) () N) + (∑ k : Fin 8, tallyAt (cellD (yn d) 1 k) () N)
      + tallyAt (cellB (xn d)) () 1 + tallyAt (cellB (yn d)) () 1 := by
  rw [Fin.sum_univ_eight, Fin.sum_univ_eight]
  show (0 : CellTallies nD τ sig Unit)
      + tallyAt (cellD (xn d) 3 7) () N + tallyAt (cellD (xn d) 3 6) () N + tallyAt (cellD (xn d) 3 5) () N + tallyAt (cellD (xn d) 3 4) () N
      + tallyAt (cellD (xn d) 3 3) () N + tallyAt (cellD (xn d) 3 2) () N + tallyAt (cellD (xn d) 3 1) () N + tallyAt (cellD (xn d) 3 0) () N
      + tallyAt (cellD (yn d) 1 7) () N + tallyAt (cellD (yn d) 1 6) () N + tallyAt (cellD (yn d) 1 5) () N + tallyAt (cellD (yn d) 1 4) () N
      + tallyAt (cellD (yn d) 1 3) () N + tallyAt (cellD (yn d) 1 2) () N + tallyAt (cellD (yn d) 1 1) () N + tallyAt (cellD (yn d) 1 0) () N
      + tallyAt (cellB (xn d)) () 1 + tallyAt (cellB (yn d)) () 1 = _
  rw [zero_add]; ac_rfl

/-- The units the eight cells of family `a` of device `e` are owed, read at one transfer cell. -/
theorem sum_tallyD (e c : Dev nD) (a b : Fin 4) (k : Fin 8) :
    ∑ j : Fin 8, tallyAt (cellD e a j) () N (cellD c b k) () = if c = e ∧ b = a then N else 0 := by
  simp only [tallyAt_apply, cellD_inj, and_true]
  by_cases h : c = e ∧ b = a
  · rw [if_pos h]; obtain ⟨rfl, rfl⟩ := h
    simp only [true_and]
    rw [Finset.sum_ite_eq Finset.univ k fun _ => N, if_pos (Finset.mem_univ _)]
  · rw [if_neg h]; exact Finset.sum_eq_zero fun j _ => if_neg fun h' => h ⟨h'.1, h'.2.1⟩

theorem tallyB_apply (d c : Dev nD) : tallyAt (cellB d) () 1 (cellB c) () = if c = d then 1 else 0 := by
  rw [tallyAt_apply]; simp only [cellB_inj, and_true]

/-- What device `d` owes device `c`'s barrier cell: a unit if it is `c`'s y-neighbour, a unit if it is `c`'s x-neighbour. -/
theorem owed_B (d c : Dev nD) : O₀ d (cellB c) () = (if d = yn c then 1 else 0) + (if d = xn c then 1 else 0) := by
  have h0 (e : Dev nD) (a : Fin 4) : ∑ j : Fin 8, tallyAt (cellD e a j) () N (cellB c) () = 0 :=
    Finset.sum_eq_zero fun j _ => by rw [tallyAt_ne_cell (cellB_ne_cellD _ _ _ _)]; rfl
  rw [O₀_eq]
  simp only [Pi.add_apply, Finsupp.add_apply, Finset.sum_apply, Finsupp.finset_sum_apply, h0, tallyB_apply, zero_add]
  rw [add_comm]
  exact congrArg₂ _ (if_congr (eq_yn_comm c d) rfl rfl) (if_congr (eq_xn_comm c d) rfl rfl)

theorem owed_D1 (d c : Dev nD) (k : Fin 8) : O₀ d (cellD c 1 k) () = if d = yn c then N else 0 := by
  rw [O₀_eq]
  simp only [Pi.add_apply, Finsupp.add_apply, Finset.sum_apply, Finsupp.finset_sum_apply, sum_tallyD]
  rw [tallyAt_ne_cell (cellD_ne_cellB _ _ _ _), tallyAt_ne_cell (cellD_ne_cellB _ _ _ _), Finsupp.zero_apply,
    if_neg (fun h : c = xn d ∧ (1 : Fin 4) = 3 => absurd h.2 (by decide)), zero_add, add_zero, add_zero]
  exact if_congr ⟨fun h => (eq_yn_comm c d).mp h.1, fun h => ⟨(eq_yn_comm c d).mpr h, trivial⟩⟩ rfl rfl

theorem owed_D3 (d c : Dev nD) (k : Fin 8) : O₀ d (cellD c 3 k) () = if d = xn c then N else 0 := by
  rw [O₀_eq]
  simp only [Pi.add_apply, Finsupp.add_apply, Finset.sum_apply, Finsupp.finset_sum_apply, sum_tallyD]
  rw [tallyAt_ne_cell (cellD_ne_cellB _ _ _ _), tallyAt_ne_cell (cellD_ne_cellB _ _ _ _), Finsupp.zero_apply,
    if_neg (fun h : c = yn d ∧ (3 : Fin 4) = 1 => absurd h.2 (by decide)), add_zero, add_zero, add_zero]
  exact if_congr ⟨fun h => (eq_xn_comm c d).mp h.1, fun h => ⟨(eq_xn_comm c d).mpr h, trivial⟩⟩ rfl rfl

theorem launch_B (c : Dev nD) :
    tallyOn (cellB c) (launchCredit (Pipeline.owing O₀) 0 (cellB c)) = (tallyAt (cellB c) () 2 : CellTallies nD τ sig Unit) := by
  unfold tallyAt; refine congrArg _ (Finsupp.ext fun u => ?_); cases u
  rw [Pipeline.launchCredit_owing, Finsupp.single_eq_same, Finset.sum_congr rfl fun d _ => owed_B d c, Finset.sum_add_distrib,
    Finset.sum_ite_eq' Finset.univ (yn c) fun _ => 1, Finset.sum_ite_eq' Finset.univ (xn c) fun _ => 1, if_pos (Finset.mem_univ _), if_pos (Finset.mem_univ _)]

theorem launch_D1 (c : Dev nD) (k : Fin 8) :
    tallyOn (cellD c 1 k) (launchCredit (Pipeline.owing O₀) 0 (cellD c 1 k)) = (tallyAt (cellD c 1 k) () N : CellTallies nD τ sig Unit) := by
  unfold tallyAt; refine congrArg _ (Finsupp.ext fun u => ?_); cases u
  rw [Pipeline.launchCredit_owing, Finsupp.single_eq_same, Finset.sum_congr rfl fun d _ => owed_D1 d c k, Finset.sum_ite_eq' Finset.univ (yn c) fun _ => N,
    if_pos (Finset.mem_univ _)]

theorem launch_D3 (c : Dev nD) (k : Fin 8) :
    tallyOn (cellD c 3 k) (launchCredit (Pipeline.owing O₀) 0 (cellD c 3 k)) = (tallyAt (cellD c 3 k) () N : CellTallies nD τ sig Unit) := by
  unfold tallyAt; refine congrArg _ (Finsupp.ext fun u => ?_); cases u
  rw [Pipeline.launchCredit_owing, Finsupp.single_eq_same, Finset.sum_congr rfl fun d _ => owed_D3 d c k, Finset.sum_ite_eq' Finset.univ (xn c) fun _ => N,
    if_pos (Finset.mem_univ _)]

/-- The seventeen semaphores of a device that others pay: its barrier semaphore and its sixteen arrival semaphores. -/
def credSem : Unit ⊕ (Fin 8 ⊕ Fin 8) → SemLoc sig
  | .inl _ => .reg barS
  | .inr (.inl k) => .dma (dsem 1 k)
  | .inr (.inr k) => .dma (dsem 3 k)

theorem credSem_injective : Function.Injective credSem := by
  rintro (_ | k | k) (_ | k' | k') h
  · rfl
  · cases h
  · cases h
  · cases h
  · have h2 : (SemLoc.dma (dsem 1 k) : SemLoc sig) = .dma (dsem 1 k') := h
    injection h2 with h2; rw [(dsem_injective h2).2]
  · have h2 : (SemLoc.dma (dsem 1 k) : SemLoc sig) = .dma (dsem 3 k') := h
    injection h2 with h2; exact absurd (dsem_injective h2).1 (by decide)
  · cases h
  · have h2 : (SemLoc.dma (dsem 3 k) : SemLoc sig) = .dma (dsem 1 k') := h
    injection h2 with h2; exact absurd (dsem_injective h2).1 (by decide)
  · have h2 : (SemLoc.dma (dsem 3 k) : SemLoc sig) = .dma (dsem 3 k') := h
    injection h2 with h2; rw [(dsem_injective h2).2]

/-- The credit the launch deals a device: two barrier units and the sixteen arrivals. -/
theorem creds_intro (c : Dev nD) : (Pipeline.launchCred O₀ c : sProp 𝕄) ⊢ creds c := by
  unfold Pipeline.launchCred creds
  refine (bigSep_subset (Finset.subset_univ (Finset.univ.map ⟨credSem, credSem_injective⟩))).trans ?_
  rw [bigSep_map, bigSep_univ_sum, bigSep_univ_sum, bigSep_univ_of_subsingleton (), bigSep_fin8, bigSep_fin8]
  show (iprop(cred (tallyOn (cellB c) (launchCredit (Pipeline.owing O₀) 0 (cellB c)))
      ∗ (sep8 fun k => cred (tallyOn (cellD c 1 k) (launchCredit (Pipeline.owing O₀) 0 (cellD c 1 k))))
      ∗ (sep8 fun k => cred (tallyOn (cellD c 3 k) (launchCredit (Pipeline.owing O₀) 0 (cellD c 3 k))))) : sProp 𝕄) ⊢ _
  rw [launch_B]; simp only [launch_D1, launch_D3]
  exact .rfl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sWhole cWhole
  iintro ⟨Hs, -, ⟨%f, Hf⟩, ⟨%g, Hg⟩⟩
  isplitl [Hs]; · iexact Hs
  isplitl [Hf]
  · iexists f; iexact Hf
  · iexists g; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sWhole cWhole
  iintro ⟨⟨%f, Hf⟩, ⟨%g, Hg⟩, Hz⟩
  isplitr; · iempintro
  isplitl [Hz]; · iexact Hz
  isplitl [Hf]
  · iexists f; iexact Hf
  · iexists g; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The result array after the run -/

attribute [local irreducible] outAt in
/-- The result window's one block is the whole array, written back at the one point: the array ends at what the
    body left in the staging buffer. -/
theorem arrAt_o (c : Dev nD) : (dats (F := F) m 0 c).arrAt (1 : Fin 2) cfg0.N = outAt m c := by
  rw [show cfg0.N = t0_0.val + 1 from rfl, (dats (F := F) m 0 c).arrAt_succ (1 : Fin 2) t0_0, if_pos (flush0_1 t0_0)]
  -- the block's offsets are zero, so reading through it reads the array,
  have hz : (fun a => (cfg0.win 1).index t0_0 a * (cfg0.win 1).size a) = fun _ => 0 := funext fun a => Nat.zero_mul _
  have hr (f : Buf (Elt F) ((cfg0.win 1).arr.view.loc (c : Thread nD τ))) : ((cfg0.win 1).blk t0_0).view.read (Elt F) f = f :=
    Memref.read_access_unit_zero (Elt F) main_v1 hz _ f
  -- and the array after the write-back reads as what was written
  have h1 := View.read_write_univ (v := ((cfg0.win 1).blk t0_0).view) (Val := Elt F) ((dats m 0 c).arrAt 1 ↑t0_0) ((dats m 0 c).flushed 1 t0_0)
  rw [hr] at h1
  exact h1

end Launch

/-- At the compiled mesh of four devices, from any memory with zero counters: every weakly fair execution of @main
    terminates without fault, each device's arrays ending at the proof data's contents — given each device's body. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ Launch.ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := Launch.share_eq m)
    (hdistinct := winFacts0.arr_inj)
    (O₀ := O₀) (howed₀ := fun _ => rfl) (howedN := fun _ => rfl)
    (L := L) (lv := lv) (hL := L_of_ne) (hwaits := Launch.waits m)
    (G := Launch.G m) (G' := Launch.G' m) (u₀ := Launch.u₀)
    (hu₀ := by
      unfold Launch.u₀
      iintro Hu
      ihave H := (ownU_pair _ _) $$ Hu
      icases H with ⟨HP, HX⟩
      imod (Launch.fund_proto m) $$ HX with HG
      imodintro
      isplitl [HP] <;> iassumption)
    (hglob := Launch.glob m)
    (hA := fun _ _ => rfl) (hpf := fun _ k => k.elim0)
    (X := start m) (Y := fun _ => iprop(emp)) (Z := fun _ => iprop(emp))
    (hX := Launch.start_intro m ρ) (hin := Launch.phi0_intro m) (hout := Launch.phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : (dats (F := F) m 0 c).arrAt (0 : Fin 2) cfg0.N = m (win0_0.arr.view.loc (c : Thread nD τ)) := by
  exact (dats (F := F) m 0 c).arrAt_in (0 : Fin 2) rfl _

/-- The result array after the run holds the result block. -/
theorem finalA_o (c : Dev nD) : (dats (F := F) m 0 c).arrAt (1 : Fin 2) cfg0.N = outAt m c := by
  exact Launch.arrAt_o m c

end Cert.KernelIdeal.AR

end
-- ==== Proof.ARValue.lean ====
/-
  The value of the result block at the ideal instance, against the reference.

  At the ideal instance rounding to bf16 and widening back are the identity, so device `c`'s result row `r` is its own
  block's row `r` plus the other block's row `r`: the y-neighbour's rows arrive directly for the half the device sent
  from, and through the x-neighbour — whose y-neighbour also holds the other block — for the other half. The reference
  adds the input's upper 512 rows to its lower 512 from zero. Device `c` holds block `c % 2`, so the two sums differ at
  most in the order of the two summands.
-/
import proofs.«900151_g7700000000000152_dist_ar_v7x_xy2x2_y_m512_n512_f32_1_alg».proof.Proof.ARSched
import proofs.«900151_g7700000000000152_dist_ar_v7x_xy2x2_y_m512_n512_f32_1_alg».proof.Proof.Gen.ReferenceIdeal.Run
import proofs.«900151_g7700000000000152_dist_ar_v7x_xy2x2_y_m512_n512_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Idealize.ShloMosaic.Lib.Writes

noncomputable section

namespace Cert.KernelIdeal.AR

open Cert.KernelIdeal Cert.KernelIdeal.Gen
open Idealize.ShloMosaic
open Idealize.ShloMosaic.TcCoe
open Idealize.SL.Sem

namespace Value

section Generic
variable {F : FTy → Type} [FloatOps F]
variable (m : (ℓ : Loc nD τ sig) → Buf (Elt F) ℓ)

/-- The staged input block is the device's input block: the window's one block is the whole array. -/
theorem xstg_eq (c : Dev nD) : xstg m c = m ((c : Thread nD τ).loc main_arg0) := by
  have hz : (fun a => (win0_0.index t0_0) a * main_arg0.ty.shape.size a) = fun _ => 0 :=
    funext fun a => by fin_cases a <;> decide
  exact Memref.read_access_unit_zero (Elt F) main_arg0 hz (fun a => by fin_cases a <;> decide) _

/-- What arrived in landing chunk k is chunk k of the y-neighbour's send buffer. -/
theorem cA_eq (c : Dev nD) (k : Fin 8) : cA m c k = (sSl k).view.read (Elt F) (sbufC m (yn c)) :=
  View.read_write_univ _ _

/-- What arrived in landing chunk 8 + k is what arrived in the x-neighbour's landing chunk k. -/
theorem cB_eq (c : Dev nD) (k : Fin 8) : cB m c k = cA m (xn c) k :=
  View.read_write_univ _ _

end Generic

section Generic3
variable {F : FTy → Type} [FloatOps F]
variable (m : (ℓ : Loc nD τ sig) → Buf (Elt F) ℓ)

/-- The payload of store k into the half the device sent from, -/
def payA (c : Dev nD) (k : Fin 8) : FVec F S32x512 .f32 :=
  match k with
  | ⟨0, _⟩ => k0_pay2 (xA m c 0) (cA m c 0)
  | ⟨1, _⟩ => k0_pay3 (xA m c 1) (cA m c 1)
  | ⟨2, _⟩ => k0_pay5 (k0_pay4 (xA m c 2)) (cA m c 2)
  | ⟨3, _⟩ => k0_pay6 (xA m c 3) (cA m c 3)
  | ⟨4, _⟩ => k0_pay7 (xA m c 4) (cA m c 4)
  | ⟨5, _⟩ => k0_pay8 (xA m c 5) (cA m c 5)
  | ⟨6, _⟩ => k0_pay9 (xA m c 6) (cA m c 6)
  | ⟨7, _⟩ => k0_pay10 (xA m c 7) (cA m c 7)
/-- and of store k into the other half. -/
def payB (c : Dev nD) (k : Fin 8) : FVec F S32x512 .f32 :=
  match k with
  | ⟨0, _⟩ => k0_pay11 (xB m c 0) (cB m c 0)
  | ⟨1, _⟩ => k0_pay12 (xB m c 1) (cB m c 1)
  | ⟨2, _⟩ => k0_pay13 (xB m c 2) (cB m c 2)
  | ⟨3, _⟩ => k0_pay14 (xB m c 3) (cB m c 3)
  | ⟨4, _⟩ => k0_pay15 (xB m c 4) (cB m c 4)
  | ⟨5, _⟩ => k0_pay16 (xB m c 5) (cB m c 5)
  | ⟨6, _⟩ => k0_pay17 (xB m c 6) (cB m c 6)
  | ⟨7, _⟩ => k0_pay18 (xB m c 7) (cB m c 7)

def pcA (c : Dev nD) (k : Fin 8) : View.Piece (Elt F) S512x512 .f32 := ⟨rO2 c k, payA m c k⟩
def pcB (c : Dev nD) (k : Fin 8) : View.Piece (Elt F) S512x512 .f32 := ⟨rO3 c k, payB m c k⟩

/-- The chunks, last first. -/
def ks : List (Fin 8) := [7, 6, 5, 4, 3, 2, 1, 0]
theorem mem_ks : ∀ k : Fin 8, k ∈ ks := by decide

/-- The sixteen stores, newest first. -/
def pieces (c : Dev nD) : List (View.Piece (Elt F) S512x512 .f32) := ks.map (pcB m c) ++ ks.map (pcA m c)

theorem outW_eq_writes (c : Dev nD) (d : (cc0_stg1_0 : Ref sig .tc).ty.Contents (Elt F)) :
    outW m c d = (oM : Memref sig .tc .vmem S512x512 .f32).view.writes (Elt F) d (pieces m c) := rfl

theorem memA (c : Dev nD) (k : Fin 8) : pcA m c k ∈ pieces m c :=
  List.mem_append_right _ (List.mem_map.mpr ⟨k, mem_ks k, rfl⟩)
theorem memB (c : Dev nD) (k : Fin 8) : pcB m c k ∈ pieces m c :=
  List.mem_append_left _ (List.mem_map.mpr ⟨k, mem_ks k, rfl⟩)

end Generic3

section AtIdealPay

/-! ## The payloads at the ideal instance: the block's element plus what arrived -/

theorem pay2_add (a : Vec Ideal S32x512 .f32) (b : Vec Ideal S32x512 .bf16) (x : S32x512.Idx) :
    k0_pay2 (F := Ideal) a b x = (show EReal from a x) + (show EReal from b x) := by
  unfold k0_pay2; rw [shapeCast_self]; rfl

theorem pay3_add (a : Vec Ideal S32x512 .f32) (b : Vec Ideal S32x512 .bf16) (x : S32x512.Idx) :
    k0_pay3 (F := Ideal) a b x = (show EReal from a x) + (show EReal from b x) := by
  unfold k0_pay3; rw [shapeCast_self]; rfl

theorem pay6_add (a : Vec Ideal S32x512 .f32) (b : Vec Ideal S32x512 .bf16) (x : S32x512.Idx) :
    k0_pay6 (F := Ideal) a b x = (show EReal from a x) + (show EReal from b x) := by
  unfold k0_pay6; rw [shapeCast_self]; rfl

theorem pay7_add (a : Vec Ideal S32x512 .f32) (b : Vec Ideal S32x512 .bf16) (x : S32x512.Idx) :
    k0_pay7 (F := Ideal) a b x = (show EReal from a x) + (show EReal from b x) := by
  unfold k0_pay7; rw [shapeCast_self]; rfl

theorem pay8_add (a : Vec Ideal S32x512 .f32) (b : Vec Ideal S32x512 .bf16) (x : S32x512.Idx) :
    k0_pay8 (F := Ideal) a b x = (show EReal from a x) + (show EReal from b x) := by
  unfold k0_pay8; rw [shapeCast_self]; rfl

theorem pay9_add (a : Vec Ideal S32x512 .f32) (b : Vec Ideal S32x512 .bf16) (x : S32x512.Idx) :
    k0_pay9 (F := Ideal) a b x = (show EReal from a x) + (show EReal from b x) := by
  unfold k0_pay9; rw [shapeCast_self]; rfl

theorem pay10_add (a : Vec Ideal S32x512 .f32) (b : Vec Ideal S32x512 .bf16) (x : S32x512.Idx) :
    k0_pay10 (F := Ideal) a b x = (show EReal from a x) + (show EReal from b x) := by
  unfold k0_pay10; rw [shapeCast_self]; rfl

theorem pay11_add (a : Vec Ideal S32x512 .f32) (b : Vec Ideal S32x512 .bf16) (x : S32x512.Idx) :
    k0_pay11 (F := Ideal) a b x = (show EReal from a x) + (show EReal from b x) := by
  unfold k0_pay11; rw [shapeCast_self]; rfl

theorem pay12_add (a : Vec Ideal S32x512 .f32) (b : Vec Ideal S32x512 .bf16) (x : S32x512.Idx) :
    k0_pay12 (F := Ideal) a b x = (show EReal from a x) + (show EReal from b x) := by
  unfold k0_pay12; rw [shapeCast_self]; rfl

theorem pay13_add (a : Vec Ideal S32x512 .f32) (b : Vec Ideal S32x512 .bf16) (x : S32x512.Idx) :
    k0_pay13 (F := Ideal) a b x = (show EReal from a x) + (show EReal from b x) := by
  unfold k0_pay13; rw [shapeCast_self]; rfl

theorem pay14_add (a : Vec Ideal S32x512 .f32) (b : Vec Ideal S32x512 .bf16) (x : S32x512.Idx) :
    k0_pay14 (F := Ideal) a b x = (show EReal from a x) + (show EReal from b x) := by
  unfold k0_pay14; rw [shapeCast_self]; rfl

theorem pay15_add (a : Vec Ideal S32x512 .f32) (b : Vec Ideal S32x512 .bf16) (x : S32x512.Idx) :
    k0_pay15 (F := Ideal) a b x = (show EReal from a x) + (show EReal from b x) := by
  unfold k0_pay15; rw [shapeCast_self]; rfl

theorem pay16_add (a : Vec Ideal S32x512 .f32) (b : Vec Ideal S32x512 .bf16) (x : S32x512.Idx) :
    k0_pay16 (F := Ideal) a b x = (show EReal from a x) + (show EReal from b x) := by
  unfold k0_pay16; rw [shapeCast_self]; rfl

theorem pay17_add (a : Vec Ideal S32x512 .f32) (b : Vec Ideal S32x512 .bf16) (x : S32x512.Idx) :
    k0_pay17 (F := Ideal) a b x = (show EReal from a x) + (show EReal from b x) := by
  unfold k0_pay17; rw [shapeCast_self]; rfl

theorem pay18_add (a : Vec Ideal S32x512 .f32) (b : Vec Ideal S32x512 .bf16) (x : S32x512.Idx) :
    k0_pay18 (F := Ideal) a b x = (show EReal from a x) + (show EReal from b x) := by
  unfold k0_pay18; rw [shapeCast_self]; rfl

theorem pay5_add (a : Vec Ideal S32x512 .f32) (b : Vec Ideal S32x512 .bf16) (x : S32x512.Idx) :
    k0_pay5 (F := Ideal) (k0_pay4 a) b x = (show EReal from a x) + (show EReal from b x) := by
  unfold k0_pay5 k0_pay4; rw [shapeCast_self]; rfl

end AtIdealPay
section AtIdeal2

open Idealize.ShloMosaic.Layout

variable (m : (ℓ : Loc nD τ sig) → Buf (Elt Ideal) ℓ) (X : (⟨Cert.ReferenceIdeal.S1024x512, .f32⟩ : BufTy).Contents (Elt Ideal))

/-- Row i₀ of block b of the whole input, column i₁. -/
def xrow (b : Fin 2) (i : S512x512.Idx) : Cert.ReferenceIdeal.S1024x512.Idx := fun a => match a with
  | ⟨0, _⟩ => ⟨512 * b.val + (i 0).val, by have h0 : (i 0).val < 512 := (i 0).isLt; have := b.isLt; show _ < 1024; omega⟩
  | ⟨1, _⟩ => ⟨(i 1).val, (i 1).isLt⟩

theorem xrow_val0 (b : Fin 2) (i : S512x512.Idx) : (xrow b i 0).val = 512 * b.val + (i 0).val := rfl
theorem xrow_val1 (b : Fin 2) (i : S512x512.Idx) : (xrow b i 1).val = (i 1).val := rfl

/-- The block a device holds: its y coordinate. -/
def blk (d : Dev nD) : Fin 2 := ⟨d.val % 2, Nat.mod_lt _ (by decide)⟩

theorem idx_congr {s : Shape} {α : Type} (g : s.Idx → α) {i j : s.Idx} (h : ∀ a, (i a).val = (j a).val) : g i = g j :=
  congrArg g (funext fun a => Fin.ext (h a))

theorem mb0 : ∀ d : Dev nD, ((meshBlock [2, 2] ![[1], []] d) 0).val = d.val % 2 := by decide
theorem mb1 : ∀ d : Dev nD, ((meshBlock [2, 2] ![[1], []] d) 1).val = 0 := by decide

/-- The reference at an index: the input's row i₀ plus its row 512 + i₀. -/
theorem ref_apply (i : S512x512.Idx) :
    Cert.ReferenceIdeal.Read.val_main_v1 (F := Ideal) X i
      = (show EReal from X (xrow 0 i)) + (show EReal from X (xrow 1 i)) := by
  rw [Cert.ReferenceIdeal.Read.val_main_v1_apply, Cert.ReferenceIdeal.Read.val_main_cst_apply, Fin.sum_univ_two,
    Cert.ReferenceIdeal.Read.val_main_v0_apply, Cert.ReferenceIdeal.Read.val_main_v0_apply]
  show Ideal.ofBits .f32 0x00000000#32 + _ = _
  rw [Ideal.ofBits_zero_f32, zero_add]
  have h0 : (i 0).val < 512 := (i 0).isLt
  have h1 : (i 1).val < 512 := (i 1).isLt
  refine congrArg₂ _ (idx_congr X fun a => ?_) (idx_congr X fun a => ?_)
  · match a with
    | ⟨0, _⟩ => show ((0 * 512 + (i 0).val) * 512 + (i 1).val) / 512 = 512 * 0 + (i 0).val; omega
    | ⟨1, _⟩ => show ((0 * 512 + (i 0).val) * 512 + (i 1).val) % 512 = (i 1).val; omega
  · match a with
    | ⟨0, _⟩ => show ((1 * 512 + (i 0).val) * 512 + (i 1).val) / 512 = 512 * 1 + (i 0).val; omega
    | ⟨1, _⟩ => show ((1 * 512 + (i 0).val) * 512 + (i 1).val) % 512 = (i 1).val; omega

/-- A device's staged input block at an index: its block of the whole input. -/
theorem own_apply (hX : ∀ c : Dev nD, m ((c.tc : Thread nD τ).loc main_arg0)
      = Layout.blockN ⟨2, ![512, 512]⟩ ⟨2, ![1024, 512]⟩ (Layout.meshBlock [2, 2] ![[1], []] c) X)
    (d : Dev nD) (i : S512x512.Idx) : xstg m d i = X (xrow (blk d) i) := by
  rw [xstg_eq, hX d, blockN_apply]
  refine idx_congr X fun a => ?_
  rw [TilesN.idx_val]
  match a with
  | ⟨0, _⟩ =>
    show ((meshBlock [2, 2] ![[1], []] d) 0).val * 512 + (i 0).val = 512 * (d.val % 2) + (i 0).val
    rw [mb0 d]; omega
  | ⟨1, _⟩ =>
    show ((meshBlock [2, 2] ![[1], []] d) 1).val * 512 + (i 1).val = (i 1).val
    rw [mb1 d]; omega

/-- The send buffer at an index: the device's input block, 256 · (d / 2) rows further down. -/
theorem sbuf_apply (d : Dev nD) (z : S256x512.Idx) :
    sbufC m d z = xstg m d ((rX1 d).toLoadRect.idx z) := by
  unfold sbufC k0_pay1
  simp only [shapeCast_self]
  rfl

section WithX
variable (hX : ∀ c : Dev nD, m ((c.tc : Thread nD τ).loc main_arg0)
      = Layout.blockN ⟨2, ![512, 512]⟩ ⟨2, ![1024, 512]⟩ (Layout.meshBlock [2, 2] ![[1], []] c) X)
include hX

/-- Chunk k of device d's send buffer at an index: row 256 · (d / 2) + 32 k + y₀ of d's block. -/
theorem sent_apply (d : Dev nD) (k : Fin 8) (y : S32x512.Idx) (j : S512x512.Idx)
    (h0 : (j 0).val = 256 * (d.val / 2) + 32 * k.val + (y 0).val) (h1 : (j 1).val = (y 1).val) :
    (sSl k).view.read (Elt Ideal) (sbufC m d) y = X (xrow (blk d) j) := by
  show sbufC m d ((sRect k).emb y) = _
  rw [sbuf_apply, own_apply m X hX]
  refine idx_congr X fun a => ?_
  match a with
  | ⟨0, _⟩ =>
    show 512 * (blk d).val + ((k0_off1 d) 0 + 1 * (32 * k.val + 1 * (y 0).val)) = 512 * (blk d).val + (j 0).val
    rw [k0_off1_eq d, h0]
    show 512 * (blk d).val + (256 * (d.val / 2) + 1 * (32 * k.val + 1 * (y 0).val)) = _
    omega
  | ⟨1, _⟩ =>
    show (k0_off1 d) 1 + 1 * (0 + 1 * (y 1).val) = (j 1).val
    rw [k0_off1_eq d, h1]
    show 0 + 1 * (0 + 1 * (y 1).val) = _
    omega

end WithX

theorem yn_div : ∀ c : Dev nD, (yn c).val / 2 = c.val / 2 := by decide
theorem yn_mod : ∀ c : Dev nD, (yn c).val % 2 = 1 - c.val % 2 := by decide
theorem ynxn_div : ∀ c : Dev nD, (yn (xn c)).val / 2 = 1 - c.val / 2 := by decide
theorem ynxn_mod : ∀ c : Dev nD, (yn (xn c)).val % 2 = 1 - c.val % 2 := by decide

/-- Two devices that hold the two blocks: their rows at an index add up to the reference there. -/
theorem pair_sum (c d : Dev nD) (hd : d.val % 2 = 1 - c.val % 2) (i : S512x512.Idx) :
    (show EReal from X (xrow (blk c) i)) + (show EReal from X (xrow (blk d) i))
      = Cert.ReferenceIdeal.Read.val_main_v1 (F := Ideal) X i := by
  rw [ref_apply]
  have hc : c.val % 2 = 0 ∨ c.val % 2 = 1 := by omega
  rcases hc with hc | hc
  · have e1 : blk c = 0 := Fin.ext hc
    have e2 : blk d = 1 := Fin.ext (by show d.val % 2 = 1; omega)
    rw [e1, e2]
  · have e1 : blk c = 1 := Fin.ext hc
    have e2 : blk d = 0 := Fin.ext (by show d.val % 2 = 0; omega)
    rw [e1, e2]
    exact add_comm (G := EReal) _ _

section WithX2
variable (hX : ∀ c : Dev nD, m ((c.tc : Thread nD τ).loc main_arg0)
      = Layout.blockN ⟨2, ![512, 512]⟩ ⟨2, ![1024, 512]⟩ (Layout.meshBlock [2, 2] ![[1], []] c) X)
include hX

/-- Store k into the half the device sent from writes the reference's rows there: the y-neighbour holds the other block
    and sent from the same half. -/
theorem pieceA (c : Dev nD) (k : Fin 8) (y : S32x512.Idx) :
    (show EReal from xA m c k y) + (show EReal from cA m c k y)
      = Cert.ReferenceIdeal.Read.val_main_v1 (F := Ideal) X ((rO2 c k).emb y) := by
  have hx : xA m c k y = X (xrow (blk c) ((rO2 c k).emb y)) := own_apply m X hX c _
  have hc : cA m c k y = X (xrow (blk (yn c)) ((rO2 c k).emb y)) := by
    rw [cA_eq]
    refine sent_apply m X hX (yn c) k y _ ?_ ?_
    · show (k0_off2 c (BitVec.ofNat 32 (32 * k.val))) 0 + 1 * (y 0).val = _
      rw [k0_off2_eq c k, yn_div c]
      show 256 * (c.val / 2) + 32 * k.val + 1 * (y 0).val = _
      omega
    · show (k0_off2 c (BitVec.ofNat 32 (32 * k.val))) 1 + 1 * (y 1).val = _
      rw [k0_off2_eq c k]
      show 0 + 1 * (y 1).val = _
      omega
  rw [hx, hc]
  exact pair_sum X c (yn c) (yn_mod c) _

/-- Store k into the other half likewise: the x-neighbour's y-neighbour holds the other block and sent from that half. -/
theorem pieceB (c : Dev nD) (k : Fin 8) (y : S32x512.Idx) :
    (show EReal from xB m c k y) + (show EReal from cB m c k y)
      = Cert.ReferenceIdeal.Read.val_main_v1 (F := Ideal) X ((rO3 c k).emb y) := by
  have hx : xB m c k y = X (xrow (blk c) ((rO3 c k).emb y)) := own_apply m X hX c _
  have hc : cB m c k y = X (xrow (blk (yn (xn c))) ((rO3 c k).emb y)) := by
    rw [cB_eq, cA_eq]
    refine sent_apply m X hX (yn (xn c)) k y _ ?_ ?_
    · show (k0_off3 c (BitVec.ofNat 32 (32 * k.val))) 0 + 1 * (y 0).val = _
      rw [k0_off3_eq c k, ynxn_div c]
      show (32 * k.val + 256) - 256 * (c.val / 2) + 1 * (y 0).val = _
      have hc4 : c.val < 4 := c.isLt
      omega
    · show (k0_off3 c (BitVec.ofNat 32 (32 * k.val))) 1 + 1 * (y 1).val = _
      rw [k0_off3_eq c k]
      show 0 + 1 * (y 1).val = _
      omega
  rw [hx, hc]
  exact pair_sum X c (yn (xn c)) (ynxn_mod c) _

end WithX2

theorem payA_apply (c : Dev nD) (k : Fin 8) (x : S32x512.Idx) :
    payA m c k x = (show EReal from xA m c k x) + (show EReal from cA m c k x) :=
  match k with
  | ⟨0, _⟩ => pay2_add _ _ x
  | ⟨1, _⟩ => pay3_add _ _ x
  | ⟨2, _⟩ => pay5_add _ _ x
  | ⟨3, _⟩ => pay6_add _ _ x
  | ⟨4, _⟩ => pay7_add _ _ x
  | ⟨5, _⟩ => pay8_add _ _ x
  | ⟨6, _⟩ => pay9_add _ _ x
  | ⟨7, _⟩ => pay10_add _ _ x

theorem payB_apply (c : Dev nD) (k : Fin 8) (x : S32x512.Idx) :
    payB m c k x = (show EReal from xB m c k x) + (show EReal from cB m c k x) :=
  match k with
  | ⟨0, _⟩ => pay11_add _ _ x
  | ⟨1, _⟩ => pay12_add _ _ x
  | ⟨2, _⟩ => pay13_add _ _ x
  | ⟨3, _⟩ => pay14_add _ _ x
  | ⟨4, _⟩ => pay15_add _ _ x
  | ⟨5, _⟩ => pay16_add _ _ x
  | ⟨6, _⟩ => pay17_add _ _ x
  | ⟨7, _⟩ => pay18_add _ _ x

/-- Every store writes the reference's values on its rectangle. -/
theorem pieces_agree (hX : ∀ c : Dev nD, m ((c.tc : Thread nD τ).loc main_arg0)
      = Layout.blockN ⟨2, ![512, 512]⟩ ⟨2, ![1024, 512]⟩ (Layout.meshBlock [2, 2] ![[1], []] c) X) (c : Dev nD) :
    ∀ p ∈ pieces m c, ∀ x : p.1.shape.Idx,
      p.2 x = Cert.ReferenceIdeal.Read.val_main_v1 (F := Ideal) X (p.1.emb x) := by
  intro p hp
  rcases List.mem_append.mp hp with h | h
  · obtain ⟨k, -, rfl⟩ := List.mem_map.mp h
    intro x
    exact (payB_apply m c k x).trans (pieceB m X hX c k x)
  · obtain ⟨k, -, rfl⟩ := List.mem_map.mp h
    intro x
    exact (payA_apply m c k x).trans (pieceA m X hX c k x)

/-- The sixteen rectangles cover the buffer: rows 256 · (c / 2) + 32 k … and rows 256 − 256 · (c / 2) + 32 k …, k < 8. -/
theorem cover (c : Dev nD) (y : S512x512.Idx) : ∃ p ∈ pieces m c, y ∈ p.1.set := by
  have hr : (y 0).val < 512 := (y 0).isLt
  have hq : (y 1).val < 512 := (y 1).isLt
  have hc4 : c.val < 4 := c.isLt
  by_cases h : 256 * (c.val / 2) ≤ (y 0).val ∧ (y 0).val < 256 * (c.val / 2) + 256
  · obtain ⟨k, hk⟩ : ∃ k : Fin 8, k.val = ((y 0).val - 256 * (c.val / 2)) / 32 := ⟨⟨_, by omega⟩, rfl⟩
    refine ⟨pcA m c k, memA m c k, ?_⟩
    show y ∈ (rO2 c k).set
    rw [Rect.mem_set_unit, k0_off2_eq c k]
    intro a
    match a with
    | ⟨0, _⟩ =>
      show 256 * (c.val / 2) + 32 * k.val ≤ (y 0).val ∧ (y 0).val < 256 * (c.val / 2) + 32 * k.val + 32
      omega
    | ⟨1, _⟩ =>
      show 0 ≤ (y 1).val ∧ (y 1).val < 0 + 512
      omega
  · obtain ⟨k, hk⟩ : ∃ k : Fin 8, k.val = ((y 0).val - (256 - 256 * (c.val / 2))) / 32 := ⟨⟨_, by omega⟩, rfl⟩
    refine ⟨pcB m c k, memB m c k, ?_⟩
    show y ∈ (rO3 c k).set
    rw [Rect.mem_set_unit, k0_off3_eq c k]
    intro a
    match a with
    | ⟨0, _⟩ =>
      show (32 * k.val + 256) - 256 * (c.val / 2) ≤ (y 0).val ∧ (y 0).val < (32 * k.val + 256) - 256 * (c.val / 2) + 32
      omega
    | ⟨1, _⟩ =>
      show 0 ≤ (y 1).val ∧ (y 1).val < 0 + 512
      omega

end AtIdeal2

/-- Stores that all write one function's values on their rectangles, and cover the buffer, leave that function. -/
theorem out_of_pieces {F : FTy → Type} [FloatOps F] (ps : List (View.Piece (Elt F) S512x512 .f32))
    (d : (cc0_stg1_0 : Ref sig .tc).ty.Contents (Elt F)) (g : S512x512.Idx → Elt F .f32)
    (hg : ∀ p ∈ ps, ∀ x : p.1.shape.Idx, p.2 x = g (p.1.emb x)) (hc : ∀ y : S512x512.Idx, ∃ p ∈ ps, y ∈ p.1.set) :
    (oM : Memref sig .tc .vmem S512x512 .f32).view.writes (Elt F) d ps = g :=
  funext fun i => View.read_writes_apply_of_pieces (oM : Memref sig .tc .vmem S512x512 .f32).view d g ps hg i (hc i)

end Value

/-- Every device's result block is the reference's sum of the whole input's two halves, when each device's input block
    is its block of that whole input. -/
theorem result_eq (m : (ℓ : Loc nD τ sig) → Buf (Elt Ideal) ℓ) (X : (⟨Cert.ReferenceIdeal.S1024x512, .f32⟩ : BufTy).Contents (Elt Ideal))
    (hX : ∀ c : Dev nD, m ((c.tc : Thread nD τ).loc main_arg0)
      = Layout.blockN ⟨2, ![512, 512]⟩ ⟨2, ![1024, 512]⟩ (Layout.meshBlock [2, 2] ![[1], []] c) X)
    (c : Dev nD) :
    outAt (F := Ideal) m c = Cert.ReferenceIdeal.Read.val_main_v1 (F := Ideal) X :=
  (Value.outW_eq_writes m c oBase).trans
    (Value.out_of_pieces (Value.pieces m c) oBase _ (Value.pieces_agree m X hX c) (Value.cover m c))

/-- info: 'Cert.KernelIdeal.AR.result_eq' depends on axioms: [propext, Classical.choice, Quot.sound] -/
#guard_msgs in #print axioms result_eq

end Cert.KernelIdeal.AR

end
-- ==== Proof.K.ARDefs.lean ====
/-
  The all-reduce over a 2 × 2 mesh: the vocabulary every other module of this proof is stated over.

  Device `c` sits at mesh position (c / 2, c % 2) and holds block `c % 2` of the 1024-row input. It rounds the
  half of its block that starts at row 256 · (c / 2) into a send buffer, shakes hands with its two neighbours on the
  barrier semaphore, sends the eight 32-row chunks of the send buffer to its y-neighbour `yn c` (the device with
  the other block), forwards each chunk it receives to its x-neighbour `xn c`, and adds what it received to its
  own rows: the y-neighbour's chunk to the half it sent from, the forwarded chunk to the other half.

  Semaphores, per device: the barrier cell (two unit duties, one from each neighbour), and four families of eight
  transfer cells — departures of phase one, arrivals of phase one, departures of phase two, arrivals of phase two —
  each with one duty of a chunk's credit.
-/
import proofs.«900151_g7700000000000152_dist_ar_v7x_xy2x2_y_m512_n512_f32_1_alg».proof.Proof.Gen.Kernel
import proofs.«900151_g7700000000000152_dist_ar_v7x_xy2x2_y_m512_n512_f32_1_alg».proof.Proof.Gen.Kernel.Skeleton
import proofs.«900151_g7700000000000152_dist_ar_v7x_xy2x2_y_m512_n512_f32_1_alg».proof.Proof.Gen.Kernel.Launch
import proofs.«900151_g7700000000000152_dist_ar_v7x_xy2x2_y_m512_n512_f32_1_alg».proof.Proof.Gen.Kernel.Points
import proofs.«900151_g7700000000000152_dist_ar_v7x_xy2x2_y_m512_n512_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two neighbours -/

/-- The device with the same `x` coordinate and the other `y`: it holds the other block of the input. -/
def yn (c : Dev nD) : Dev nD := ⟨(2 * (c.val / 2) + 1) - (c.val % 2), by have h : c.val < 4 := c.isLt; show _ < 4; omega⟩
/-- The device with the same `y` coordinate and the other `x`: it holds the same block and works on the other half. -/
def xn (c : Dev nD) : Dev nD := ⟨((c.val % 2) + 2) - 2 * (c.val / 2), by have h : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne_xn (c : Dev nD) : yn c ≠ xn c := by revert c; decide
theorem yn_ne (c : Dev nD) : yn c ≠ c := by revert c; decide
theorem xn_ne (c : Dev nD) : xn c ≠ c := by revert c; decide

def ynE : Dev nD ≃ Dev nD := ⟨yn, yn, yn_yn, yn_yn⟩
def xnE : Dev nD ≃ Dev nD := ⟨xn, xn, xn_xn, xn_xn⟩

/-! ## Buffers, chunks, semaphores, cells -/

abbrev xM : Memref sig .tc .vmem S512x512 .f32 := Memref.whole cc0_stg0_0
abbrev oM : Memref sig .tc .vmem S512x512 .f32 := Memref.whole cc0_stg1_0
abbrev sM : Memref sig .tc .vmem S256x512 .bf16 := Memref.whole cc0_scratch0
abbrev cM : Memref sig .tc .vmem S512x512 .bf16 := Memref.whole cc0_scratch1

theorem sOff_inb (k : Fin 8) : ∀ a, (![32 * k.val, 0] : Fin 2 → Nat) a + S32x512.size a ≤ S256x512.size a := by
  revert k; decide
theorem cOff_inb (j : Fin 16) : ∀ a, (![32 * j.val, 0] : Fin 2 → Nat) a + S32x512.size a ≤ S512x512.size a := by
  revert j; decide

/-- Chunk `k` of the send buffer: its rows 32k … 32k + 31. -/
abbrev sRect (k : Fin 8) : Rect S256x512 := Rect.unit (s := S256x512) ![32 * k.val, 0] S32x512.size (sOff_inb k)
/-- Chunk `j` of the landing buffer: its rows 32j … 32j + 31 (chunks 0–7 land from the y-neighbour, 8–15 from the x-neighbour). -/
abbrev cRect (j : Fin 16) : Rect S512x512 := Rect.unit (s := S512x512) ![32 * j.val, 0] S32x512.size (cOff_inb j)

abbrev sSl (k : Fin 8) : Memref sig .tc .vmem S32x512 .bf16 := sM.slice (sRect k) (fun _ => rfl)
abbrev cSl (j : Fin 16) : Memref sig .tc .vmem S32x512 .bf16 := cM.slice (cRect j) (fun _ => rfl)

/-- Arrival chunk `8 + k`. -/
def hi (k : Fin 8) : Fin 16 := ⟨8 + k.val, by have := k.isLt; omega⟩
/-- Arrival chunk `k`. -/
def lo (k : Fin 8) : Fin 16 := ⟨k.val, by have := k.isLt; omega⟩

/-- The runtime's barrier semaphore of collective id 0. -/
abbrev barS : Sem sig := (SemArray.scalar (sig.barrier 0 rfl) : Sems sig S_).sem

/-- Transfer semaphore `k` of family `a`: 0 departures of phase one, 1 arrivals of phase one, 2 departures of phase
    two, 3 arrivals of phase two. -/
def dsem (a : Fin 4) (k : Fin 8) : DmaSem sig := ⟨2 + 8 * a.val + k.val, by have := a.isLt; have := k.isLt; show _ < 34; omega⟩

abbrev cellB (c : Dev nD) : GSem nD τ sig := ((c : Thread nD τ), .reg barS)
abbrev cellD (c : Dev nD) (a : Fin 4) (k : Fin 8) : GSem nD τ sig := ((c : Thread nD τ), .dma (dsem a k))

/-- A chunk's credit on a transfer semaphore. -/
abbrev N : ℕ := (cSl 0 : Memref sig .tc .vmem S32x512 .bf16).view.dmaCredit
theorem N_pos : 0 < N := View.dmaCredit_pos _ (by decide)

end Cert.Kernel.AR

end
-- ==== Proof.K.ARSched.lean ====
/-
  What each buffer holds along the way, and the schedule of the cells: who pays which duty, with how many
  units, and what the payment hands the cell's owner.

  A device's send buffer holds, throughout, the rounded half of its block (`sbufC`). Arrival chunk `k` holds what
  the y-neighbour's transfer writes there — chunk `k` of the neighbour's send buffer (`cw1`) — and arrival chunk
  `8 + k` what the x-neighbour's forwarding writes — that neighbour's arrival chunk `k` (`cw2`). Each is spelt as the
  transfer's own write over a fixed base, because on the chunk's elements the base does not show.

  Barrier cell of `c`: the y-neighbour's unit hands over that neighbour's eight arrival chunks 0–7 (so that `c` can
  send into them) with the word that its phase-one arrival cells are open; the x-neighbour's unit hands over that
  neighbour's arrival chunks 8–15 and the same word for its phase-two arrival cells.
-/
import proofs.«900151_g7700000000000152_dist_ar_v7x_xy2x2_y_m512_n512_f32_1_alg».proof.Proof.K.ARDefs

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The half of the input block a device rounds and sends: 256 rows from row 256 · (c / 2). -/
abbrev rX1 (c : Dev nD) : Rect S512x512 := Rect.unit (s := S512x512) (k0_off1 c) S256x512.size (k0_off1_inb c)
/-- Rows 32k … of that half, where the y-neighbour's chunk `k` is added; -/
abbrev rO2 (c : Dev nD) (k : Fin 8) : Rect S512x512 :=
  Rect.unit (s := S512x512) (k0_off2 c (BitVec.ofNat 32 (32 * k.val))) S32x512.size (k0_off2_inb c k)
/-- rows 32k … of the other half, where the forwarded chunk `k` is added. -/
abbrev rO3 (c : Dev nD) (k : Fin 8) : Rect S512x512 :=
  Rect.unit (s := S512x512) (k0_off3 c (BitVec.ofNat 32 (32 * k.val))) S32x512.size (k0_off3_inb c k)

/-- The input block as the pipeline stages it. -/
def xstg (c : Dev nD) : (cc0_stg0_0 : Ref sig .tc).ty.Contents (Elt F) :=
  (win0_0.blk t0_0).view.read (Elt F) (m ((c : Thread nD τ).loc main_arg0))

/-- The send buffer: the device's half of its block, rounded. -/
def sbufC (c : Dev nD) : (cc0_scratch0 : Ref sig .tc).ty.Contents (Elt F) :=
  k0_pay1 (xM.view.readAt (Elt F) (rX1 c).toLoadRect (xstg m c))

/-- A base for the landing buffer's contents outside the chunk spoken of. -/
def cBase : (cc0_scratch1 : Ref sig .tc).ty.Contents (Elt F) := fun _ => Classical.arbitrary _
/-- A base for the result's staging buffer before the first store. -/
def oBase : (cc0_stg1_0 : Ref sig .tc).ty.Contents (Elt F) := fun _ => Classical.arbitrary _

/-- Arrival chunk `k` after the y-neighbour's transfer: chunk `k` of that neighbour's send buffer. -/
def cw1 (c : Dev nD) (k : Fin 8) : (cc0_scratch1 : Ref sig .tc).ty.Contents (Elt F) :=
  (cSl (lo k)).view.write (Elt F) cBase ((sSl k).view.read (Elt F) (sbufC m (yn c))) Finset.univ
/-- Arrival chunk `8 + k` after the x-neighbour's forwarding: that neighbour's arrival chunk `k`. -/
def cw2 (c : Dev nD) (k : Fin 8) : (cc0_scratch1 : Ref sig .tc).ty.Contents (Elt F) :=
  (cSl (hi k)).view.write (Elt F) cBase ((cSl (lo k)).view.read (Elt F) (cw1 m (xn c) k)) Finset.univ

/-! ## Ownership of a chunk -/

def sPts (c : Dev nD) (k : Fin 8) (q : PosShare TreeShare) (f : (cc0_scratch0 : Ref sig .tc).ty.Contents (Elt F)) : sProp 𝕄 :=
  (sSl k).view.loc (c : Thread nD τ) ↦[(sSl k).view.set]{q} f
def cPts (c : Dev nD) (j : Fin 16) (q : PosShare TreeShare) (f : (cc0_scratch1 : Ref sig .tc).ty.Contents (Elt F)) : sProp 𝕄 :=
  (cSl j).view.loc (c : Thread nD τ) ↦[(cSl j).view.set]{q} f

/-- Eight things side by side, indexed by the chunk. -/
def sep8 (Φ : Fin 8 → sProp 𝕄) : sProp 𝕄 := iprop(Φ 0 ∗ Φ 1 ∗ Φ 2 ∗ Φ 3 ∗ Φ 4 ∗ Φ 5 ∗ Φ 6 ∗ Φ 7)

/-- Eight things and then one more, all side by side in one flat chain. -/
def sep8With (Φ : Fin 8 → sProp 𝕄) (R : sProp 𝕄) : sProp 𝕄 := iprop(Φ 0 ∗ Φ 1 ∗ Φ 2 ∗ Φ 3 ∗ Φ 4 ∗ Φ 5 ∗ Φ 6 ∗ Φ 7 ∗ R)

/-! ## The schedule -/

/-- What the y-neighbour's unit on `c`'s barrier cell hands `c`. -/
def barPayY (c : Dev nD) : sProp 𝕄 :=
  sep8With (fun k => iprop(∃ f, cPts (yn c) (lo k) fullShare f)) (sep8 fun k => reached ER (cellD (yn c) 1 k) 0)
/-- What the x-neighbour's unit hands `c`. -/
def barPayX (c : Dev nD) : sProp 𝕄 :=
  sep8With (fun k => iprop(∃ f, cPts (xn c) (hi k) fullShare f)) (sep8 fun k => reached ER (cellD (xn c) 3 k) 0)

/-- What the one duty of transfer cell (family `a`, chunk `k`) of `c` hands `c`: the send chunk back; arrival chunk `k`
    landed; the forwarded half share of arrival chunk `k` back; arrival chunk `8 + k` landed. -/
def dmaPay (c : Dev nD) (a : Fin 4) (k : Fin 8) : sProp 𝕄 :=
  match a with
  | 0 => sPts c k fullShare (sbufC m c)
  | 1 => cPts c (lo k) fullShare (cw1 m c k)
  | 2 => cPts c (lo k) fullShare.left (cw1 m c k)
  | 3 => cPts c (hi k) fullShare (cw2 m c k)

def dmaPayI (c : Dev nD) (i : DmaSem sig) : sProp 𝕄 :=
  if h : 2 ≤ i.val then
    dmaPay m c ⟨(i.val - 2) / 8, by have : i.val < 34 := i.isLt; omega⟩ ⟨(i.val - 2) % 8, Nat.mod_lt _ (by decide)⟩
  else iprop(emp)

/-- One round, round 0, on every TensorCore's cells: the barrier cell's two unit duties (`false` the y-neighbour's,
    `true` the x-neighbour's), each transfer cell's one duty `false` of a chunk's credit. -/
def sched : Rounds.Schedule (GSem nD τ sig) Bool 𝕄 where
  duties g r :=
    if r = 0 ∧ g.1.2 = .tc then
      (match g.2 with
        | .reg _ => Finset.univ
        | .dma i => if 2 ≤ i.val then {false} else ∅)
    else ∅
  unitless _ := False
  amount g _ _ := match g.2 with | .reg _ => 1 | .dma _ => N
  payload g _ d := match g.2 with
    | .reg _ => if d then barPayX g.1.1 else barPayY g.1.1
    | .dma i => dmaPayI m g.1.1 i
  amount_pos g _ _ _ := by
    cases g.2 with
    | reg _ => exact Nat.one_pos
    | dma _ => exact N_pos

/-! ## What each device owes at launch, in the order it pays, last first; the levels -/

/-- The tallies a device pays, numbered from the LAST paid: the eight phase-two arrivals of its x-neighbour (chunk 7
    first), the eight phase-one arrivals of its y-neighbour, the x-neighbour's barrier unit, the y-neighbour's. -/
def tl (c : Dev nD) (n : ℕ) : CellTallies nD τ sig Unit :=
  if h : n < 8 then tallyAt (cellD (xn c) 3 ⟨7 - n, by omega⟩) () N
  else if h : n < 16 then tallyAt (cellD (yn c) 1 ⟨15 - n, by omega⟩) () N
  else if n = 16 then tallyAt (cellB (xn c)) () 1
  else if n = 17 then tallyAt (cellB (yn c)) () 1
  else 0

/-- What is still owed when `n` payments remain. -/
def owedN (c : Dev nD) : ℕ → CellTallies nD τ sig Unit
  | 0 => 0
  | n + 1 => owedN c n + tl c n

def O₀ (c : Dev nD) : CellTallies nD τ sig Unit := owedN c 18

def L (g : GSem nD τ sig) : Finset Unit := if g.1.2 = .tc then {()} else ∅
/-- The barrier cells at 1, the phase-one arrival cells at 2, the phase-two arrival cells at 3, every other cell at 0. -/
def lv (g : GSem nD τ sig) (_ : Unit) : ℕ :=
  match g.2 with
  | .reg _ => 1
  | .dma i => if 10 ≤ i.val ∧ i.val < 18 then 2 else if 26 ≤ i.val then 3 else 0

/-! ## The result's staging buffer -/

/-- Where store `j` of the sixteen goes: the eight chunks of the half the device sent from, then the eight of the other half. -/
def outRect (c : Dev nD) (j : Fin 16) : Rect S512x512 :=
  if h : j.val < 8 then rO2 c ⟨j.val, h⟩ else rO3 c ⟨j.val - 8, by have := j.isLt; omega⟩

/-- The rows of the input the device adds to at chunk `k` of the half it sent from, and what arrived for them. -/
abbrev xA (c : Dev nD) (k : Fin 8) : Vec F S32x512 .f32 := xM.view.readAt (Elt F) (rO2 c k).toLoadRect (xstg m c)
abbrev cA (c : Dev nD) (k : Fin 8) : Vec F S32x512 .bf16 := cM.view.readAt (Elt F) (cRect (lo k)).toLoadRect (cw1 m c k)
/-- The same for the other half. -/
abbrev xB (c : Dev nD) (k : Fin 8) : Vec F S32x512 .f32 := xM.view.readAt (Elt F) (rO3 c k).toLoadRect (xstg m c)
abbrev cB (c : Dev nD) (k : Fin 8) : Vec F S32x512 .bf16 := cM.view.readAt (Elt F) (cRect (hi k)).toLoadRect (cw2 m c k)

/-- The sixteen stores, in program order, from contents `d`. -/
def outW (c : Dev nD) (d : (cc0_stg1_0 : Ref sig .tc).ty.Contents (Elt F)) : (cc0_stg1_0 : Ref sig .tc).ty.Contents (Elt F) :=
  let w (r : Rect S512x512) (f : (cc0_stg1_0 : Ref sig .tc).ty.Contents (Elt F)) (v : r.shape.Idx → Elt F .f32) :=
    ((oM : Memref sig .tc .vmem S512x512 .f32).access r : View sig .tc _ _ _).write (Elt F) f v Finset.univ
  let f1 := w (rO2 c 0) d (k0_pay2 (xA m c 0) (cA m c 0))
  let f2 := w (rO2 c 1) f1 (k0_pay3 (xA m c 1) (cA m c 1))
  let f3 := w (rO2 c 2) f2 (k0_pay5 (k0_pay4 (xA m c 2)) (cA m c 2))
  let f4 := w (rO2 c 3) f3 (k0_pay6 (xA m c 3) (cA m c 3))
  let f5 := w (rO2 c 4) f4 (k0_pay7 (xA m c 4) (cA m c 4))
  let f6 := w (rO2 c 5) f5 (k0_pay8 (xA m c 5) (cA m c 5))
  let f7 := w (rO2 c 6) f6 (k0_pay9 (xA m c 6) (cA m c 6))
  let f8 := w (rO2 c 7) f7 (k0_pay10 (xA m c 7) (cA m c 7))
  let g1 := w (rO3 c 0) f8 (k0_pay11 (xB m c 0) (cB m c 0))
  let g2 := w (rO3 c 1) g1 (k0_pay12 (xB m c 1) (cB m c 1))
  let g3 := w (rO3 c 2) g2 (k0_pay13 (xB m c 2) (cB m c 2))
  let g4 := w (rO3 c 3) g3 (k0_pay14 (xB m c 3) (cB m c 3))
  let g5 := w (rO3 c 4) g4 (k0_pay15 (xB m c 4) (cB m c 4))
  let g6 := w (rO3 c 5) g5 (k0_pay16 (xB m c 5) (cB m c 5))
  let g7 := w (rO3 c 6) g6 (k0_pay17 (xB m c 6) (cB m c 6))
  w (rO3 c 7) g7 (k0_pay18 (xB m c 7) (cB m c 7))

/-- The result block: the sixteen stores cover it, so the base does not show (`outW_base`, in the geometry module). -/
def outAt (c : Dev nD) : (cc0_stg1_0 : Ref sig .tc).ty.Contents (Elt F) := outW m c oBase

end Cert.Kernel.AR

end
-- ==== Proof.K.ARData.lean ====
/-
  The pipeline's proof data and what one device's body starts from and leaves.

  A device starts from: the invariants of its own thirty-three cells, of both neighbours' barrier cells, of the
  y-neighbour's phase-one arrival cells and of the x-neighbour's phase-two arrival cells (the cells it pays); its
  position at round 0 of its own cells; the word that round 0 is open on every cell it pays and on its own; the
  tokens of the thirty-four duties it pays (a unit on each neighbour's barrier, sixteen arrivals on the
  neighbours, its own sixteen departures); the credit the launch deals it for what others pay its cells (two barrier
  units, sixteen arrivals); and its two scratch buffers at any contents. It leaves the scratch buffers whole again
  and its thirty-two transfer semaphores back at zero.
-/
import proofs.«900151_g7700000000000152_dist_ar_v7x_xy2x2_y_m512_n512_f32_1_alg».proof.Proof.K.ARSched

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, numbered: 0 the barrier cell, 1 + 8a + k transfer cell (a, k) -/

def ixD (a : Fin 4) (k : Fin 8) : Fin 33 := ⟨1 + 8 * a.val + k.val, by have := a.isLt; have := k.isLt; omega⟩

abbrev csem : Fin 33 → SemLoc sig := fun i => if h : i.val = 0 then .reg barS else .dma ⟨i.val + 1, by have := i.isLt; show _ < 34; omega⟩
abbrev kcell (ck : Dev nD × Fin 33) : GSem nD τ sig := ((ck.1 : Thread nD τ), csem ck.2)
/-- The kernel's own (scoped) semaphores, as the launch theorem indexes them. -/
abbrev osem : Fin 32 → SemLoc sig := fun i => .dma ⟨i.val + 2, by have := i.isLt; show _ < 34; omega⟩

theorem kcell_B (c : Dev nD) : kcell (c, 0) = cellB c := rfl
theorem kcell_D (c : Dev nD) (a : Fin 4) (k : Fin 8) : kcell (c, ixD a k) = cellD c a k := by
  unfold kcell csem ixD cellD dsem
  have h : ¬ (1 + 8 * a.val + k.val = 0) := by omega
  simp only [h, dite_false]
  congr 2
  exact Fin.ext (by show 1 + 8 * a.val + k.val + 1 = 2 + 8 * a.val + k.val; omega)

/-! ## The ghost state a device starts from -/

section Ghost
variable (K : Dev nD × Fin 33 → ℕ) (c : Dev nD)

def invs : sProp 𝕄 :=
  iprop(cellInv ER (sched m) (K (c, 0)) (cellB c)
    ∗ (sep8 fun k => cellInv ER (sched m) (K (c, ixD 0 k)) (cellD c 0 k))
    ∗ (sep8 fun k => cellInv ER (sched m) (K (c, ixD 1 k)) (cellD c 1 k))
    ∗ (sep8 fun k => cellInv ER (sched m) (K (c, ixD 2 k)) (cellD c 2 k))
    ∗ (sep8 fun k => cellInv ER (sched m) (K (c, ixD 3 k)) (cellD c 3 k))
    ∗ cellInv ER (sched m) (K (yn c, 0)) (cellB (yn c)) ∗ cellInv ER (sched m) (K (xn c, 0)) (cellB (xn c))
    ∗ (sep8 fun k => cellInv ER (sched m) (K (yn c, ixD 1 k)) (cellD (yn c) 1 k))
    ∗ (sep8 fun k => cellInv ER (sched m) (K (xn c, ixD 3 k)) (cellD (xn c) 3 k)))

def positions : sProp 𝕄 :=
  iprop(atPos ER (cellB c) 0 ∅ 0
    ∗ (sep8 fun k => atPos ER (cellD c 0 k) 0 ∅ 0) ∗ (sep8 fun k => atPos ER (cellD c 1 k) 0 ∅ 0)
    ∗ (sep8 fun k => atPos ER (cellD c 2 k) 0 ∅ 0) ∗ (sep8 fun k => atPos ER (cellD c 3 k) 0 ∅ 0))

def opened : sProp 𝕄 :=
  iprop(reached ER (cellB (yn c)) 0 ∗ reached ER (cellB (xn c)) 0
    ∗ (sep8 fun k => reached ER (cellD (yn c) 1 k) 0) ∗ (sep8 fun k => reached ER (cellD (xn c) 3 k) 0)
    ∗ (sep8 fun k => reached ER (cellD c 0 k) 0) ∗ (sep8 fun k => reached ER (cellD c 1 k) 0)
    ∗ (sep8 fun k => reached ER (cellD c 2 k) 0) ∗ (sep8 fun k => reached ER (cellD c 3 k) 0))

/-- The tokens of the duties the device pays. -/
def payToks : sProp 𝕄 :=
  iprop(dutyTok ER (cellB (yn c)) 0 false ∗ dutyTok ER (cellB (xn c)) 0 true
    ∗ (sep8 fun k => dutyTok ER (cellD (yn c) 1 k) 0 false) ∗ (sep8 fun k => dutyTok ER (cellD (xn c) 3 k) 0 false)
    ∗ (sep8 fun k => dutyTok ER (cellD c 0 k) 0 false) ∗ (sep8 fun k => dutyTok ER (cellD c 2 k) 0 false))

def ghost : sProp 𝕄 := iprop(invs m K c ∗ positions c ∗ opened c ∗ payToks c)

end Ghost

/-- The credit the launch deals a device for what others pay its cells. -/
def creds (c : Dev nD) : sProp 𝕄 :=
  iprop(cred (tallyAt (cellB c) () 2)
    ∗ (sep8 fun k => cred (tallyAt (cellD c 1 k) () N)) ∗ (sep8 fun k => cred (tallyAt (cellD c 3 k) () N)))

def start (c : Dev nD) : sProp 𝕄 := iprop((∃ K, ghost m K c) ∗ creds c ∗ levAts L lv)

def sWhole (c : Dev nD) (f : (cc0_scratch0 : Ref sig .tc).ty.Contents (Elt F)) : sProp 𝕄 := ((c : Thread nD τ).loc cc0_scratch0) ↦{fullShare} f
def cWhole (c : Dev nD) (f : (cc0_scratch1 : Ref sig .tc).ty.Contents (Elt F)) : sProp 𝕄 := ((c : Thread nD τ).loc cc0_scratch1) ↦{fullShare} f

/-- The thirty-two transfer semaphores at zero. -/
def sems32 (c : Dev nD) : sProp 𝕄 :=
  iprop((sep8 fun k => semVal (cellD c 0 k) 0) ∗ (sep8 fun k => semVal (cellD c 1 k) 0)
    ∗ (sep8 fun k => semVal (cellD c 2 k) 0) ∗ (sep8 fun k => semVal (cellD c 3 k) 0))

def Φ₀ (c : Dev nD) : sProp 𝕄 := iprop(start m c ∗ (∃ f, sWhole c f) ∗ (∃ f, cWhole c f))
def Φ₁ (c : Dev nD) : sProp 𝕄 := iprop((∃ f, sWhole c f) ∗ (∃ f, cWhole c f) ∗ sems32 c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 33 → ℕ) (c : Dev nD) : sProp 𝕄 :=
  iprop((ghost m K c ∗ creds c ∗ levAts L lv ∗ (∃ f, sWhole c f) ∗ (∃ f, cWhole c f))
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ c ∗ (dats m 0 c).owesAt () t0_0.succ ∗ stg c cc0_stg0_0 (xstg m c) ∗ stg c cc0_stg1_0 (outAt m c))

end Cert.Kernel.AR

end
-- ==== Proof.K.ARTables.lean ====
/-
  The schedule read cell by cell: which duties a cell has at round 0 (the barrier cell both, a transfer cell one,
  no cell any later), how many units each brings, what a round expects in all, and what each duty hands over.
-/
import proofs.«900151_g7700000000000152_dist_ar_v7x_xy2x2_y_m512_n512_f32_1_alg».proof.Proof.K.ARSched

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables -/

theorem duties_B (c : Dev nD) : (sched (F := F) m).duties (cellB c) 0 = Finset.univ := by
  dsimp only [sched]; exact if_pos ⟨rfl, rfl⟩
theorem duties_D (c : Dev nD) (a : Fin 4) (k : Fin 8) : (sched (F := F) m).duties (cellD c a k) 0 = {false} := by
  dsimp only [sched]
  rw [if_pos ⟨rfl, rfl⟩]
  exact if_pos (by show 2 ≤ 2 + 8 * a.val + k.val; omega)
theorem duties_later (g : GSem nD τ sig) : ∀ r, 1 ≤ r → (sched (F := F) m).duties g r = ∅ :=
  fun r hr => by dsimp only [sched]; rw [if_neg fun h => by have := h.1; omega]
theorem amount_B (c : Dev nD) (d : Bool) : (sched (F := F) m).amount (cellB c) 0 d = 1 := rfl
theorem amount_D (c : Dev nD) (a : Fin 4) (k : Fin 8) (d : Bool) : (sched (F := F) m).amount (cellD c a k) 0 d = N := rfl
theorem expect_B (c : Dev nD) : (sched (F := F) m).expect (cellB c) 0 = 2 := by
  unfold Schedule.expect Schedule.amountOf
  rw [duties_B, Finset.sum_congr rfl fun d _ => amount_B m c d, Finset.sum_const, Finset.card_univ, Fintype.card_bool, smul_eq_mul]
theorem expect_D (c : Dev nD) (a : Fin 4) (k : Fin 8) : (sched (F := F) m).expect (cellD c a k) 0 = N := by
  unfold Schedule.expect Schedule.amountOf; rw [duties_D, Finset.sum_singleton, amount_D]
theorem payload_B_false (c : Dev nD) : (sched (F := F) m).payload (cellB c) 0 false = barPayY c := by
  dsimp only [sched]; exact if_neg Bool.false_ne_true
theorem payload_B_true (c : Dev nD) : (sched (F := F) m).payload (cellB c) 0 true = barPayX c := by
  dsimp only [sched]; exact if_pos rfl

/-- Transfer semaphore `2 + 8a + k` is read back as family `a`, chunk `k`. -/
private theorem dmaPayI_dsem (c : Dev nD) (a : Fin 4) (k : Fin 8) : dmaPayI m c (dsem a k) = dmaPay m c a k := by
  have ha := a.isLt
  have hk := k.isLt
  unfold dmaPayI
  rw [dif_pos (show 2 ≤ (dsem a k).val by show 2 ≤ 2 + 8 * a.val + k.val; omega)]
  exact congrArg₂ (dmaPay m c)
    (Fin.ext (by show (2 + 8 * a.val + k.val - 2) / 8 = a.val; omega))
    (Fin.ext (by show (2 + 8 * a.val + k.val - 2) % 8 = k.val; omega))

theorem payload_D (c : Dev nD) (a : Fin 4) (k : Fin 8) (d : Bool) : (sched (F := F) m).payload (cellD c a k) 0 d = dmaPay m c a k := by
  dsimp only [sched]; exact dmaPayI_dsem m c a k
/-- The rest of the barrier cell's round, no duty taken: both neighbours' payloads. -/
theorem rest_B (c : Dev nD) :
    bigSep ((sched (F := F) m).duties (cellB c) 0 \ ∅) (fun d => (sched (F := F) m).payload (cellB c) 0 d) = iprop(barPayY c ∗ barPayX c) := by
  rw [Finset.sdiff_empty, duties_B, bigSep_univ_eq_bigSepL [false, true] (by decide) (by decide), bigSepL_cons_cons, bigSepL_singleton,
    payload_B_false, payload_B_true]
  rfl
theorem rest_D (c : Dev nD) (a : Fin 4) (k : Fin 8) :
    bigSep ((sched (F := F) m).duties (cellD c a k) 0 \ ∅) (fun d => (sched (F := F) m).payload (cellD c a k) 0 d) = dmaPay m c a k := by
  rw [Finset.sdiff_empty, duties_D, bigSep_singleton, payload_D]

private instance dmaPay_storable (c : Dev nD) (a : Fin 4) (k : Fin 8) : BI.Storable (upEmb : UEmb _ 𝕄) (dmaPay (F := F) m c a k) := by
  rcases a with ⟨_ | _ | _ | _ | a, ha⟩
  · show BI.Storable upEmb (sPts c k fullShare (sbufC m c)); unfold sPts; infer_instance
  · show BI.Storable upEmb (cPts c (lo k) fullShare (cw1 m c k)); unfold cPts; infer_instance
  · show BI.Storable upEmb (cPts c (lo k) fullShare.left (cw1 m c k)); unfold cPts; infer_instance
  · show BI.Storable upEmb (cPts c (hi k) fullShare (cw2 m c k)); unfold cPts; infer_instance
  · exact absurd ha (by omega)

instance sched_payload_storable (g : GSem nD τ sig) (r : ℕ) (d : Bool) :
    BI.Storable (upEmb : UEmb _ 𝕄) ((sched (F := F) m).payload g r d) := by
  show BI.Storable upEmb (match g.2 with
    | .reg _ => if d then barPayX g.1.1 else barPayY g.1.1
    | .dma i => dmaPayI m g.1.1 i)
  rcases g with ⟨c, s⟩
  cases s with
  | reg s =>
    dsimp only
    unfold barPayX barPayY sep8With sep8 cPts
    split <;> infer_instance
  | dma i =>
    dsimp only
    unfold dmaPayI
    split <;> infer_instance

/-! ## The levels: a wait is allowed below everything the device still owes -/

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive only at its cell. -/
private theorem tallyAt_pos {g₀ g : GSem nD τ sig} {u : Unit} {n : ℕ} (h : 0 < tallyAt g₀ () n g u) : g = g₀ := by
  rw [tallyAt_apply] at h
  by_cases hg : g = g₀ ∧ u = ()
  · exact hg.1
  · rw [if_neg hg] at h; exact absurd h (Nat.lt_irrefl 0)

/-- What is owed with `n` payments remaining is owed by one of them. -/
private theorem owedN_pos {c : Dev nD} {n : ℕ} {g : GSem nD τ sig} {u : Unit} (h : 0 < owedN c n g u) :
    ∃ j, j < n ∧ 0 < tl c j g u := by
  induction n with
  | zero => exact absurd h (Nat.lt_irrefl 0)
  | succ n ih =>
    unfold owedN at h
    rw [Pi.add_apply, Finsupp.add_apply] at h
    rcases (by omega : 0 < owedN c n g u ∨ 0 < tl c n g u) with h1 | h1
    · obtain ⟨j, hj, hp⟩ := ih h1
      exact ⟨j, Nat.lt_succ_of_lt hj, hp⟩
    · exact ⟨n, Nat.lt_succ_self n, h1⟩

/-- Payment `j` (from the last) goes to: a phase-two arrival cell of the x-neighbour (`j < 8`), a phase-one arrival
    cell of the y-neighbour (`8 ≤ j < 16`), a neighbour's barrier cell (`j` = 16, 17). -/
private theorem tl_pos {c : Dev nD} {j : ℕ} {g : GSem nD τ sig} {u : Unit} (h : 0 < tl c j g u) :
    (j < 8 ∧ ∃ k, g = cellD (xn c) 3 k) ∨ (8 ≤ j ∧ j < 16 ∧ ∃ k, g = cellD (yn c) 1 k)
      ∨ (16 ≤ j ∧ (g = cellB (xn c) ∨ g = cellB (yn c))) := by
  unfold tl at h
  split at h
  · next h8 => exact .inl ⟨h8, _, tallyAt_pos h⟩
  · next h8 =>
    split at h
    · next h16 => exact .inr (.inl ⟨by omega, h16, _, tallyAt_pos h⟩)
    · next h16 =>
      split at h
      · next e => exact .inr (.inr ⟨by omega, .inl (tallyAt_pos h)⟩)
      · split at h
        · next e => exact .inr (.inr ⟨by omega, .inr (tallyAt_pos h)⟩)
        · exact absurd h (Nat.lt_irrefl 0)

private theorem lv_B (c : Dev nD) (u : Unit) : lv (cellB c) u = 1 := rfl
private theorem lv_D1 (c : Dev nD) (k : Fin 8) (u : Unit) : lv (cellD c 1 k) u = 2 := by
  have hk := k.isLt
  have e : (dsem 1 k).val = 10 + k.val := by show 2 + 8 * 1 + k.val = 10 + k.val; omega
  show (if 10 ≤ (dsem 1 k).val ∧ (dsem 1 k).val < 18 then 2 else if 26 ≤ (dsem 1 k).val then 3 else 0) = 2
  rw [e]; exact if_pos (by omega)
private theorem lv_D3 (c : Dev nD) (k : Fin 8) (u : Unit) : lv (cellD c 3 k) u = 3 := by
  have hk := k.isLt
  have e : (dsem 3 k).val = 26 + k.val := by show 2 + 8 * 3 + k.val = 26 + k.val; omega
  show (if 10 ≤ (dsem 3 k).val ∧ (dsem 3 k).val < 18 then 2 else if 26 ≤ (dsem 3 k).val then 3 else 0) = 3
  rw [e, if_neg (by omega)]; exact if_pos (by omega)

/-- Every cell a device owes to is a TensorCore's, so its one index is levelled. -/
private theorem owedN_mem_L {c : Dev nD} {n : ℕ} {g : GSem nD τ sig} {u : Unit} (h : 0 < owedN c n g u) : u ∈ L g := by
  obtain ⟨j, _, hp⟩ := owedN_pos h
  rcases tl_pos hp with ⟨_, k, rfl⟩ | ⟨_, _, k, rfl⟩ | ⟨_, rfl | rfl⟩ <;> exact Finset.mem_singleton_self _

/-- At its barrier wait a device owes the sixteen arrivals (levels 2 and 3), above its barrier cell (level 1). -/
theorem mayWait_B (c : Dev nD) : (levAts L lv : sProp 𝕄) ⊢ MayWait (c : Thread nD τ) (.reg barS) () (owedN c 16) :=
  MayOwe.of_cut (L := L) (lev := lv) 1
    (fun p hp => by rw [Finset.mem_singleton.mp hp, L_tc]; exact Finset.mem_singleton_self _)
    (fun g u hg => owedN_mem_L hg)
    (fun p hp => by rw [Finset.mem_singleton.mp hp]; exact Nat.le_refl 1)
    (fun g u hg => by
      obtain ⟨j, hj, hp⟩ := owedN_pos hg
      rcases tl_pos hp with ⟨_, k, rfl⟩ | ⟨_, _, k, rfl⟩ | ⟨h16, _⟩
      · rw [lv_D3]; decide
      · rw [lv_D1]; decide
      · omega)
/-- At a phase-one arrival wait it owes at most the eight phase-two arrivals (level 3), above level 2. -/
theorem mayWait_R1 (c : Dev nD) (k : Fin 8) (n : ℕ) (hn : n ≤ 8) :
    (levAts L lv : sProp 𝕄) ⊢ MayWait (c : Thread nD τ) (.dma (dsem 1 k)) () (owedN c n) :=
  MayOwe.of_cut (L := L) (lev := lv) 2
    (fun p hp => by rw [Finset.mem_singleton.mp hp, L_tc]; exact Finset.mem_singleton_self _)
    (fun g u hg => owedN_mem_L hg)
    (fun p hp => by rw [Finset.mem_singleton.mp hp]; exact (lv_D1 c k ()).le)
    (fun g u hg => by
      obtain ⟨j, hj, hp⟩ := owedN_pos hg
      rcases tl_pos hp with ⟨_, k', rfl⟩ | ⟨h8, _⟩ | ⟨h16, _⟩
      · rw [lv_D3]; decide
      · omega
      · omega)
/-- The pipeline's own waits, on its two staging semaphores (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => owedN_mem_L hg)
      (fun p hp => by
        rw [Finset.mem_singleton.mp hp]
        show (if 10 ≤ q.val ∧ q.val < 18 then 2 else if 26 ≤ q.val then 3 else 0) ≤ 0
        rw [if_neg (by omega), if_neg (by omega)])
      (fun g u hg => by
        obtain ⟨j, hj, hp⟩ := owedN_pos hg
        rcases tl_pos hp with ⟨_, k, rfl⟩ | ⟨_, _, k, rfl⟩ | ⟨_, rfl | rfl⟩
        · rw [lv_D3]; decide
        · rw [lv_D1]; decide
        · rw [lv_B]; decide
        · rw [lv_B]; decide)
  · rw [MayWait_zero]; iintro -; iempintro

end Cert.Kernel.AR

end
-- ==== Proof.K.ARGeom.lean ====
/-
  Chunks as regions of their buffers: the send buffer is its eight 32-row chunks side by side, the landing buffer its
  sixteen; a transfer that overwrites a whole chunk leaves, on that chunk, contents that do not depend on what the
  buffer held; and the sixteen stores into the result's staging buffer cover its 512 rows — rows 256 · (c / 2) + 32k
  and rows 256 − 256 · (c / 2) + 32k, k < 8 — so what it ends holding does not depend on what it held.
-/
import proofs.«900151_g7700000000000152_dist_ar_v7x_xy2x2_y_m512_n512_f32_1_alg».proof.Proof.K.ARData
import Idealize.ShloMosaic.Lib.Pipeline.Value

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A full write through a view, on the view's own elements -/

omit [FloatOps F] in
/-- On the elements a view covers, a write of all of them does not show what was there before. -/
theorem write_base_congr {κ : Kind} {sp : Space} {s : Shape} {e : EltTy} (v : View sig κ sp s e)
    (f g : BufTy.Contents (Elt F) v.ty) (w : s.Idx → Elt F e) :
    ∀ i ∈ v.set, v.write (Elt F) f w Finset.univ i = v.write (Elt F) g w Finset.univ i := fun i hi =>
  View.write_congr (fun _ _ _ => rfl) fun h => absurd hi h

/-! ## What the two transfers land, as the arrival cells' payloads state it -/

/-- Phase one: chunk `k` of `c`'s send buffer written over arrival chunk `k` of its y-neighbour. -/
theorem land1 (c : Dev nD) (k : Fin 8) (fd : (cc0_scratch1 : Ref sig .tc).ty.Contents (Elt F)) :
    ((cSl (lo k)).view.loc (yn c : Thread nD τ) ↦[(cSl (lo k)).view.set]{fullShare}
        ((cSl (lo k)).view.write (Elt F) fd ((sSl k).view.read (Elt F) (sbufC m c)) Finset.univ) : sProp 𝕄)
      ⊢ cPts (yn c) (lo k) fullShare (cw1 m (yn c) k) := by
  unfold cPts cw1
  rw [yn_yn]
  exact Entails.of_eq (pointsTo_congr (write_base_congr (F := F) (cSl (lo k)).view fd cBase _))

/-- Phase two: arrival chunk `k` of `c` written over arrival chunk `8 + k` of its x-neighbour. -/
theorem land2 (c : Dev nD) (k : Fin 8) (fd : (cc0_scratch1 : Ref sig .tc).ty.Contents (Elt F)) :
    ((cSl (hi k)).view.loc (xn c : Thread nD τ) ↦[(cSl (hi k)).view.set]{fullShare}
        ((cSl (hi k)).view.write (Elt F) fd ((cSl (lo k)).view.read (Elt F) (cw1 m c k)) Finset.univ) : sProp 𝕄)
      ⊢ cPts (xn c) (hi k) fullShare (cw2 m (xn c) k) := by
  unfold cPts cw2
  rw [xn_xn]
  exact Entails.of_eq (pointsTo_congr (write_base_congr (F := F) (cSl (hi k)).view fd cBase _))

/-! ## A buffer is its chunks -/

namespace Geom

omit [FloatOps F] in
/-- Eight things side by side are the iterated conjunction over the eight indices. -/
theorem sep8_eq (Φ : Fin 8 → sProp 𝕄) : sep8 Φ = bigSep Finset.univ Φ := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- A chunk's elements are its rectangle's. -/
theorem sSet_eq (k : Fin 8) : (sSl k).view.set = (sRect k).set := View.set_slice_whole _ _
theorem cSet_eq (j : Fin 16) : (cSl j).view.set = (cRect j).set := View.set_slice_whole _ _

/-- Chunk `k` of the send buffer is its rows 32k … 32k + 31. -/
theorem mem_sSet (k : Fin 8) (i : S256x512.Idx) :
    i ∈ (sSl k).view.set ↔ 32 * k.val ≤ (i 0).val ∧ (i 0).val < 32 * k.val + 32 := by
  rw [sSet_eq, Rect.mem_set_unit]
  have h1 : (i 1).val < 512 := (i 1).isLt
  constructor
  · intro H; exact H 0
  · intro H a; fin_cases a
    · exact H
    · show 0 ≤ (i 1).val ∧ (i 1).val < 0 + 512; omega

/-- Chunk `j` of the landing buffer is its rows 32j … 32j + 31. -/
theorem mem_cSet (j : Fin 16) (i : S512x512.Idx) :
    i ∈ (cSl j).view.set ↔ 32 * j.val ≤ (i 0).val ∧ (i 0).val < 32 * j.val + 32 := by
  rw [cSet_eq, Rect.mem_set_unit]
  have h1 : (i 1).val < 512 := (i 1).isLt
  constructor
  · intro H; exact H 0
  · intro H a; fin_cases a
    · exact H
    · show 0 ≤ (i 1).val ∧ (i 1).val < 0 + 512; omega

theorem sSet_disj {k k' : Fin 8} (h : k ≠ k') : Disjoint (sSl k).view.set (sSl k').view.set := by
  rw [Finset.disjoint_left]; intro i hi hi'
  rw [mem_sSet] at hi hi'
  exact h (Fin.ext (by omega))

theorem cSet_disj {j j' : Fin 16} (h : j ≠ j') : Disjoint (cSl j).view.set (cSl j').view.set := by
  rw [Finset.disjoint_left]; intro i hi hi'
  rw [mem_cSet] at hi hi'
  exact h (Fin.ext (by omega))

/-- Every row of the send buffer lies in one of its eight chunks. -/
abbrev sAll : Finset S256x512.Idx := (Finset.univ : Finset (Fin 8)).biUnion fun k => (sSl k).view.set

theorem sSet_cover : sAll = Finset.univ := by
  ext i
  simp only [Finset.mem_biUnion, Finset.mem_univ, true_and, iff_true]
  have hi : (i 0).val < 256 := (i 0).isLt
  refine ⟨⟨(i 0).val / 32, by omega⟩, (mem_sSet _ i).mpr ?_⟩
  show 32 * ((i 0).val / 32) ≤ (i 0).val ∧ (i 0).val < 32 * ((i 0).val / 32) + 32
  omega

/-- The rows below 256 of the landing buffer: its chunks 0–7; the rows from 256: its chunks 8–15. -/
abbrev cLo : Finset S512x512.Idx := (Finset.univ : Finset (Fin 8)).biUnion fun k => (cSl (lo k)).view.set
abbrev cHi : Finset S512x512.Idx := (Finset.univ : Finset (Fin 8)).biUnion fun k => (cSl (hi k)).view.set

theorem lo_inj {k k' : Fin 8} (h : k ≠ k') : lo k ≠ lo k' := fun e => h (Fin.ext (by have := congrArg Fin.val e; exact this))
theorem hi_inj {k k' : Fin 8} (h : k ≠ k') : hi k ≠ hi k' := fun e => h (Fin.ext (by have := congrArg Fin.val e; simp only [hi] at this; omega))
theorem lo_ne_hi (k k' : Fin 8) : lo k ≠ hi k' := fun e => by
  have := congrArg Fin.val e; simp only [lo, hi] at this; have := k.isLt; omega

theorem cLo_disj_cHi : Disjoint cLo cHi :=
  (Finset.disjoint_biUnion_left _ _ _).mpr fun k _ => (Finset.disjoint_biUnion_right _ _ _).mpr fun k' _ => cSet_disj (lo_ne_hi k k')

theorem cLo_union_cHi : cLo ∪ cHi = Finset.univ := by
  ext i
  simp only [Finset.mem_union, Finset.mem_biUnion, Finset.mem_univ, true_and, iff_true]
  have hi : (i 0).val < 512 := (i 0).isLt
  by_cases h : (i 0).val < 256
  · refine .inl ⟨⟨(i 0).val / 32, by omega⟩, (mem_cSet _ i).mpr ?_⟩
    show 32 * ((i 0).val / 32) ≤ (i 0).val ∧ (i 0).val < 32 * ((i 0).val / 32) + 32
    omega
  · refine .inr ⟨⟨((i 0).val - 256) / 32, by omega⟩, (mem_cSet _ i).mpr ?_⟩
    show 32 * (8 + ((i 0).val - 256) / 32) ≤ (i 0).val ∧ (i 0).val < 32 * (8 + ((i 0).val - 256) / 32) + 32
    omega

end Geom

open Geom

omit [FloatOps F] in
theorem s_split (c : Dev nD) (f : (cc0_scratch0 : Ref sig .tc).ty.Contents (Elt F)) :
    (sWhole c f : sProp 𝕄) ⊣⊢ sep8 fun k => sPts c k fullShare f := by
  unfold sWhole sPts
  rw [sep8_eq]
  have h := pointsTo_biUnion (nD := nD) (τ := τ) (sig := sig) (Ix := Unit) (Val := Elt F) (Name := ℕ) (U := UU) (Lvl := ℕ)
    (ℓ := (c : Thread nD τ).loc cc0_scratch0) (q := fullShare) (f := f) Finset.univ (fun k : Fin 8 => (sSl k).view.set)
    fun k _ k' _ hk => sSet_disj hk
  have hc : (Finset.univ.biUnion (fun k : Fin 8 => (sSl k).view.set) : Finset (Idx ((c : Thread nD τ).loc cc0_scratch0)))
      = Finset.univ := sSet_cover
  rw [hc] at h
  exact BiEntails.of_eq h

omit [FloatOps F] in
theorem c_split (c : Dev nD) (f : (cc0_scratch1 : Ref sig .tc).ty.Contents (Elt F)) :
    (cWhole c f : sProp 𝕄) ⊣⊢ iprop((sep8 fun k => cPts c (lo k) fullShare f) ∗ sep8 fun k => cPts c (hi k) fullShare f) := by
  unfold cWhole cPts
  rw [sep8_eq, sep8_eq]
  have hL := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ (fun k : Fin 8 => (cSl (lo k)).view.set)
    fun k _ k' _ hk => cSet_disj (lo_inj hk)
  have hH := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ (fun k : Fin 8 => (cSl (hi k)).view.set)
    fun k _ k' _ hk => cSet_disj (hi_inj hk)
  have hU := pointsTo_union (nD := nD) (τ := τ) (sig := sig) (Ix := Unit) (Val := Elt F) (Name := ℕ) (U := UU) (Lvl := ℕ)
    (ℓ := (c : Thread nD τ).loc cc0_scratch1) (q := fullShare) (f := f) (I := cLo) (J := cHi) cLo_disj_cHi
  have hc : (cLo ∪ cHi : Finset (Idx ((c : Thread nD τ).loc cc0_scratch1))) = Finset.univ := cLo_union_cHi
  rw [hc, hL, hH] at hU
  exact hU

omit [FloatOps F] in
/-- The sixteen chunks, each at contents of its own, are the whole buffer at some contents. -/
theorem c_join (c : Dev nD) (f g : Fin 8 → (cc0_scratch1 : Ref sig .tc).ty.Contents (Elt F)) :
    iprop((sep8 fun k => cPts c (lo k) fullShare (f k)) ∗ sep8 fun k => cPts c (hi k) fullShare (g k))
      ⊢ (∃ h, cWhole c h : sProp 𝕄) := by
  unfold cWhole cPts
  rw [sep8_eq, sep8_eq]
  show iprop(bigSep Finset.univ (fun k : Fin 8 => ((c : Thread nD τ).loc cc0_scratch1) ↦[(cSl (lo k)).view.set]{fullShare} f k)
      ∗ bigSep Finset.univ (fun k : Fin 8 => ((c : Thread nD τ).loc cc0_scratch1) ↦[(cSl (hi k)).view.set]{fullShare} g k))
    ⊢ (∃ h, ((c : Thread nD τ).loc cc0_scratch1) ↦{fullShare} h : sProp 𝕄)
  iintro ⟨HL, HH⟩
  ihave HL := (pointsTo_biUnion_join (nD := nD) (τ := τ) (sig := sig) (Ix := Unit) (Val := Elt F) (Name := ℕ) (U := UU) (Lvl := ℕ)
    (ℓ := (c : Thread nD τ).loc cc0_scratch1) (q := fullShare) Finset.univ (fun k : Fin 8 => (cSl (lo k)).view.set) f (f 0)
    fun k _ k' _ hk => cSet_disj (lo_inj hk)) $$ HL
  icases HL with ⟨%gl, %hgl, HL⟩
  ihave HH := (pointsTo_biUnion_join (nD := nD) (τ := τ) (sig := sig) (Ix := Unit) (Val := Elt F) (Name := ℕ) (U := UU) (Lvl := ℕ)
    (ℓ := (c : Thread nD τ).loc cc0_scratch1) (q := fullShare) Finset.univ (fun k : Fin 8 => (cSl (hi k)).view.set) g (g 0)
    fun k _ k' _ hk => cSet_disj (hi_inj hk)) $$ HH
  icases HH with ⟨%gh, %hgh, HH⟩
  iexists cHi.piecewise gh gl
  have hc : (Finset.univ : Finset (Idx ((c : Thread nD τ).loc cc0_scratch1))) = cLo ∪ cHi := cLo_union_cHi.symm
  rw [hc]
  iapply (pointsTo_join (nD := nD) (τ := τ) (sig := sig) (Ix := Unit) (Val := Elt F) (Name := ℕ) (U := UU) (Lvl := ℕ)
    (ℓ := (c : Thread nD τ).loc cc0_scratch1) (q := fullShare) (I := cLo) (J := cHi) cLo_disj_cHi)
  isplitl [HL]
  · iexact HL
  · iexact HH

omit [FloatOps F] in
/-- A chunk held whole is its two half shares. -/
theorem c_halves (c : Dev nD) (j : Fin 16) (f : (cc0_scratch1 : Ref sig .tc).ty.Contents (Elt F)) :
    (cPts c j fullShare f : sProp 𝕄) ⊣⊢ iprop(cPts c j fullShare.left f ∗ cPts c j fullShare.right f) := by
  unfold cPts
  exact pointsTo_share (PosShare.mem_left_op_right fullShare)

/-! ## The sixteen stores cover the result's staging buffer -/

namespace Geom

omit [FloatOps F] in
/-- A full write through a view extends agreement of two contents to the view's own elements. -/
theorem write_agree {κ : Kind} {sp : Space} {s : Shape} {e : EltTy} (v : View sig κ sp s e) (w : s.Idx → Elt F e)
    {A : Finset v.ty.Idx} {f g : BufTy.Contents (Elt F) v.ty} (h : ∀ i ∈ A, f i = g i) :
    ∀ i ∈ A ∪ v.set, v.write (Elt F) f w Finset.univ i = v.write (Elt F) g w Finset.univ i := fun i hi =>
  View.write_congr (fun _ _ _ => rfl) fun hn => h i ((Finset.mem_union.mp hi).resolve_right hn)

/-- The elements store `k` of the first eight goes through, and store `k` of the last eight. -/
abbrev o2 (c : Dev nD) (k : Fin 8) : Finset S512x512.Idx :=
  ((oM : Memref sig .tc .vmem S512x512 .f32).access (rO2 c k) : View sig .tc _ _ _).set
abbrev o3 (c : Dev nD) (k : Fin 8) : Finset S512x512.Idx :=
  ((oM : Memref sig .tc .vmem S512x512 .f32).access (rO3 c k) : View sig .tc _ _ _).set

/-- Store `k` of the first eight goes through rows 256 · (c / 2) + 32k …; -/
theorem mem_o2 (c : Dev nD) (k : Fin 8) (i : S512x512.Idx) :
    i ∈ o2 c k ↔ 256 * (c.val / 2) + 32 * k.val ≤ (i 0).val ∧ (i 0).val < 256 * (c.val / 2) + 32 * k.val + 32 := by
  have hs : o2 c k = (rO2 c k).set := View.set_slice_whole _ _
  rw [hs, Rect.mem_set_unit, k0_off2_eq]
  have h1 : (i 1).val < 512 := (i 1).isLt
  constructor
  · intro H; exact H 0
  · intro H a; fin_cases a
    · exact H
    · show 0 ≤ (i 1).val ∧ (i 1).val < 0 + 512; omega

/-- store `k` of the last eight through rows 256 − 256 · (c / 2) + 32k …. -/
theorem mem_o3 (c : Dev nD) (k : Fin 8) (i : S512x512.Idx) :
    i ∈ o3 c k ↔ (32 * k.val + 256) - 256 * (c.val / 2) ≤ (i 0).val ∧ (i 0).val < (32 * k.val + 256) - 256 * (c.val / 2) + 32 := by
  have hs : o3 c k = (rO3 c k).set := View.set_slice_whole _ _
  rw [hs, Rect.mem_set_unit, k0_off3_eq]
  have h1 : (i 1).val < 512 := (i 1).isLt
  constructor
  · intro H; exact H 0
  · intro H a; fin_cases a
    · exact H
    · show 0 ≤ (i 1).val ∧ (i 1).val < 0 + 512; omega

/-- Every row lies under one of the sixteen stores, whichever half the device sent from. -/
theorem out_cover (c : Dev nD) (i : S512x512.Idx) :
    i ∈ (∅ : Finset S512x512.Idx) ∪ o2 c 0 ∪ o2 c 1 ∪ o2 c 2 ∪ o2 c 3 ∪ o2 c 4 ∪ o2 c 5 ∪ o2 c 6 ∪ o2 c 7
      ∪ o3 c 0 ∪ o3 c 1 ∪ o3 c 2 ∪ o3 c 3 ∪ o3 c 4 ∪ o3 c 5 ∪ o3 c 6 ∪ o3 c 7 := by
  have hr : (i 0).val < 512 := (i 0).isLt
  have hc : c.val / 2 = 0 ∨ c.val / 2 = 1 := by have h4 : c.val < 4 := c.isLt; omega
  have e0 : (0 : Fin 8).val = 0 := rfl
  have e1 : (1 : Fin 8).val = 1 := rfl
  have e2 : (2 : Fin 8).val = 2 := rfl
  have e3 : (3 : Fin 8).val = 3 := rfl
  have e4 : (4 : Fin 8).val = 4 := rfl
  have e5 : (5 : Fin 8).val = 5 := rfl
  have e6 : (6 : Fin 8).val = 6 := rfl
  have e7 : (7 : Fin 8).val = 7 := rfl
  simp only [Finset.mem_union, Finset.notMem_empty, _root_.false_or, mem_o2, mem_o3, e0, e1, e2, e3, e4, e5, e6, e7]
  rcases hc with h | h <;> simp only [h] <;> omega

/-- The rows under the sixteen stores, in program order. -/
abbrev oAll (c : Dev nD) : Finset S512x512.Idx :=
  (∅ : Finset S512x512.Idx) ∪ o2 c 0 ∪ o2 c 1 ∪ o2 c 2 ∪ o2 c 3 ∪ o2 c 4 ∪ o2 c 5 ∪ o2 c 6 ∪ o2 c 7
    ∪ o3 c 0 ∪ o3 c 1 ∪ o3 c 2 ∪ o3 c 3 ∪ o3 c 4 ∪ o3 c 5 ∪ o3 c 6 ∪ o3 c 7

omit [FloatOps F] in
/-- One store into the result's staging buffer extends agreement of two contents to the rows it goes through. -/
theorem store_agree (r : Rect S512x512) (w : r.shape.Idx → Elt F .f32) {A : Finset S512x512.Idx}
    {f g : (cc0_stg1_0 : Ref sig .tc).ty.Contents (Elt F)} (h : ∀ i ∈ A, f i = g i) :
    ∀ i ∈ A ∪ ((oM : Memref sig .tc .vmem S512x512 .f32).access r : View sig .tc _ _ _).set,
      ((oM : Memref sig .tc .vmem S512x512 .f32).access r : View sig .tc _ _ _).write (Elt F) f w Finset.univ i
        = ((oM : Memref sig .tc .vmem S512x512 .f32).access r : View sig .tc _ _ _).write (Elt F) g w Finset.univ i :=
  write_agree ((oM : Memref sig .tc .vmem S512x512 .f32).access r : View sig .tc _ _ _) w h

end Geom

theorem outW_base (c : Dev nD) (d : (cc0_stg1_0 : Ref sig .tc).ty.Contents (Elt F)) : outW m c d = outAt m c := by
  unfold outAt
  have key : ∀ i ∈ oAll c, outW m c d i = outW m c oBase i := by
    unfold outW
    dsimp only
    iterate 16 refine store_agree _ _ ?_
    exact fun j hj => absurd hj (Finset.notMem_empty j)
  exact funext fun i => key i (out_cover c i)

end Cert.Kernel.AR

end
-- ==== Proof.K.ARRules.lean ====
/-
  The two transfers as rules of their own, at a symbolic chunk: phase one sends chunk `k` of the send buffer into the
  y-neighbour's arrival chunk `k`; phase two forwards arrival chunk `k`, lent at half share, into the x-neighbour's arrival
  chunk `8 + k`. Each pays the arrival duty on the neighbour's cell and the departure duty on the device's own.
-/
import proofs.«900151_g7700000000000152_dist_ar_v7x_xy2x2_y_m512_n512_f32_1_alg».proof.Proof.K.ARData
import proofs.«900151_g7700000000000152_dist_ar_v7x_xy2x2_y_m512_n512_f32_1_alg».proof.Proof.K.ARTables
import proofs.«900151_g7700000000000152_dist_ar_v7x_xy2x2_y_m512_n512_f32_1_alg».proof.Proof.K.ARGeom

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 33 → ℕ)

/-- Phase one, chunk `k`, the transfer addressed to `n = yn c` (substituted, not rewritten). -/
theorem wp_send1 (c n : Dev nD) (hn : n = yn c) (k : Fin 8)
    {hsc : ((cSl (lo k)) : Memref sig (Dev.tc n : Thread nD τ).2.kind .vmem S32x512 .bf16).view.ref.isScScratch = false}
    {hsrc : (sSl k : Memref sig .tc .vmem S32x512 .bf16).view.WordExact} {hdst : (cSl (lo k) : Memref sig .tc .vmem S32x512 .bf16).view.WordExact}
    {hsem : DmaTarget.Typed .vmem (.dma (dsem 1 k)) (.remote (Dev.tc n : Thread nD τ) (cSl (lo k) : Memref sig .tc .vmem S32x512 .bf16) (.dma (dsem 0 k)) hsc)}
    {α : Type} {Q : α → sProp 𝕄} {kont : PUnit → Prog (TpuEff nD τ sig (Elt F) Λ₀ .tc) α}
    (fd : (cc0_scratch1 : Ref sig .tc).ty.Contents (Elt F)) (O : CellTallies nD τ sig Unit) (W : Waits sig Unit) :
    iprop(cellInv ER (sched m) (K (c, ixD 0 k)) (cellD c 0 k) ∗ cellInv ER (sched m) (K (yn c, ixD 1 k)) (cellD (yn c) 1 k)
        ∗ sPts c k fullShare (sbufC m c) ∗ cPts (yn c) (lo k) fullShare fd
        ∗ owes (c : Thread nD τ) (O + tallyAt (cellD (yn c) 1 k) () N) W
        ∗ dutyTok ER (cellD c 0 k) 0 false ∗ reached ER (cellD c 0 k) 0
        ∗ dutyTok ER (cellD (yn c) 1 k) 0 false ∗ reached ER (cellD (yn c) 1 k) 0)
      ⊢ iprop(((cred (tallyAt (cellD c 0 k) () N) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSl k) (.remote (Dev.tc n : Thread nD τ) (cSl (lo k)) (.dma (dsem 0 k)) hsc) (.dma (dsem 1 k)) hsrc hdst hsem) kont) Q) := by
  subst hn
  unfold sPts cPts
  exact Rounds.wp_send_pointsTo 𝒱₀ ER (sched m) (c : Thread nD τ) none
    (src := sSl k) (dst := cSl (lo k)) (c' := (yn c : Thread nD τ)) (q := fullShare) (fs := sbufC m c) (fd := fd)
    (κ₁ := K (c, ixD 0 k)) (κ₂ := K (yn c, ixD 1 k)) (r₁ := 0) (r₂ := 0) (d₁ := false) (d₂ := false)
    (by rw [duties_D]; exact Finset.mem_singleton_self _) (by rw [duties_D]; exact Finset.mem_singleton_self _)
    () () N rfl (amount_D m c 0 k false) (amount_D m (yn c) 1 k false) O rfl (W := W)
    (by rw [payload_D]; exact BI.Entails.refl _)
    (by rw [payload_D]; exact land1 m c k fd)

/-- Phase two, chunk `k`, the transfer addressed to `n = xn c`; the source lent at the left half share. -/
theorem wp_send2 (c n : Dev nD) (hn : n = xn c) (k : Fin 8)
    {hsc : ((cSl (hi k)) : Memref sig (Dev.tc n : Thread nD τ).2.kind .vmem S32x512 .bf16).view.ref.isScScratch = false}
    {hsrc : (cSl (lo k) : Memref sig .tc .vmem S32x512 .bf16).view.WordExact} {hdst : (cSl (hi k) : Memref sig .tc .vmem S32x512 .bf16).view.WordExact}
    {hsem : DmaTarget.Typed .vmem (.dma (dsem 3 k)) (.remote (Dev.tc n : Thread nD τ) (cSl (hi k) : Memref sig .tc .vmem S32x512 .bf16) (.dma (dsem 2 k)) hsc)}
    {α : Type} {Q : α → sProp 𝕄} {kont : PUnit → Prog (TpuEff nD τ sig (Elt F) Λ₀ .tc) α}
    (fd : (cc0_scratch1 : Ref sig .tc).ty.Contents (Elt F)) (O : CellTallies nD τ sig Unit) (W : Waits sig Unit) :
    iprop(cellInv ER (sched m) (K (c, ixD 2 k)) (cellD c 2 k) ∗ cellInv ER (sched m) (K (xn c, ixD 3 k)) (cellD (xn c) 3 k)
        ∗ cPts c (lo k) fullShare.left (cw1 m c k) ∗ cPts (xn c) (hi k) fullShare fd
        ∗ owes (c : Thread nD τ) (O + tallyAt (cellD (xn c) 3 k) () N) W
        ∗ dutyTok ER (cellD c 2 k) 0 false ∗ reached ER (cellD c 2 k) 0
        ∗ dutyTok ER (cellD (xn c) 3 k) 0 false ∗ reached ER (cellD (xn c) 3 k) 0)
      ⊢ iprop(((cred (tallyAt (cellD c 2 k) () N) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (cSl (lo k)) (.remote (Dev.tc n : Thread nD τ) (cSl (hi k)) (.dma (dsem 2 k)) hsc) (.dma (dsem 3 k)) hsrc hdst hsem) kont) Q) := by
  subst hn
  unfold cPts
  exact Rounds.wp_send_pointsTo 𝒱₀ ER (sched m) (c : Thread nD τ) none
    (src := cSl (lo k)) (dst := cSl (hi k)) (c' := (xn c : Thread nD τ)) (q := fullShare.left) (fs := cw1 m c k) (fd := fd)
    (κ₁ := K (c, ixD 2 k)) (κ₂ := K (xn c, ixD 3 k)) (r₁ := 0) (r₂ := 0) (d₁ := false) (d₂ := false)
    (by rw [duties_D]; exact Finset.mem_singleton_self _) (by rw [duties_D]; exact Finset.mem_singleton_self _)
    () () N rfl (amount_D m c 2 k false) (amount_D m (xn c) 3 k false) O rfl (W := W)
    (by rw [payload_D]; exact BI.Entails.refl _)
    (by rw [payload_D]; exact land2 m c k fd)

end Cert.Kernel.AR

end
-- ==== Proof.K.ARLoad.lean ====
/-
  A load of one 32-row chunk through the whole landing buffer touches only that chunk's elements.
-/
import proofs.«900151_g7700000000000152_dist_ar_v7x_xy2x2_y_m512_n512_f32_1_alg».proof.Proof.K.ARData
import proofs.«900151_g7700000000000152_dist_ar_v7x_xy2x2_y_m512_n512_f32_1_alg».proof.Proof.K.ARGeom

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The box of rows 32j … 32j + 31, seen through the whole landing buffer, lies inside chunk `j`. -/
theorem load_sub (c : Dev nD) (j : Fin 16) :
    (cM : Memref sig .tc .vmem S512x512 .bf16).view.setOn ((cRect j).toLoadRect).set ⊆ (cSl j : Memref sig .tc .vmem S32x512 .bf16).view.set := by
  -- the whole buffer's view places an index at itself, so the elements under the box are the box's own;
  -- and chunk `j`'s elements are that same rectangle's
  rw [Geom.cSet_eq]
  have h : (cM : Memref sig .tc .vmem S512x512 .bf16).view.setOn ((cRect j).toLoadRect).set = ((cRect j).toLoadRect).set :=
    Finset.map_refl
  intro i hi
  rw [h] at hi
  exact hi

end Cert.Kernel.AR

end
-- ==== Proof.K.ARBody.lean ====
/-
  One device's body, stepped from what the device starts with to what it leaves.

  In program order: the half of the input block the device is in charge of is rounded into the send buffer; the landing
  buffer is cut into its sixteen chunks and handed to the two neighbours with the two barrier signals; the barrier wait
  brings the neighbours' chunks; the eight chunks of the send buffer go to the y-neighbour; as each chunk from the
  y-neighbour arrives it is forwarded to the x-neighbour at half share and, from the half kept, added to the device's own
  rows; as each forwarded chunk arrives it is added to the rows of the other half; the departures are waited for, the
  thirty-two transfer cells close, and the two scratch buffers are whole again.
-/
import proofs.«900151_g7700000000000152_dist_ar_v7x_xy2x2_y_m512_n512_f32_1_alg».proof.Proof.K.ARData
import proofs.«900151_g7700000000000152_dist_ar_v7x_xy2x2_y_m512_n512_f32_1_alg».proof.Proof.K.ARTables
import proofs.«900151_g7700000000000152_dist_ar_v7x_xy2x2_y_m512_n512_f32_1_alg».proof.Proof.K.ARGeom
import proofs.«900151_g7700000000000152_dist_ar_v7x_xy2x2_y_m512_n512_f32_1_alg».proof.Proof.K.ARRules
import proofs.«900151_g7700000000000152_dist_ar_v7x_xy2x2_y_m512_n512_f32_1_alg».proof.Proof.K.ARLoad

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Tactic

variable (K : Dev nD × Fin 33 → ℕ)

theorem devY_eq (c : Dev nD) : (⟨k0_dev1 c, k0_dev1_lt c⟩ : Dev nD) = yn c := Fin.ext (k0_dev1_eq c)
theorem devX_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = xn c := Fin.ext (k0_dev14_eq c)
theorem dev15_eq (c : Dev nD) : (⟨k0_dev15 c, k0_dev15_lt c⟩ : Dev nD) = xn c := Fin.ext (k0_dev15_eq c)
theorem dev16_eq (c : Dev nD) : (⟨k0_dev16 c, k0_dev16_lt c⟩ : Dev nD) = xn c := Fin.ext (k0_dev16_eq c)
theorem dev17_eq (c : Dev nD) : (⟨k0_dev17 c, k0_dev17_lt c⟩ : Dev nD) = xn c := Fin.ext (k0_dev17_eq c)
theorem dev18_eq (c : Dev nD) : (⟨k0_dev18 c, k0_dev18_lt c⟩ : Dev nD) = xn c := Fin.ext (k0_dev18_eq c)

/-- What the device owes at launch, summand by summand, last paid first. -/
theorem O₀_eq (c : Dev nD) : O₀ c = 0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N + tallyAt (cellD (yn c) 1 7) () N + tallyAt (cellD (yn c) 1 6) () N + tallyAt (cellD (yn c) 1 5) () N + tallyAt (cellD (yn c) 1 4) () N + tallyAt (cellD (yn c) 1 3) () N + tallyAt (cellD (yn c) 1 2) () N + tallyAt (cellD (yn c) 1 1) () N + tallyAt (cellD (yn c) 1 0) () N
    + tallyAt (cellB (xn c)) () 1 + tallyAt (cellB (yn c)) () 1 := rfl

omit [FloatOps F] in
/-- A whole buffer's points-to, spelt through the whole memref's view. -/
theorem whole_eq (c : Dev nD) (b : Ref sig .tc) (f : b.ty.Contents (Elt F)) :
    ((Memref.whole b : Memref sig .tc _ _ _).view.loc (c : Thread nD τ) ↦[(Memref.whole b : Memref sig .tc _ _ _).view.set]{fullShare} f : sProp 𝕄)
      = (((c : Thread nD τ).loc b) ↦{fullShare} f) := by
  rw [View.set_whole]

/-! ## The schedule's payloads as the stepping reads them -/

/-- The y-unit on the y-neighbour's barrier cell, at the device itself (`yn (yn c) = c`): its own arrival chunks 0–7 and the
    word that its phase-one arrival cells are open. -/
theorem payY_peer (c : Dev nD) : (sched (F := F) m).payload (cellB (yn c)) 0 false = iprop(
    (∃ f, (cSl (lo 0)).view.loc (c : Thread nD τ) ↦[(cSl (lo 0)).view.set]{fullShare} f) ∗ (∃ f, (cSl (lo 1)).view.loc (c : Thread nD τ) ↦[(cSl (lo 1)).view.set]{fullShare} f) ∗ (∃ f, (cSl (lo 2)).view.loc (c : Thread nD τ) ↦[(cSl (lo 2)).view.set]{fullShare} f) ∗ (∃ f, (cSl (lo 3)).view.loc (c : Thread nD τ) ↦[(cSl (lo 3)).view.set]{fullShare} f) ∗ (∃ f, (cSl (lo 4)).view.loc (c : Thread nD τ) ↦[(cSl (lo 4)).view.set]{fullShare} f) ∗ (∃ f, (cSl (lo 5)).view.loc (c : Thread nD τ) ↦[(cSl (lo 5)).view.set]{fullShare} f) ∗ (∃ f, (cSl (lo 6)).view.loc (c : Thread nD τ) ↦[(cSl (lo 6)).view.set]{fullShare} f) ∗ (∃ f, (cSl (lo 7)).view.loc (c : Thread nD τ) ↦[(cSl (lo 7)).view.set]{fullShare} f) ∗ reached ER (cellD c 1 0) 0 ∗ reached ER (cellD c 1 1) 0 ∗ reached ER (cellD c 1 2) 0 ∗ reached ER (cellD c 1 3) 0 ∗ reached ER (cellD c 1 4) 0 ∗ reached ER (cellD c 1 5) 0 ∗ reached ER (cellD c 1 6) 0 ∗ reached ER (cellD c 1 7) 0) := by
  rw [payload_B_false]; unfold barPayY sep8With sep8 cPts; rw [yn_yn]
/-- The x-unit on the x-neighbour's barrier cell: its own arrival chunks 8–15 and the word for its phase-two arrival cells. -/
theorem payX_peer (c : Dev nD) : (sched (F := F) m).payload (cellB (xn c)) 0 true = iprop(
    (∃ f, (cSl (hi 0)).view.loc (c : Thread nD τ) ↦[(cSl (hi 0)).view.set]{fullShare} f) ∗ (∃ f, (cSl (hi 1)).view.loc (c : Thread nD τ) ↦[(cSl (hi 1)).view.set]{fullShare} f) ∗ (∃ f, (cSl (hi 2)).view.loc (c : Thread nD τ) ↦[(cSl (hi 2)).view.set]{fullShare} f) ∗ (∃ f, (cSl (hi 3)).view.loc (c : Thread nD τ) ↦[(cSl (hi 3)).view.set]{fullShare} f) ∗ (∃ f, (cSl (hi 4)).view.loc (c : Thread nD τ) ↦[(cSl (hi 4)).view.set]{fullShare} f) ∗ (∃ f, (cSl (hi 5)).view.loc (c : Thread nD τ) ↦[(cSl (hi 5)).view.set]{fullShare} f) ∗ (∃ f, (cSl (hi 6)).view.loc (c : Thread nD τ) ↦[(cSl (hi 6)).view.set]{fullShare} f) ∗ (∃ f, (cSl (hi 7)).view.loc (c : Thread nD τ) ↦[(cSl (hi 7)).view.set]{fullShare} f) ∗ reached ER (cellD c 3 0) 0 ∗ reached ER (cellD c 3 1) 0 ∗ reached ER (cellD c 3 2) 0 ∗ reached ER (cellD c 3 3) 0 ∗ reached ER (cellD c 3 4) 0 ∗ reached ER (cellD c 3 5) 0 ∗ reached ER (cellD c 3 6) 0 ∗ reached ER (cellD c 3 7) 0) := by
  rw [payload_B_true]; unfold barPayX sep8With sep8 cPts; rw [xn_xn]
/-- What the two units on the device's own barrier cell hand it. -/
theorem payY_own (c : Dev nD) : (sched (F := F) m).payload (cellB c) 0 false = iprop(
    (∃ f, cPts (yn c) (lo 0) fullShare f) ∗ (∃ f, cPts (yn c) (lo 1) fullShare f) ∗ (∃ f, cPts (yn c) (lo 2) fullShare f) ∗ (∃ f, cPts (yn c) (lo 3) fullShare f) ∗ (∃ f, cPts (yn c) (lo 4) fullShare f) ∗ (∃ f, cPts (yn c) (lo 5) fullShare f) ∗ (∃ f, cPts (yn c) (lo 6) fullShare f) ∗ (∃ f, cPts (yn c) (lo 7) fullShare f) ∗ reached ER (cellD (yn c) 1 0) 0 ∗ reached ER (cellD (yn c) 1 1) 0 ∗ reached ER (cellD (yn c) 1 2) 0 ∗ reached ER (cellD (yn c) 1 3) 0 ∗ reached ER (cellD (yn c) 1 4) 0 ∗ reached ER (cellD (yn c) 1 5) 0 ∗ reached ER (cellD (yn c) 1 6) 0 ∗ reached ER (cellD (yn c) 1 7) 0) := by
  rw [payload_B_false]; rfl
theorem payX_own (c : Dev nD) : (sched (F := F) m).payload (cellB c) 0 true = iprop(
    (∃ f, cPts (xn c) (hi 0) fullShare f) ∗ (∃ f, cPts (xn c) (hi 1) fullShare f) ∗ (∃ f, cPts (xn c) (hi 2) fullShare f) ∗ (∃ f, cPts (xn c) (hi 3) fullShare f) ∗ (∃ f, cPts (xn c) (hi 4) fullShare f) ∗ (∃ f, cPts (xn c) (hi 5) fullShare f) ∗ (∃ f, cPts (xn c) (hi 6) fullShare f) ∗ (∃ f, cPts (xn c) (hi 7) fullShare f) ∗ reached ER (cellD (xn c) 3 0) 0 ∗ reached ER (cellD (xn c) 3 1) 0 ∗ reached ER (cellD (xn c) 3 2) 0 ∗ reached ER (cellD (xn c) 3 3) 0 ∗ reached ER (cellD (xn c) 3 4) 0 ∗ reached ER (cellD (xn c) 3 5) 0 ∗ reached ER (cellD (xn c) 3 6) 0 ∗ reached ER (cellD (xn c) 3 7) 0) := by
  rw [payload_B_true]; rfl
/-- The transfer cells' payloads, family by family. -/
theorem payD0 (c : Dev nD) (k : Fin 8) (d : Bool) : (sched (F := F) m).payload (cellD c 0 k) 0 d = sPts c k fullShare (sbufC m c) := by rw [payload_D]; rfl
theorem payD1 (c : Dev nD) (k : Fin 8) (d : Bool) : (sched (F := F) m).payload (cellD c 1 k) 0 d = cPts c (lo k) fullShare (cw1 m c k) := by rw [payload_D]; rfl
theorem payD2 (c : Dev nD) (k : Fin 8) (d : Bool) : (sched (F := F) m).payload (cellD c 2 k) 0 d = cPts c (lo k) fullShare.left (cw1 m c k) := by rw [payload_D]; rfl
theorem payD3 (c : Dev nD) (k : Fin 8) (d : Bool) : (sched (F := F) m).payload (cellD c 3 k) 0 d = cPts c (hi k) fullShare (cw2 m c k) := by rw [payload_D]; rfl

attribute [local sl_rounds] duties_B duties_D amount_B amount_D expect_B expect_D payY_own payX_own payD0 payD1 payD2 payD3
attribute [local sl_rounds high] payY_peer payX_peer
attribute [local sl_canon] devY_eq devX_eq dev3_eq dev4_eq dev5_eq dev6_eq dev7_eq dev8_eq dev9_eq dev10_eq dev11_eq dev12_eq dev13_eq dev14_eq dev15_eq dev16_eq dev17_eq dev18_eq

/-- The barrier cell's round, duty by duty: what the y-neighbour's unit and the x-neighbour's unit hand over. -/
theorem bar_round (c : Dev nD) : (bigSep Finset.univ (fun d : Bool => (sched (F := F) m).payload (cellB c) 0 d)) = iprop(
    ((∃ f, cPts (yn c) (lo 0) fullShare f) ∗ (∃ f, cPts (yn c) (lo 1) fullShare f) ∗ (∃ f, cPts (yn c) (lo 2) fullShare f) ∗ (∃ f, cPts (yn c) (lo 3) fullShare f) ∗ (∃ f, cPts (yn c) (lo 4) fullShare f) ∗ (∃ f, cPts (yn c) (lo 5) fullShare f) ∗ (∃ f, cPts (yn c) (lo 6) fullShare f) ∗ (∃ f, cPts (yn c) (lo 7) fullShare f) ∗ reached ER (cellD (yn c) 1 0) 0 ∗ reached ER (cellD (yn c) 1 1) 0 ∗ reached ER (cellD (yn c) 1 2) 0 ∗ reached ER (cellD (yn c) 1 3) 0 ∗ reached ER (cellD (yn c) 1 4) 0 ∗ reached ER (cellD (yn c) 1 5) 0 ∗ reached ER (cellD (yn c) 1 6) 0 ∗ reached ER (cellD (yn c) 1 7) 0)
    ∗ ((∃ f, cPts (xn c) (hi 0) fullShare f) ∗ (∃ f, cPts (xn c) (hi 1) fullShare f) ∗ (∃ f, cPts (xn c) (hi 2) fullShare f) ∗ (∃ f, cPts (xn c) (hi 3) fullShare f) ∗ (∃ f, cPts (xn c) (hi 4) fullShare f) ∗ (∃ f, cPts (xn c) (hi 5) fullShare f) ∗ (∃ f, cPts (xn c) (hi 6) fullShare f) ∗ (∃ f, cPts (xn c) (hi 7) fullShare f) ∗ reached ER (cellD (xn c) 3 0) 0 ∗ reached ER (cellD (xn c) 3 1) 0 ∗ reached ER (cellD (xn c) 3 2) 0 ∗ reached ER (cellD (xn c) 3 3) 0 ∗ reached ER (cellD (xn c) 3 4) 0 ∗ reached ER (cellD (xn c) 3 5) 0 ∗ reached ER (cellD (xn c) 3 6) 0 ∗ reached ER (cellD (xn c) 3 7) 0)) := by
  rw [bigSep_univ_eq_bigSepL [false, true] (by decide) (by decide), bigSepL_cons_cons, bigSepL_singleton, payY_own, payX_own]
  rfl

omit [FloatOps F] in
theorem cPts_eq (c : Dev nD) (j : Fin 16) (q : PosShare TreeShare) (f : (cc0_scratch1 : Ref sig .tc).ty.Contents (Elt F)) :
    (cPts c j q f : sProp 𝕄) = ((cSl j).view.loc (c : Thread nD τ) ↦[(cSl j).view.set]{q} f) := rfl

omit [FloatOps F] in
theorem hz2 : (![0, 0] : Fin 2 → Nat) = fun _ => 0 := funext fun a => by fin_cases a <;> rfl

omit [FloatOps F] in
/-- One store of the whole send buffer leaves what was stored. -/
theorem sbuf_written (f w : (cc0_scratch0 : Ref sig .tc).ty.Contents (Elt F)) :
    (sM : Memref sig .tc .vmem S256x512 .bf16).view.writes (Elt F) f [⟨Rect.unit (s := S256x512) ![0, 0] S256x512.size inb_S256x512_S256x512_0_0, w⟩] = w := by
  show (((sM : Memref sig .tc .vmem S256x512 .bf16).access (Rect.unit (s := S256x512) ![0, 0] S256x512.size inb_S256x512_S256x512_0_0) : View sig .tc _ _ _).write (Elt F) f w Finset.univ = w)
  exact Memref.write_access_unit_zero_univ (Elt F) cc0_scratch0 hz2 _ f w

/-- The send buffer, held whole at the rounded half, cut into its eight chunks. -/
theorem s_cut (c : Dev nD) :
    ((sM : Memref sig .tc .vmem S256x512 .bf16).view.loc (c : Thread nD τ) ↦[(sM : Memref sig .tc .vmem S256x512 .bf16).view.set]{fullShare} sbufC m c : sProp 𝕄)
      ⊢ iprop(sPts c 0 fullShare (sbufC m c) ∗ sPts c 1 fullShare (sbufC m c) ∗ sPts c 2 fullShare (sbufC m c) ∗ sPts c 3 fullShare (sbufC m c) ∗ sPts c 4 fullShare (sbufC m c) ∗ sPts c 5 fullShare (sbufC m c) ∗ sPts c 6 fullShare (sbufC m c) ∗ sPts c 7 fullShare (sbufC m c)) := by
  rw [whole_eq]; exact (s_split c (sbufC m c)).1

/-- A transfer cell of the device's own, its one round consumed, closes: its counter at zero is the device's again. -/
theorem close_D (c : Dev nD) (a : Fin 4) (k : Fin 8) :
    iprop(cellInv ER (sched m) (K (c, ixD a k)) (cellD c a k) ∗ atPos ER (cellD c a k) 1 ∅ 0)
      ⊢ (|={Set.univ}=> semVal (cellD c a k) 0 : sProp 𝕄) :=
  Rounds.cell_close ER (sched m) (Set.mem_univ (K (c, ixD a k))) (fun h => h) (R := 1) (duties_later m (cellD c a k))

set_option maxHeartbeats 8000000 in
set_option maxRecDepth 65536 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold bodyPre ghost invs positions opened payToks creds sep8 sWhole
  beta_reduce
  iintro ⟨⟨⟨⟨⟨#IB, ⟨#I0_0, #I0_1, #I0_2, #I0_3, #I0_4, #I0_5, #I0_6, #I0_7⟩, ⟨#I1_0, #I1_1, #I1_2, #I1_3, #I1_4, #I1_5, #I1_6, #I1_7⟩, ⟨#I2_0, #I2_1, #I2_2, #I2_3, #I2_4, #I2_5, #I2_6, #I2_7⟩, ⟨#I3_0, #I3_1, #I3_2, #I3_3, #I3_4, #I3_5, #I3_6, #I3_7⟩, #IBy, #IBx, ⟨#Iy_0, #Iy_1, #Iy_2, #Iy_3, #Iy_4, #Iy_5, #Iy_6, #Iy_7⟩, ⟨#Ix_0, #Ix_1, #Ix_2, #Ix_3, #Ix_4, #Ix_5, #Ix_6, #Ix_7⟩⟩,
      ⟨AB, ⟨A0_0, A0_1, A0_2, A0_3, A0_4, A0_5, A0_6, A0_7⟩, ⟨A1_0, A1_1, A1_2, A1_3, A1_4, A1_5, A1_6, A1_7⟩, ⟨A2_0, A2_1, A2_2, A2_3, A2_4, A2_5, A2_6, A2_7⟩, ⟨A3_0, A3_1, A3_2, A3_3, A3_4, A3_5, A3_6, A3_7⟩⟩,
      ⟨#RBy, #RBx, ⟨#Ry_0, #Ry_1, #Ry_2, #Ry_3, #Ry_4, #Ry_5, #Ry_6, #Ry_7⟩, ⟨#Rx_0, #Rx_1, #Rx_2, #Rx_3, #Rx_4, #Rx_5, #Rx_6, #Rx_7⟩, ⟨#R0_0, #R0_1, #R0_2, #R0_3, #R0_4, #R0_5, #R0_6, #R0_7⟩, ⟨#R1_0, #R1_1, #R1_2, #R1_3, #R1_4, #R1_5, #R1_6, #R1_7⟩, ⟨#R2_0, #R2_1, #R2_2, #R2_3, #R2_4, #R2_5, #R2_6, #R2_7⟩, ⟨#R3_0, #R3_1, #R3_2, #R3_3, #R3_4, #R3_5, #R3_6, #R3_7⟩⟩,
      ⟨TBy, TBx, ⟨Ty_0, Ty_1, Ty_2, Ty_3, Ty_4, Ty_5, Ty_6, Ty_7⟩, ⟨Tx_0, Tx_1, Tx_2, Tx_3, Tx_4, Tx_5, Tx_6, Tx_7⟩, ⟨T0_0, T0_1, T0_2, T0_3, T0_4, T0_5, T0_6, T0_7⟩, ⟨T2_0, T2_1, T2_2, T2_3, T2_4, T2_5, T2_6, T2_7⟩⟩⟩,
     ⟨CB, ⟨C1_0, C1_1, C1_2, C1_3, C1_4, C1_5, C1_6, C1_7⟩, ⟨C3_0, C3_1, C3_2, C3_3, C3_4, C3_5, C3_6, C3_7⟩⟩, #Hlev, ⟨%fs0, Hs⟩, ⟨%fc0, Hc⟩⟩,
    Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  ihave Hx := (Entails.of_eq (whole_eq c cc0_stg0_0 _).symm) $$ Hx
  ihave Hout := (Entails.of_eq (whole_eq c cc0_stg1_0 _).symm) $$ Hout
  ihave Hs := (Entails.of_eq (whole_eq c cc0_scratch0 _).symm) $$ Hs
  -- the landing buffer in its sixteen chunks: the two signals hand them to the neighbours
  ihave Hcs := (c_split c fc0).1 $$ Hc
  unfold sep8 cPts
  beta_reduce
  icases Hcs with ⟨⟨CL0, CL1, CL2, CL3, CL4, CL5, CL6, CL7⟩, ⟨CH0, CH1, CH2, CH3, CH4, CH5, CH6, CH7⟩⟩
  rw [O₀_eq]
  have hmwB : (levAts L lv : sProp 𝕄) ⊢ MayWait (c : Thread nD τ) (.reg barS) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N + tallyAt (cellD (yn c) 1 7) () N + tallyAt (cellD (yn c) 1 6) () N + tallyAt (cellD (yn c) 1 5) () N + tallyAt (cellD (yn c) 1 4) () N + tallyAt (cellD (yn c) 1 3) () N + tallyAt (cellD (yn c) 1 2) () N + tallyAt (cellD (yn c) 1 1) () N + tallyAt (cellD (yn c) 1 0) () N) := mayWait_B c
  have hmw1_0 : (levAts L lv : sProp 𝕄) ⊢ MayWait (c : Thread nD τ) (.dma (dsem 1 0)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N + tallyAt (cellD (xn c) 3 0) () N) := mayWait_R1 c 0 8 (by omega)
  have hmw1_1 : (levAts L lv : sProp 𝕄) ⊢ MayWait (c : Thread nD τ) (.dma (dsem 1 1)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N + tallyAt (cellD (xn c) 3 1) () N) := mayWait_R1 c 1 7 (by omega)
  have hmw1_2 : (levAts L lv : sProp 𝕄) ⊢ MayWait (c : Thread nD τ) (.dma (dsem 1 2)) () (0 + tallyAt (cellD (xn c) 3 7) () N + tallyAt (cellD (xn c) 3 6) () N + tallyAt (cellD (xn c) 3 5) () N + tallyAt (cellD (xn c) 3 4) () N + tallyAt (cellD (xn c) 3 3) () N + tallyAt (cellD (xn c) 3 2) () N) := mayWait_R1 c 2 6 (by omega)
  have hmw1_3 : (levAts L lv : sProp 𝕄) ⊢ MayWait (c : Thread nD τ) (.dma (dsem 1 3)) () (0 + tallyAt (cellD (xn c) 3 7) () N + tallyAt (cellD (xn c) 3 6) () N + tallyAt (cellD (xn c) 3 5) () N + tallyAt (cellD (xn c) 3 4) () N + tallyAt (cellD (xn c) 3 3) () N) := mayWait_R1 c 3 5 (by omega)
  have hmw1_4 : (levAts L lv : sProp 𝕄) ⊢ MayWait (c : Thread nD τ) (.dma (dsem 1 4)) () (0 + tallyAt (cellD (xn c) 3 7) () N + tallyAt (cellD (xn c) 3 6) () N + tallyAt (cellD (xn c) 3 5) () N + tallyAt (cellD (xn c) 3 4) () N) := mayWait_R1 c 4 4 (by omega)
  have hmw1_5 : (levAts L lv : sProp 𝕄) ⊢ MayWait (c : Thread nD τ) (.dma (dsem 1 5)) () (0 + tallyAt (cellD (xn c) 3 7) () N + tallyAt (cellD (xn c) 3 6) () N + tallyAt (cellD (xn c) 3 5) () N) := mayWait_R1 c 5 3 (by omega)
  have hmw1_6 : (levAts L lv : sProp 𝕄) ⊢ MayWait (c : Thread nD τ) (.dma (dsem 1 6)) () (0 + tallyAt (cellD (xn c) 3 7) () N + tallyAt (cellD (xn c) 3 6) () N) := mayWait_R1 c 6 2 (by omega)
  have hmw1_7 : (levAts L lv : sProp 𝕄) ⊢ MayWait (c : Thread nD τ) (.dma (dsem 1 7)) () (0 + tallyAt (cellD (xn c) 3 7) () N) := mayWait_R1 c 7 1 (by omega)
  have hdY := devY_eq c
  have hdX := devX_eq c
  sl_unfold [cc0_body]
  -- the rounded half stored, both neighbours signalled, the barrier waited for
  sl_exec (disch := first | exact land1 m c _ _ | exact land2 m c _ _)
  -- the barrier's round: the y-neighbour's arrival chunks 0–7 and the x-neighbour's 8–15, to send into
  ihave HP := (Entails.of_eq (bar_round m c)) $$ AB_pay1
  icases HP with ⟨⟨⟨%fy0, DY0⟩, ⟨%fy1, DY1⟩, ⟨%fy2, DY2⟩, ⟨%fy3, DY3⟩, ⟨%fy4, DY4⟩, ⟨%fy5, DY5⟩, ⟨%fy6, DY6⟩, ⟨%fy7, DY7⟩, -⟩, ⟨⟨%fx0, DX0⟩, ⟨%fx1, DX1⟩, ⟨%fx2, DX2⟩, ⟨%fx3, DX3⟩, ⟨%fx4, DX4⟩, ⟨%fx5, DX5⟩, ⟨%fx6, DX6⟩, ⟨%fx7, DX7⟩, -⟩⟩
  -- the send buffer holds the rounded half; cut it into the eight chunks the transfers lend
  rw [sbuf_written]
  ihave HS := (s_cut m c) $$ [Hs]
  · iexact Hs
  icases HS with ⟨S0, S1, S2, S3, S4, S5, S6, S7⟩
  -- phase one, chunk 0: into the y-neighbour's arrival chunk 0
  iapply (wp_send1 m K c _ rfl 0 fy0 _ _) $$ [S0 DY0 HO T0_0 Ty_0]
  · isplitr; · iexact I0_0
    isplitr; · iexact Iy_0
    isplitl [S0]; · iexact S0
    isplitl [DY0]; · iexact DY0
    isplitl [HO]; · iexact HO
    isplitl [T0_0]; · iexact T0_0
    isplitr; · iexact R0_0
    isplitl [Ty_0]; · iexact Ty_0
    iexact Ry_0
  iintro ⟨CS1_0, HO⟩
  sl_exec (disch := first | exact land1 m c _ _ | exact land2 m c _ _)
  -- phase one, chunk 1: into the y-neighbour's arrival chunk 1
  iapply (wp_send1 m K c _ rfl 1 fy1 _ _) $$ [S1 DY1 HO T0_1 Ty_1]
  · isplitr; · iexact I0_1
    isplitr; · iexact Iy_1
    isplitl [S1]; · iexact S1
    isplitl [DY1]; · iexact DY1
    isplitl [HO]; · iexact HO
    isplitl [T0_1]; · iexact T0_1
    isplitr; · iexact R0_1
    isplitl [Ty_1]; · iexact Ty_1
    iexact Ry_1
  iintro ⟨CS1_1, HO⟩
  sl_exec (disch := first | exact land1 m c _ _ | exact land2 m c _ _)
  -- phase one, chunk 2: into the y-neighbour's arrival chunk 2
  iapply (wp_send1 m K c _ rfl 2 fy2 _ _) $$ [S2 DY2 HO T0_2 Ty_2]
  · isplitr; · iexact I0_2
    isplitr; · iexact Iy_2
    isplitl [S2]; · iexact S2
    isplitl [DY2]; · iexact DY2
    isplitl [HO]; · iexact HO
    isplitl [T0_2]; · iexact T0_2
    isplitr; · iexact R0_2
    isplitl [Ty_2]; · iexact Ty_2
    iexact Ry_2
  iintro ⟨CS1_2, HO⟩
  sl_exec (disch := first | exact land1 m c _ _ | exact land2 m c _ _)
  -- phase one, chunk 3: into the y-neighbour's arrival chunk 3
  iapply (wp_send1 m K c _ rfl 3 fy3 _ _) $$ [S3 DY3 HO T0_3 Ty_3]
  · isplitr; · iexact I0_3
    isplitr; · iexact Iy_3
    isplitl [S3]; · iexact S3
    isplitl [DY3]; · iexact DY3
    isplitl [HO]; · iexact HO
    isplitl [T0_3]; · iexact T0_3
    isplitr; · iexact R0_3
    isplitl [Ty_3]; · iexact Ty_3
    iexact Ry_3
  iintro ⟨CS1_3, HO⟩
  sl_exec (disch := first | exact land1 m c _ _ | exact land2 m c _ _)
  -- phase one, chunk 4: into the y-neighbour's arrival chunk 4
  iapply (wp_send1 m K c _ rfl 4 fy4 _ _) $$ [S4 DY4 HO T0_4 Ty_4]
  · isplitr; · iexact I0_4
    isplitr; · iexact Iy_4
    isplitl [S4]; · iexact S4
    isplitl [DY4]; · iexact DY4
    isplitl [HO]; · iexact HO
    isplitl [T0_4]; · iexact T0_4
    isplitr; · iexact R0_4
    isplitl [Ty_4]; · iexact Ty_4
    iexact Ry_4
  iintro ⟨CS1_4, HO⟩
  sl_exec (disch := first | exact land1 m c _ _ | exact land2 m c _ _)
  -- phase one, chunk 5: into the y-neighbour's arrival chunk 5
  iapply (wp_send1 m K c _ rfl 5 fy5 _ _) $$ [S5 DY5 HO T0_5 Ty_5]
  · isplitr; · iexact I0_5
    isplitr; · iexact Iy_5
    isplitl [S5]; · iexact S5
    isplitl [DY5]; · iexact DY5
    isplitl [HO]; · iexact HO
    isplitl [T0_5]; · iexact T0_5
    isplitr; · iexact R0_5
    isplitl [Ty_5]; · iexact Ty_5
    iexact Ry_5
  iintro ⟨CS1_5, HO⟩
  sl_exec (disch := first | exact land1 m c _ _ | exact land2 m c _ _)
  -- phase one, chunk 6: into the y-neighbour's arrival chunk 6
  iapply (wp_send1 m K c _ rfl 6 fy6 _ _) $$ [S6 DY6 HO T0_6 Ty_6]
  · isplitr; · iexact I0_6
    isplitr; · iexact Iy_6
    isplitl [S6]; · iexact S6
    isplitl [DY6]; · iexact DY6
    isplitl [HO]; · iexact HO
    isplitl [T0_6]; · iexact T0_6
    isplitr; · iexact R0_6
    isplitl [Ty_6]; · iexact Ty_6
    iexact Ry_6
  iintro ⟨CS1_6, HO⟩
  sl_exec (disch := first | exact land1 m c _ _ | exact land2 m c _ _)
  -- phase one, chunk 7: into the y-neighbour's arrival chunk 7
  iapply (wp_send1 m K c _ rfl 7 fy7 _ _) $$ [S7 DY7 HO T0_7 Ty_7]
  · isplitr; · iexact I0_7
    isplitr; · iexact Iy_7
    isplitl [S7]; · iexact S7
    isplitl [DY7]; · iexact DY7
    isplitl [HO]; · iexact HO
    isplitl [T0_7]; · iexact T0_7
    isplitr; · iexact R0_7
    isplitl [Ty_7]; · iexact Ty_7
    iexact Ry_7
  iintro ⟨CS1_7, HO⟩
  sl_exec (disch := first | exact land1 m c _ _ | exact land2 m c _ _)
  -- phase two, chunk 0: its arrival is in; forward it to the x-neighbour at half share, keep the other half to read
  ihave H2 := (c_halves c (lo 0) (cw1 m c 0)).1 $$ [A1_0_pay1]
  · iexact A1_0_pay1
  icases H2 with ⟨HL0, HR0⟩
  iapply (wp_send2 m K c _ rfl 0 fx0 _ _) $$ [HL0 DX0 HO T2_0 Tx_0]
  · isplitr; · iexact I2_0
    isplitr; · iexact Ix_0
    isplitl [HL0]; · iexact HL0
    isplitl [DX0]; · iexact DX0
    isplitl [HO]; · iexact HO
    isplitl [T2_0]; · iexact T2_0
    isplitr; · iexact R2_0
    isplitl [Tx_0]; · iexact Tx_0
    iexact Rx_0
  iintro ⟨CS2_0, HO⟩
  -- the device's own rows, then what arrived for them, read from the half kept
  sl_exec (disch := first | exact land1 m c _ _ | exact land2 m c _ _)
  ihave HR0u := (Entails.of_eq (cPts_eq c (lo 0) fullShare.right (cw1 m c 0))) $$ HR0
  iapply (wp_load 𝒱₀ (c : Thread nD τ) none Set.univ (m := cM) (S := (cSl (lo 0)).view.set) (q := fullShare.right) (f := cw1 m c 0) (load_sub c (lo 0))) $$ [HR0u]
  · iexact HR0u
  iintro HR0u
  ihave HR0 := (Entails.of_eq (cPts_eq c (lo 0) fullShare.right (cw1 m c 0)).symm) $$ [HR0u]
  · iexact HR0u
  sl_exec (disch := first | exact land1 m c _ _ | exact land2 m c _ _)
  -- phase two, chunk 1: its arrival is in; forward it to the x-neighbour at half share, keep the other half to read
  ihave H2 := (c_halves c (lo 1) (cw1 m c 1)).1 $$ [A1_1_pay1]
  · iexact A1_1_pay1
  icases H2 with ⟨HL1, HR1⟩
  iapply (wp_send2 m K c _ rfl 1 fx1 _ _) $$ [HL1 DX1 HO T2_1 Tx_1]
  · isplitr; · iexact I2_1
    isplitr; · iexact Ix_1
    isplitl [HL1]; · iexact HL1
    isplitl [DX1]; · iexact DX1
    isplitl [HO]; · iexact HO
    isplitl [T2_1]; · iexact T2_1
    isplitr; · iexact R2_1
    isplitl [Tx_1]; · iexact Tx_1
    iexact Rx_1
  iintro ⟨CS2_1, HO⟩
  -- the device's own rows, then what arrived for them, read from the half kept
  sl_exec (disch := first | exact land1 m c _ _ | exact land2 m c _ _)
  ihave HR1u := (Entails.of_eq (cPts_eq c (lo 1) fullShare.right (cw1 m c 1))) $$ HR1
  iapply (wp_load 𝒱₀ (c : Thread nD τ) none Set.univ (m := cM) (S := (cSl (lo 1)).view.set) (q := fullShare.right) (f := cw1 m c 1) (load_sub c (lo 1))) $$ [HR1u]
  · iexact HR1u
  iintro HR1u
  ihave HR1 := (Entails.of_eq (cPts_eq c (lo 1) fullShare.right (cw1 m c 1)).symm) $$ [HR1u]
  · iexact HR1u
  sl_exec (disch := first | exact land1 m c _ _ | exact land2 m c _ _)
  -- phase two, chunk 2: its arrival is in; forward it to the x-neighbour at half share, keep the other half to read
  ihave H2 := (c_halves c (lo 2) (cw1 m c 2)).1 $$ [A1_2_pay1]
  · iexact A1_2_pay1
  icases H2 with ⟨HL2, HR2⟩
  iapply (wp_send2 m K c _ rfl 2 fx2 _ _) $$ [HL2 DX2 HO T2_2 Tx_2]
  · isplitr; · iexact I2_2
    isplitr; · iexact Ix_2
    isplitl [HL2]; · iexact HL2
    isplitl [DX2]; · iexact DX2
    isplitl [HO]; · iexact HO
    isplitl [T2_2]; · iexact T2_2
    isplitr; · iexact R2_2
    isplitl [Tx_2]; · iexact Tx_2
    iexact Rx_2
  iintro ⟨CS2_2, HO⟩
  -- the device's own rows, then what arrived for them, read from the half kept
  sl_exec (disch := first | exact land1 m c _ _ | exact land2 m c _ _)
  ihave HR2u := (Entails.of_eq (cPts_eq c (lo 2) fullShare.right (cw1 m c 2))) $$ HR2
  iapply (wp_load 𝒱₀ (c : Thread nD τ) none Set.univ (m := cM) (S := (cSl (lo 2)).view.set) (q := fullShare.right) (f := cw1 m c 2) (load_sub c (lo 2))) $$ [HR2u]
  · iexact HR2u
  iintro HR2u
  ihave HR2 := (Entails.of_eq (cPts_eq c (lo 2) fullShare.right (cw1 m c 2)).symm) $$ [HR2u]
  · iexact HR2u
  sl_exec (disch := first | exact land1 m c _ _ | exact land2 m c _ _)
  -- phase two, chunk 3: its arrival is in; forward it to the x-neighbour at half share, keep the other half to read
  ihave H2 := (c_halves c (lo 3) (cw1 m c 3)).1 $$ [A1_3_pay1]
  · iexact A1_3_pay1
  icases H2 with ⟨HL3, HR3⟩
  iapply (wp_send2 m K c _ rfl 3 fx3 _ _) $$ [HL3 DX3 HO T2_3 Tx_3]
  · isplitr; · iexact I2_3
    isplitr; · iexact Ix_3
    isplitl [HL3]; · iexact HL3
    isplitl [DX3]; · iexact DX3
    isplitl [HO]; · iexact HO
    isplitl [T2_3]; · iexact T2_3
    isplitr; · iexact R2_3
    isplitl [Tx_3]; · iexact Tx_3
    iexact Rx_3
  iintro ⟨CS2_3, HO⟩
  -- the device's own rows, then what arrived for them, read from the half kept
  sl_exec (disch := first | exact land1 m c _ _ | exact land2 m c _ _)
  ihave HR3u := (Entails.of_eq (cPts_eq c (lo 3) fullShare.right (cw1 m c 3))) $$ HR3
  iapply (wp_load 𝒱₀ (c : Thread nD τ) none Set.univ (m := cM) (S := (cSl (lo 3)).view.set) (q := fullShare.right) (f := cw1 m c 3) (load_sub c (lo 3))) $$ [HR3u]
  · iexact HR3u
  iintro HR3u
  ihave HR3 := (Entails.of_eq (cPts_eq c (lo 3) fullShare.right (cw1 m c 3)).symm) $$ [HR3u]
  · iexact HR3u
  sl_exec (disch := first | exact land1 m c _ _ | exact land2 m c _ _)
  -- phase two, chunk 4: its arrival is in; forward it to the x-neighbour at half share, keep the other half to read
  ihave H2 := (c_halves c (lo 4) (cw1 m c 4)).1 $$ [A1_4_pay1]
  · iexact A1_4_pay1
  icases H2 with ⟨HL4, HR4⟩
  iapply (wp_send2 m K c _ rfl 4 fx4 _ _) $$ [HL4 DX4 HO T2_4 Tx_4]
  · isplitr; · iexact I2_4
    isplitr; · iexact Ix_4
    isplitl [HL4]; · iexact HL4
    isplitl [DX4]; · iexact DX4
    isplitl [HO]; · iexact HO
    isplitl [T2_4]; · iexact T2_4
    isplitr; · iexact R2_4
    isplitl [Tx_4]; · iexact Tx_4
    iexact Rx_4
  iintro ⟨CS2_4, HO⟩
  -- the device's own rows, then what arrived for them, read from the half kept
  sl_exec (disch := first | exact land1 m c _ _ | exact land2 m c _ _)
  ihave HR4u := (Entails.of_eq (cPts_eq c (lo 4) fullShare.right (cw1 m c 4))) $$ HR4
  iapply (wp_load 𝒱₀ (c : Thread nD τ) none Set.univ (m := cM) (S := (cSl (lo 4)).view.set) (q := fullShare.right) (f := cw1 m c 4) (load_sub c (lo 4))) $$ [HR4u]
  · iexact HR4u
  iintro HR4u
  ihave HR4 := (Entails.of_eq (cPts_eq c (lo 4) fullShare.right (cw1 m c 4)).symm) $$ [HR4u]
  · iexact HR4u
  sl_exec (disch := first | exact land1 m c _ _ | exact land2 m c _ _)
  -- phase two, chunk 5: its arrival is in; forward it to the x-neighbour at half share, keep the other half to read
  ihave H2 := (c_halves c (lo 5) (cw1 m c 5)).1 $$ [A1_5_pay1]
  · iexact A1_5_pay1
  icases H2 with ⟨HL5, HR5⟩
  iapply (wp_send2 m K c _ rfl 5 fx5 _ _) $$ [HL5 DX5 HO T2_5 Tx_5]
  · isplitr; · iexact I2_5
    isplitr; · iexact Ix_5
    isplitl [HL5]; · iexact HL5
    isplitl [DX5]; · iexact DX5
    isplitl [HO]; · iexact HO
    isplitl [T2_5]; · iexact T2_5
    isplitr; · iexact R2_5
    isplitl [Tx_5]; · iexact Tx_5
    iexact Rx_5
  iintro ⟨CS2_5, HO⟩
  -- the device's own rows, then what arrived for them, read from the half kept
  sl_exec (disch := first | exact land1 m c _ _ | exact land2 m c _ _)
  ihave HR5u := (Entails.of_eq (cPts_eq c (lo 5) fullShare.right (cw1 m c 5))) $$ HR5
  iapply (wp_load 𝒱₀ (c : Thread nD τ) none Set.univ (m := cM) (S := (cSl (lo 5)).view.set) (q := fullShare.right) (f := cw1 m c 5) (load_sub c (lo 5))) $$ [HR5u]
  · iexact HR5u
  iintro HR5u
  ihave HR5 := (Entails.of_eq (cPts_eq c (lo 5) fullShare.right (cw1 m c 5)).symm) $$ [HR5u]
  · iexact HR5u
  sl_exec (disch := first | exact land1 m c _ _ | exact land2 m c _ _)
  -- phase two, chunk 6: its arrival is in; forward it to the x-neighbour at half share, keep the other half to read
  ihave H2 := (c_halves c (lo 6) (cw1 m c 6)).1 $$ [A1_6_pay1]
  · iexact A1_6_pay1
  icases H2 with ⟨HL6, HR6⟩
  iapply (wp_send2 m K c _ rfl 6 fx6 _ _) $$ [HL6 DX6 HO T2_6 Tx_6]
  · isplitr; · iexact I2_6
    isplitr; · iexact Ix_6
    isplitl [HL6]; · iexact HL6
    isplitl [DX6]; · iexact DX6
    isplitl [HO]; · iexact HO
    isplitl [T2_6]; · iexact T2_6
    isplitr; · iexact R2_6
    isplitl [Tx_6]; · iexact Tx_6
    iexact Rx_6
  iintro ⟨CS2_6, HO⟩
  -- the device's own rows, then what arrived for them, read from the half kept
  sl_exec (disch := first | exact land1 m c _ _ | exact land2 m c _ _)
  ihave HR6u := (Entails.of_eq (cPts_eq c (lo 6) fullShare.right (cw1 m c 6))) $$ HR6
  iapply (wp_load 𝒱₀ (c : Thread nD τ) none Set.univ (m := cM) (S := (cSl (lo 6)).view.set) (q := fullShare.right) (f := cw1 m c 6) (load_sub c (lo 6))) $$ [HR6u]
  · iexact HR6u
  iintro HR6u
  ihave HR6 := (Entails.of_eq (cPts_eq c (lo 6) fullShare.right (cw1 m c 6)).symm) $$ [HR6u]
  · iexact HR6u
  sl_exec (disch := first | exact land1 m c _ _ | exact land2 m c _ _)
  -- phase two, chunk 7: its arrival is in; forward it to the x-neighbour at half share, keep the other half to read
  ihave H2 := (c_halves c (lo 7) (cw1 m c 7)).1 $$ [A1_7_pay1]
  · iexact A1_7_pay1
  icases H2 with ⟨HL7, HR7⟩
  iapply (wp_send2 m K c _ rfl 7 fx7 _ _) $$ [HL7 DX7 HO T2_7 Tx_7]
  · isplitr; · iexact I2_7
    isplitr; · iexact Ix_7
    isplitl [HL7]; · iexact HL7
    isplitl [DX7]; · iexact DX7
    isplitl [HO]; · iexact HO
    isplitl [T2_7]; · iexact T2_7
    isplitr; · iexact R2_7
    isplitl [Tx_7]; · iexact Tx_7
    iexact Rx_7
  iintro ⟨CS2_7, HO⟩
  -- the device's own rows, then what arrived for them, read from the half kept
  sl_exec (disch := first | exact land1 m c _ _ | exact land2 m c _ _)
  ihave HR7u := (Entails.of_eq (cPts_eq c (lo 7) fullShare.right (cw1 m c 7))) $$ HR7
  iapply (wp_load 𝒱₀ (c : Thread nD τ) none Set.univ (m := cM) (S := (cSl (lo 7)).view.set) (q := fullShare.right) (f := cw1 m c 7) (load_sub c (lo 7))) $$ [HR7u]
  · iexact HR7u
  iintro HR7u
  ihave HR7 := (Entails.of_eq (cPts_eq c (lo 7) fullShare.right (cw1 m c 7)).symm) $$ [HR7u]
  · iexact HR7u
  sl_exec (disch := first | exact land1 m c _ _ | exact land2 m c _ _)
  -- the other half, chunk 0: the forwarded chunk is in; read it and add
  ihave A3_0_pay1u := (Entails.of_eq (cPts_eq c (hi 0) fullShare (cw2 m c 0))) $$ A3_0_pay1
  iapply (wp_load 𝒱₀ (c : Thread nD τ) none Set.univ (m := cM) (S := (cSl (hi 0)).view.set) (q := fullShare) (f := cw2 m c 0) (load_sub c (hi 0))) $$ [A3_0_pay1u]
  · iexact A3_0_pay1u
  iintro A3_0_pay1u
  ihave A3_0_pay1 := (Entails.of_eq (cPts_eq c (hi 0) fullShare (cw2 m c 0)).symm) $$ [A3_0_pay1u]
  · iexact A3_0_pay1u
  sl_exec (disch := first | exact land1 m c _ _ | exact land2 m c _ _)
  -- the other half, chunk 1: the forwarded chunk is in; read it and add
  ihave A3_1_pay1u := (Entails.of_eq (cPts_eq c (hi 1) fullShare (cw2 m c 1))) $$ A3_1_pay1
  iapply (wp_load 𝒱₀ (c : Thread nD τ) none Set.univ (m := cM) (S := (cSl (hi 1)).view.set) (q := fullShare) (f := cw2 m c 1) (load_sub c (hi 1))) $$ [A3_1_pay1u]
  · iexact A3_1_pay1u
  iintro A3_1_pay1u
  ihave A3_1_pay1 := (Entails.of_eq (cPts_eq c (hi 1) fullShare (cw2 m c 1)).symm) $$ [A3_1_pay1u]
  · iexact A3_1_pay1u
  sl_exec (disch := first | exact land1 m c _ _ | exact land2 m c _ _)
  -- the other half, chunk 2: the forwarded chunk is in; read it and add
  ihave A3_2_pay1u := (Entails.of_eq (cPts_eq c (hi 2) fullShare (cw2 m c 2))) $$ A3_2_pay1
  iapply (wp_load 𝒱₀ (c : Thread nD τ) none Set.univ (m := cM) (S := (cSl (hi 2)).view.set) (q := fullShare) (f := cw2 m c 2) (load_sub c (hi 2))) $$ [A3_2_pay1u]
  · iexact A3_2_pay1u
  iintro A3_2_pay1u
  ihave A3_2_pay1 := (Entails.of_eq (cPts_eq c (hi 2) fullShare (cw2 m c 2)).symm) $$ [A3_2_pay1u]
  · iexact A3_2_pay1u
  sl_exec (disch := first | exact land1 m c _ _ | exact land2 m c _ _)
  -- the other half, chunk 3: the forwarded chunk is in; read it and add
  ihave A3_3_pay1u := (Entails.of_eq (cPts_eq c (hi 3) fullShare (cw2 m c 3))) $$ A3_3_pay1
  iapply (wp_load 𝒱₀ (c : Thread nD τ) none Set.univ (m := cM) (S := (cSl (hi 3)).view.set) (q := fullShare) (f := cw2 m c 3) (load_sub c (hi 3))) $$ [A3_3_pay1u]
  · iexact A3_3_pay1u
  iintro A3_3_pay1u
  ihave A3_3_pay1 := (Entails.of_eq (cPts_eq c (hi 3) fullShare (cw2 m c 3)).symm) $$ [A3_3_pay1u]
  · iexact A3_3_pay1u
  sl_exec (disch := first | exact land1 m c _ _ | exact land2 m c _ _)
  -- the other half, chunk 4: the forwarded chunk is in; read it and add
  ihave A3_4_pay1u := (Entails.of_eq (cPts_eq c (hi 4) fullShare (cw2 m c 4))) $$ A3_4_pay1
  iapply (wp_load 𝒱₀ (c : Thread nD τ) none Set.univ (m := cM) (S := (cSl (hi 4)).view.set) (q := fullShare) (f := cw2 m c 4) (load_sub c (hi 4))) $$ [A3_4_pay1u]
  · iexact A3_4_pay1u
  iintro A3_4_pay1u
  ihave A3_4_pay1 := (Entails.of_eq (cPts_eq c (hi 4) fullShare (cw2 m c 4)).symm) $$ [A3_4_pay1u]
  · iexact A3_4_pay1u
  sl_exec (disch := first | exact land1 m c _ _ | exact land2 m c _ _)
  -- the other half, chunk 5: the forwarded chunk is in; read it and add
  ihave A3_5_pay1u := (Entails.of_eq (cPts_eq c (hi 5) fullShare (cw2 m c 5))) $$ A3_5_pay1
  iapply (wp_load 𝒱₀ (c : Thread nD τ) none Set.univ (m := cM) (S := (cSl (hi 5)).view.set) (q := fullShare) (f := cw2 m c 5) (load_sub c (hi 5))) $$ [A3_5_pay1u]
  · iexact A3_5_pay1u
  iintro A3_5_pay1u
  ihave A3_5_pay1 := (Entails.of_eq (cPts_eq c (hi 5) fullShare (cw2 m c 5)).symm) $$ [A3_5_pay1u]
  · iexact A3_5_pay1u
  sl_exec (disch := first | exact land1 m c _ _ | exact land2 m c _ _)
  -- the other half, chunk 6: the forwarded chunk is in; read it and add
  ihave A3_6_pay1u := (Entails.of_eq (cPts_eq c (hi 6) fullShare (cw2 m c 6))) $$ A3_6_pay1
  iapply (wp_load 𝒱₀ (c : Thread nD τ) none Set.univ (m := cM) (S := (cSl (hi 6)).view.set) (q := fullShare) (f := cw2 m c 6) (load_sub c (hi 6))) $$ [A3_6_pay1u]
  · iexact A3_6_pay1u
  iintro A3_6_pay1u
  ihave A3_6_pay1 := (Entails.of_eq (cPts_eq c (hi 6) fullShare (cw2 m c 6)).symm) $$ [A3_6_pay1u]
  · iexact A3_6_pay1u
  sl_exec (disch := first | exact land1 m c _ _ | exact land2 m c _ _)
  -- the other half, chunk 7: the forwarded chunk is in; read it and add
  ihave A3_7_pay1u := (Entails.of_eq (cPts_eq c (hi 7) fullShare (cw2 m c 7))) $$ A3_7_pay1
  iapply (wp_load 𝒱₀ (c : Thread nD τ) none Set.univ (m := cM) (S := (cSl (hi 7)).view.set) (q := fullShare) (f := cw2 m c 7) (load_sub c (hi 7))) $$ [A3_7_pay1u]
  · iexact A3_7_pay1u
  iintro A3_7_pay1u
  ihave A3_7_pay1 := (Entails.of_eq (cPts_eq c (hi 7) fullShare (cw2 m c 7)).symm) $$ [A3_7_pay1u]
  · iexact A3_7_pay1u
  sl_exec (disch := first | exact land1 m c _ _ | exact land2 m c _ _)
  -- the return: what is left is to hand back what the body owes the pipeline
  rw [wp_ret]
  -- the thirty-two transfer cells close: their counters at zero are the device's again
  imod (close_D m K c 0 0) $$ [A0_0] with Z0_0
  · isplitr; · iexact I0_0
    iexact A0_0
  imod (close_D m K c 0 1) $$ [A0_1] with Z0_1
  · isplitr; · iexact I0_1
    iexact A0_1
  imod (close_D m K c 0 2) $$ [A0_2] with Z0_2
  · isplitr; · iexact I0_2
    iexact A0_2
  imod (close_D m K c 0 3) $$ [A0_3] with Z0_3
  · isplitr; · iexact I0_3
    iexact A0_3
  imod (close_D m K c 0 4) $$ [A0_4] with Z0_4
  · isplitr; · iexact I0_4
    iexact A0_4
  imod (close_D m K c 0 5) $$ [A0_5] with Z0_5
  · isplitr; · iexact I0_5
    iexact A0_5
  imod (close_D m K c 0 6) $$ [A0_6] with Z0_6
  · isplitr; · iexact I0_6
    iexact A0_6
  imod (close_D m K c 0 7) $$ [A0_7] with Z0_7
  · isplitr; · iexact I0_7
    iexact A0_7
  imod (close_D m K c 1 0) $$ [A1_0] with Z1_0
  · isplitr; · iexact I1_0
    iexact A1_0
  imod (close_D m K c 1 1) $$ [A1_1] with Z1_1
  · isplitr; · iexact I1_1
    iexact A1_1
  imod (close_D m K c 1 2) $$ [A1_2] with Z1_2
  · isplitr; · iexact I1_2
    iexact A1_2
  imod (close_D m K c 1 3) $$ [A1_3] with Z1_3
  · isplitr; · iexact I1_3
    iexact A1_3
  imod (close_D m K c 1 4) $$ [A1_4] with Z1_4
  · isplitr; · iexact I1_4
    iexact A1_4
  imod (close_D m K c 1 5) $$ [A1_5] with Z1_5
  · isplitr; · iexact I1_5
    iexact A1_5
  imod (close_D m K c 1 6) $$ [A1_6] with Z1_6
  · isplitr; · iexact I1_6
    iexact A1_6
  imod (close_D m K c 1 7) $$ [A1_7] with Z1_7
  · isplitr; · iexact I1_7
    iexact A1_7
  imod (close_D m K c 2 0) $$ [A2_0] with Z2_0
  · isplitr; · iexact I2_0
    iexact A2_0
  imod (close_D m K c 2 1) $$ [A2_1] with Z2_1
  · isplitr; · iexact I2_1
    iexact A2_1
  imod (close_D m K c 2 2) $$ [A2_2] with Z2_2
  · isplitr; · iexact I2_2
    iexact A2_2
  imod (close_D m K c 2 3) $$ [A2_3] with Z2_3
  · isplitr; · iexact I2_3
    iexact A2_3
  imod (close_D m K c 2 4) $$ [A2_4] with Z2_4
  · isplitr; · iexact I2_4
    iexact A2_4
  imod (close_D m K c 2 5) $$ [A2_5] with Z2_5
  · isplitr; · iexact I2_5
    iexact A2_5
  imod (close_D m K c 2 6) $$ [A2_6] with Z2_6
  · isplitr; · iexact I2_6
    iexact A2_6
  imod (close_D m K c 2 7) $$ [A2_7] with Z2_7
  · isplitr; · iexact I2_7
    iexact A2_7
  imod (close_D m K c 3 0) $$ [A3_0] with Z3_0
  · isplitr; · iexact I3_0
    iexact A3_0
  imod (close_D m K c 3 1) $$ [A3_1] with Z3_1
  · isplitr; · iexact I3_1
    iexact A3_1
  imod (close_D m K c 3 2) $$ [A3_2] with Z3_2
  · isplitr; · iexact I3_2
    iexact A3_2
  imod (close_D m K c 3 3) $$ [A3_3] with Z3_3
  · isplitr; · iexact I3_3
    iexact A3_3
  imod (close_D m K c 3 4) $$ [A3_4] with Z3_4
  · isplitr; · iexact I3_4
    iexact A3_4
  imod (close_D m K c 3 5) $$ [A3_5] with Z3_5
  · isplitr; · iexact I3_5
    iexact A3_5
  imod (close_D m K c 3 6) $$ [A3_6] with Z3_6
  · isplitr; · iexact I3_6
    iexact A3_6
  imod (close_D m K c 3 7) $$ [A3_7] with Z3_7
  · isplitr; · iexact I3_7
    iexact A3_7
  -- the arrival chunks 0–7 whole again from their two halves
  ihave HC0 := (c_halves c (lo 0) (cw1 m c 0)).2 $$ [A2_0_pay1 HR0]
  · isplitl [A2_0_pay1]; · iexact A2_0_pay1
    iexact HR0
  ihave HC1 := (c_halves c (lo 1) (cw1 m c 1)).2 $$ [A2_1_pay1 HR1]
  · isplitl [A2_1_pay1]; · iexact A2_1_pay1
    iexact HR1
  ihave HC2 := (c_halves c (lo 2) (cw1 m c 2)).2 $$ [A2_2_pay1 HR2]
  · isplitl [A2_2_pay1]; · iexact A2_2_pay1
    iexact HR2
  ihave HC3 := (c_halves c (lo 3) (cw1 m c 3)).2 $$ [A2_3_pay1 HR3]
  · isplitl [A2_3_pay1]; · iexact A2_3_pay1
    iexact HR3
  ihave HC4 := (c_halves c (lo 4) (cw1 m c 4)).2 $$ [A2_4_pay1 HR4]
  · isplitl [A2_4_pay1]; · iexact A2_4_pay1
    iexact HR4
  ihave HC5 := (c_halves c (lo 5) (cw1 m c 5)).2 $$ [A2_5_pay1 HR5]
  · isplitl [A2_5_pay1]; · iexact A2_5_pay1
    iexact HR5
  ihave HC6 := (c_halves c (lo 6) (cw1 m c 6)).2 $$ [A2_6_pay1 HR6]
  · isplitl [A2_6_pay1]; · iexact A2_6_pay1
    iexact HR6
  ihave HC7 := (c_halves c (lo 7) (cw1 m c 7)).2 $$ [A2_7_pay1 HR7]
  · isplitl [A2_7_pay1]; · iexact A2_7_pay1
    iexact HR7
  imodintro
  iapply Hk
  unfold bodyPost Φ₁ sems32 sep8 Dat.owesAt Pipeline.owesWithin
  beta_reduce
  rw [show (dats m 0 c).owed t0_0.succ = 0 from rfl]
  isplitl [A0_0_pay1 A0_1_pay1 A0_2_pay1 A0_3_pay1 A0_4_pay1 A0_5_pay1 A0_6_pay1 A0_7_pay1 HC0 HC1 HC2 HC3 HC4 HC5 HC6 HC7 A3_0_pay1 A3_1_pay1 A3_2_pay1 A3_3_pay1 A3_4_pay1 A3_5_pay1 A3_6_pay1 A3_7_pay1 Z0_0 Z0_1 Z0_2 Z0_3 Z0_4 Z0_5 Z0_6 Z0_7 Z1_0 Z1_1 Z1_2 Z1_3 Z1_4 Z1_5 Z1_6 Z1_7 Z2_0 Z2_1 Z2_2 Z2_3 Z2_4 Z2_5 Z2_6 Z2_7 Z3_0 Z3_1 Z3_2 Z3_3 Z3_4 Z3_5 Z3_6 Z3_7]
  · -- the send buffer is its eight chunks again; the landing buffer its sixteen; the semaphores at zero
    isplitl [A0_0_pay1 A0_1_pay1 A0_2_pay1 A0_3_pay1 A0_4_pay1 A0_5_pay1 A0_6_pay1 A0_7_pay1]
    · iexists (sbufC m c)
      iapply (s_split c (sbufC m c)).2
      unfold sep8; beta_reduce
      isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      iexact A0_7_pay1
    isplitl [HC0 HC1 HC2 HC3 HC4 HC5 HC6 HC7 A3_0_pay1 A3_1_pay1 A3_2_pay1 A3_3_pay1 A3_4_pay1 A3_5_pay1 A3_6_pay1 A3_7_pay1]
    · iapply (c_join c (fun k => cw1 m c k) (fun k => cw2 m c k))
      unfold sep8; beta_reduce
      isplitl [HC0 HC1 HC2 HC3 HC4 HC5 HC6 HC7]
      ·
        isplitl [HC0]; · iexact HC0
        isplitl [HC1]; · iexact HC1
        isplitl [HC2]; · iexact HC2
        isplitl [HC3]; · iexact HC3
        isplitl [HC4]; · iexact HC4
        isplitl [HC5]; · iexact HC5
        isplitl [HC6]; · iexact HC6
        iexact HC7
      isplitl [A3_0_pay1]; · iexact A3_0_pay1
      isplitl [A3_1_pay1]; · iexact A3_1_pay1
      isplitl [A3_2_pay1]; · iexact A3_2_pay1
      isplitl [A3_3_pay1]; · iexact A3_3_pay1
      isplitl [A3_4_pay1]; · iexact A3_4_pay1
      isplitl [A3_5_pay1]; · iexact A3_5_pay1
      isplitl [A3_6_pay1]; · iexact A3_6_pay1
      iexact A3_7_pay1
    · isplitl [Z0_0 Z0_1 Z0_2 Z0_3 Z0_4 Z0_5 Z0_6 Z0_7]
      ·
        isplitl [Z0_0]; · iexact Z0_0
        isplitl [Z0_1]; · iexact Z0_1
        isplitl [Z0_2]; · iexact Z0_2
        isplitl [Z0_3]; · iexact Z0_3
        isplitl [Z0_4]; · iexact Z0_4
        isplitl [Z0_5]; · iexact Z0_5
        isplitl [Z0_6]; · iexact Z0_6
        iexact Z0_7
      isplitl [Z1_0 Z1_1 Z1_2 Z1_3 Z1_4 Z1_5 Z1_6 Z1_7]
      ·
        isplitl [Z1_0]; · iexact Z1_0
        isplitl [Z1_1]; · iexact Z1_1
        isplitl [Z1_2]; · iexact Z1_2
        isplitl [Z1_3]; · iexact Z1_3
        isplitl [Z1_4]; · iexact Z1_4
        isplitl [Z1_5]; · iexact Z1_5
        isplitl [Z1_6]; · iexact Z1_6
        iexact Z1_7
      isplitl [Z2_0 Z2_1 Z2_2 Z2_3 Z2_4 Z2_5 Z2_6 Z2_7]
      ·
        isplitl [Z2_0]; · iexact Z2_0
        isplitl [Z2_1]; · iexact Z2_1
        isplitl [Z2_2]; · iexact Z2_2
        isplitl [Z2_3]; · iexact Z2_3
        isplitl [Z2_4]; · iexact Z2_4
        isplitl [Z2_5]; · iexact Z2_5
        isplitl [Z2_6]; · iexact Z2_6
        iexact Z2_7
      isplitl [Z3_0]; · iexact Z3_0
      isplitl [Z3_1]; · iexact Z3_1
      isplitl [Z3_2]; · iexact Z3_2
      isplitl [Z3_3]; · iexact Z3_3
      isplitl [Z3_4]; · iexact Z3_4
      isplitl [Z3_5]; · iexact Z3_5
      isplitl [Z3_6]; · iexact Z3_6
      iexact Z3_7
  isplitl [HO]
  · iexists _
    isplitr
    rotate_left
    · iexact HO
    · ipureintro; exact fun _ _ => Or.inl trivial
  isplitl [Hx]
  · iexists _; isplitr; · (ipureintro; rfl)
    iapply (Entails.of_eq (whole_eq c cc0_stg0_0 _)); iexact Hx
  -- the result's staging buffer: the sixteen stores, which cover it
  iexists _
  isplitr
  rotate_left
  · iapply (Entails.of_eq (whole_eq c cc0_stg1_0 _)); iexact Hout
  · ipureintro
    rw [← outW_base m c g1]
    rfl

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 8000 in
set_option maxHeartbeats 4000000 in
attribute [local irreducible] outAt in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, Hlev⟩, Hs, Hc⟩, Ho, Hx, Hout⟩
  iapply (sound_body m K c fun _ => bodyPost m c)
  unfold bodyPre
  isplitr []
  · isplitl [Hg Hcr Hlev Hs Hc]
    · isplitl [Hg]; · iexact Hg
      isplitl [Hcr]; · iexact Hcr
      isplitl [Hlev]; · iexact Hlev
      isplitl [Hs]; · iexact Hs
      iexact Hc
    isplitl [Ho]; · iexact Ho
    isplitl [Hx] <;> iassumption
  · iintro H; iexact H

end Cert.Kernel.AR

end
-- ==== Proof.K.ARLaunch.lean ====
/-
  The launch: from "each device's body is proved" to the run of the whole program on the four devices.

  The protocol's ghost state is allocated once for all devices — every cell's record and the tokens of its duties —,
  each cell's invariant is made from its semaphore at zero (the thirty-two transfer semaphores are the kernel's own,
  the barrier semaphore the runtime's, unscoped), and the tokens are dealt to the devices that pay them: a barrier
  cell's y-unit and its phase-one arrival tokens to the y-neighbour, its x-unit and phase-two arrival tokens to the
  x-neighbour. The credit a device is dealt is what the others owe its cells: two barrier units, sixteen arrivals.
-/
import proofs.«900151_g7700000000000152_dist_ar_v7x_xy2x2_y_m512_n512_f32_1_alg».proof.Proof.K.ARData
import proofs.«900151_g7700000000000152_dist_ar_v7x_xy2x2_y_m512_n512_f32_1_alg».proof.Proof.K.ARTables

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- Every device's windowed arrays end at what the proof data computes. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

namespace Launch

/-! ## The cells and the tokens of the protocol -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  intro i j h
  dsimp only [csem] at h
  split at h <;> split at h
  · exact Fin.ext (by omega)
  · cases h
  · cases h
  · injection h with h
    have := congrArg Fin.val h
    simp only at this
    exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The thirty-three cells of every device. -/
def protoCells : Finset (GSem nD τ sig) := Finset.univ.map ⟨kcell, kcell_injective⟩

theorem dsem_injective {a a' : Fin 4} {k k' : Fin 8} (h : dsem a k = dsem a' k') : a = a' ∧ k = k' := by
  have := congrArg Fin.val h
  simp only [dsem] at this
  exact ⟨Fin.ext (by omega), Fin.ext (by omega)⟩

/-- The tokens minted for a device's own cells: the barrier cell's two, and one for each transfer cell. -/
abbrev tokOf (cj : Dev nD × (Bool ⊕ (Fin 4 × Fin 8))) : GSem nD τ sig × ℕ × Bool := match cj.2 with
  | .inl b => (cellB cj.1, 0, b)
  | .inr ak => (cellD cj.1 ak.1 ak.2, 0, false)

theorem tokOf_injective : Function.Injective tokOf := by
  rintro ⟨c, j⟩ ⟨c', j'⟩ h
  have h1 : c = c' := by
    have := congrArg (fun x : GSem nD τ sig × ℕ × Bool => x.1.1.1) h
    rcases j with b | ak <;> rcases j' with b' | ak' <;> exact this
  subst h1
  rcases j with b | ak <;> rcases j' with b' | ak'
  · have : b = b' := congrArg (fun x : GSem nD τ sig × ℕ × Bool => x.2.2) h
    rw [this]
  · exact absurd (congrArg (fun x : GSem nD τ sig × ℕ × Bool => x.1.2) h) (fun h' => by cases h')
  · exact absurd (congrArg (fun x : GSem nD τ sig × ℕ × Bool => x.1.2) h) (fun h' => by cases h')
  · have h2 : (SemLoc.dma (dsem ak.1 ak.2) : SemLoc sig) = .dma (dsem ak'.1 ak'.2) := congrArg (fun x : GSem nD τ sig × ℕ × Bool => x.1.2) h
    injection h2 with h2
    obtain ⟨ha, hk⟩ := dsem_injective h2
    rw [show ak = ak' from Prod.ext ha hk]

def protoToks : Finset (GSem nD τ sig × ℕ × Bool) := Finset.univ.map ⟨tokOf, tokOf_injective⟩

/-- The launch element: the pipeline's copy beside the protocol's. -/
def u₀ : UU :=
  (initOf (Pipeline.cells cfgs cellOf_inj) (Pipeline.launchToks cfgs cellOf_inj), initOf protoCells protoToks)

/-! ## Sums over the chunks, the families and the cells -/

theorem bigSep_fin8 (Φ : Fin 8 → sProp 𝕄) : bigSep Finset.univ Φ = sep8 Φ :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ

/-- A sum over families and chunks, family by family. -/
theorem bigSep_fam (Φ : Fin 4 × Fin 8 → sProp 𝕄) :
    bigSep Finset.univ Φ
      = iprop((sep8 fun k => Φ (0, k)) ∗ (sep8 fun k => Φ (1, k)) ∗ (sep8 fun k => Φ (2, k)) ∗ (sep8 fun k => Φ (3, k))) := by
  rw [bigSep_univ_prod, bigSep_fin4]; simp only [bigSep_fin8]

theorem ixD_injective : Function.Injective (fun ak : Fin 4 × Fin 8 => ixD ak.1 ak.2) := by
  rintro ⟨a, k⟩ ⟨a', k'⟩ h
  have h' : (ixD a k).val = (ixD a' k').val := congrArg Fin.val h
  simp only [ixD] at h'
  have ha : a = a' := Fin.ext (by omega)
  have hk : k = k' := Fin.ext (by omega)
  rw [ha, hk]

/-- The cell numbers: the barrier cell's, and the transfer cells' by family and chunk. -/
theorem univ33 : (Finset.univ : Finset (Fin 33)) = insert 0 (Finset.univ.map ⟨fun ak : Fin 4 × Fin 8 => ixD ak.1 ak.2, ixD_injective⟩) := by
  decide

/-- A sum over a device's cells: the barrier cell, then the transfer cells family by family. -/
theorem bigSep_cells (Φ : Fin 33 → sProp 𝕄) :
    bigSep Finset.univ Φ
      = iprop(Φ 0 ∗ (sep8 fun k => Φ (ixD 0 k)) ∗ (sep8 fun k => Φ (ixD 1 k)) ∗ (sep8 fun k => Φ (ixD 2 k)) ∗ (sep8 fun k => Φ (ixD 3 k))) := by
  rw [univ33, bigSep_insert (by decide), bigSep_map, bigSep_fam]; rfl

/-! ## What the launch element deals each device -/

/-- The duty tokens of device `c`'s own cells. -/
def toks (c : Dev nD) : sProp 𝕄 :=
  iprop((dutyTok ER (cellB c) 0 false ∗ dutyTok ER (cellB c) 0 true)
    ∗ (sep8 fun k => dutyTok ER (cellD c 0 k) 0 false) ∗ (sep8 fun k => dutyTok ER (cellD c 1 k) 0 false)
    ∗ (sep8 fun k => dutyTok ER (cellD c 2 k) 0 false) ∗ (sep8 fun k => dutyTok ER (cellD c 3 k) 0 false))

/-- What the launch element deals device `c`: its cells' round states, its positions with the word that round 0 is
    open, and its cells' tokens. -/
def G (c : Dev nD) : sProp 𝕄 :=
  iprop((bigSep Finset.univ fun i : Fin 33 => roundState ER (sched m) (kcell (c, i)) 0)
    ∗ (bigSep Finset.univ fun i : Fin 33 => iprop(atPos ER (kcell (c, i)) 0 ∅ 0 ∗ reached ER (kcell (c, i)) 0)) ∗ toks c)

/-- What the global step makes of it. -/
def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun i : Fin 33 => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_bool, bigSep_fam]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each cell's invariant, from its semaphore at zero -/

/-- The families' semaphores are the kernel's own thirty-two, in order. -/
def jD (a : Fin 4) (k : Fin 8) : Fin 32 := ⟨8 * a.val + k.val, by have := a.isLt; have := k.isLt; omega⟩

theorem jD_injective : Function.Injective (fun ak : Fin 4 × Fin 8 => jD ak.1 ak.2) := by
  rintro ⟨a, k⟩ ⟨a', k'⟩ h
  have h' : (jD a k).val = (jD a' k').val := congrArg Fin.val h
  simp only [jD] at h'
  have ha : a = a' := Fin.ext (by omega)
  have hk : k = k' := Fin.ext (by omega)
  rw [ha, hk]

theorem univ32 : (Finset.univ : Finset (Fin 32)) = Finset.univ.map ⟨fun ak : Fin 4 × Fin 8 => jD ak.1 ak.2, jD_injective⟩ := by
  decide

theorem osem_jD (c : Dev nD) (a : Fin 4) (k : Fin 8) : (((c : Thread nD τ), osem (jD a k)) : GSem nD τ sig) = cellD c a k := by
  unfold osem jD cellD dsem
  congr 2
  exact Fin.ext (by show 8 * a.val + k.val + 2 = 2 + 8 * a.val + k.val; omega)

/-- The kernel's own semaphores at zero are the thirty-two transfer semaphores at zero; -/
theorem ownSems0_eq (c : Dev nD) : (Pipeline.ownSems0 (Ix := Unit) (Name := ℕ) (U := UU) (Lvl := ℕ) (Val := Elt F) (τ := τ) osem c : sProp 𝕄)
    = sems32 c := by
  unfold Pipeline.ownSems0 sems32
  rw [univ32, bigSep_map, bigSep_fam]
  simp only [Function.Embedding.coeFn_mk, osem_jD]
/-- the barrier semaphore is the launch's one unscoped semaphore. -/
theorem unscopedSems0_eq (c : Dev nD) : (unscopedSems0 c : sProp 𝕄) = semVal (cellB c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 33 => semVal (kcell (c, i)) 0 : sProp 𝕄) := by
  rw [ownSems0_eq, unscopedSems0_eq, bigSep_cells]
  simp only [kcell_D]
  unfold sems32
  iintro ⟨HD, HB⟩
  isplitl [HB]; · iexact HB
  iexact HD

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i : Fin 33 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 33 => semVal (kcell (c, i)) 0) ∗ bigSep Finset.univ fun i : Fin 33 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt, the records shared: each device's ghost state -/

/-- What every device may read: every cell's invariant at its chosen name, and that round 0 of every cell is open. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) : records m K ⊢ cellInv ER (sched m) (K ck) (kcell ck) :=
  sep_elim_left.trans (bigSep_elim (Finset.mem_univ ck))
theorem reached_at (K : Dev nD × Fin 33 → ℕ) (ck : Dev nD × Fin 33) : records m K ⊢ reached ER (kcell ck) 0 :=
  sep_elim_right.trans (bigSep_elim (Finset.mem_univ ck))
theorem inv_atD (K : Dev nD × Fin 33 → ℕ) (c : Dev nD) (a : Fin 4) (k : Fin 8) :
    records m K ⊢ cellInv ER (sched m) (K (c, ixD a k)) (cellD c a k) := by
  rw [← kcell_D]; exact inv_at m K (c, ixD a k)
theorem reached_atD (K : Dev nD × Fin 33 → ℕ) (c : Dev nD) (a : Fin 4) (k : Fin 8) : records m K ⊢ reached ER (cellD c a k) 0 := by
  rw [← kcell_D]; exact reached_at m K (c, ixD a k)

/-- Something persistent yields each of eight things, so all eight. -/
theorem sep8_intro {R : sProp 𝕄} [BI.Persistent R] {Φ : Fin 8 → sProp 𝕄} (h : ∀ k, R ⊢ Φ k) : R ⊢ sep8 Φ := by
  rw [← bigSep_fin8]; exact BI.bigSep_intro_persistent fun k _ => h k

theorem invs_intro (K : Dev nD × Fin 33 → ℕ) (c : Dev nD) : records m K ⊢ invs m K c := by
  unfold invs
  iintro #H
  isplitr; · iapply (inv_at m K (c, 0)); iexact H
  isplitr; · iapply (sep8_intro fun k => inv_atD m K c 0 k); iexact H
  isplitr; · iapply (sep8_intro fun k => inv_atD m K c 1 k); iexact H
  isplitr; · iapply (sep8_intro fun k => inv_atD m K c 2 k); iexact H
  isplitr; · iapply (sep8_intro fun k => inv_atD m K c 3 k); iexact H
  isplitr; · iapply (inv_at m K (yn c, 0)); iexact H
  isplitr; · iapply (inv_at m K (xn c, 0)); iexact H
  isplitr; · iapply (sep8_intro fun k => inv_atD m K (yn c) 1 k); iexact H
  iapply (sep8_intro fun k => inv_atD m K (xn c) 3 k); iexact H

theorem opened_intro (K : Dev nD × Fin 33 → ℕ) (c : Dev nD) : records m K ⊢ opened c := by
  unfold opened
  iintro #H
  isplitr; · iapply (reached_at m K (yn c, 0)); iexact H
  isplitr; · iapply (reached_at m K (xn c, 0)); iexact H
  isplitr; · iapply (sep8_intro fun k => reached_atD m K (yn c) 1 k); iexact H
  isplitr; · iapply (sep8_intro fun k => reached_atD m K (xn c) 3 k); iexact H
  isplitr; · iapply (sep8_intro fun k => reached_atD m K c 0 k); iexact H
  isplitr; · iapply (sep8_intro fun k => reached_atD m K c 1 k); iexact H
  isplitr; · iapply (sep8_intro fun k => reached_atD m K c 2 k); iexact H
  iapply (sep8_intro fun k => reached_atD m K c 3 k); iexact H

/-- A device's ghost state from the shared records, its own positions and the tokens of the duties it pays. -/
theorem ghost_intro (K : Dev nD × Fin 33 → ℕ) (c : Dev nD) : iprop(records m K ∗ positions c ∗ payToks c) ⊢ G' m c := by
  unfold G' ghost
  iintro ⟨#HR, Hpos, Htok⟩
  iexists K
  isplitr; · iapply (invs_intro m K c); iexact HR
  isplitl [Hpos]; · iexact Hpos
  isplitr; · iapply (opened_intro m K c); iexact HR
  iexact Htok

theorem positions_eq (c : Dev nD) : (bigSep Finset.univ fun i : Fin 33 => (atPos ER (kcell (c, i)) 0 ∅ 0 : sProp 𝕄)) = positions c := by
  unfold positions
  rw [bigSep_cells]
  simp only [kcell_D]
  rfl

/-- The tokens dealt over the mesh: a barrier cell's y-unit and its phase-one arrival tokens go to the y-neighbour,
    its x-unit and phase-two arrival tokens to the x-neighbour; the departure tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (cellB c) 0 false : sProp 𝕄)),
    bigSep_univ_equiv xnE (fun c : Dev nD => (dutyTok ER (cellB c) 0 true : sProp 𝕄)),
    bigSep_univ_equiv ynE (fun c : Dev nD => (sep8 fun k => dutyTok ER (cellD c 1 k) 0 false : sProp 𝕄)),
    bigSep_univ_equiv xnE (fun c : Dev nD => (sep8 fun k => dutyTok ER (cellD c 3 k) 0 false : sProp 𝕄))]
  iintro ⟨⟨HBf, HBt⟩, H0, H1, H2, H3⟩
  isplitl [HBf]; · iexact HBf
  isplitl [HBt]; · iexact HBt
  isplitl [H1]; · iexact H1
  isplitl [H3]; · iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ (bigSep Finset.univ fun i : Fin 33 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun i : Fin 33 => (atPos ER (kcell (c, i)) 0 ∅ 0 : sProp 𝕄)) (fun i => reached ER (kcell (c, i)) 0)),
    bigSep_sep', ← bigSep_univ_prod (fun ck : Dev nD × Fin 33 => (reached ER (kcell ck) 0 : sProp 𝕄)),
    bigSep_congr (s := Finset.univ) (fun (c : Dev nD) _ => positions_eq (F := F) c)]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the others owe a device's cells -/

theorem cellB_inj {a b : Dev nD} : Iff (cellB a = cellB b) (a = b) :=
  ⟨fun h => Fin.ext (congrArg (fun g : GSem nD τ sig => g.1.1.val) h), fun h => h ▸ rfl⟩
theorem cellD_inj {c c' : Dev nD} {a a' : Fin 4} {k k' : Fin 8} : Iff (cellD c a k = cellD c' a' k') (c = c' ∧ a = a' ∧ k = k') := by
  constructor
  · intro h
    have h1 : c = c' := Fin.ext (congrArg (fun g : GSem nD τ sig => g.1.1.val) h)
    have h2 : (SemLoc.dma (dsem a k) : SemLoc sig) = .dma (dsem a' k') := congrArg Prod.snd h
    injection h2 with h2
    exact ⟨h1, dsem_injective h2⟩
  · rintro ⟨rfl, rfl, rfl⟩; rfl
theorem cellB_ne_cellD (c c' : Dev nD) (a : Fin 4) (k : Fin 8) : cellB c ≠ cellD c' a k := fun h => by
  have := congrArg Prod.snd h; cases this
theorem cellD_ne_cellB (c c' : Dev nD) (a : Fin 4) (k : Fin 8) : cellD c' a k ≠ cellB c := fun h => by
  have := congrArg Prod.snd h; cases this

theorem eq_yn_comm (c d : Dev nD) : Iff (c = yn d) (d = yn c) := ⟨fun h => by rw [h, yn_yn], fun h => by rw [h, yn_yn]⟩
theorem eq_xn_comm (c d : Dev nD) : Iff (c = xn d) (d = xn c) := ⟨fun h => by rw [h, xn_xn], fun h => by rw [h, xn_xn]⟩

/-- What a device owes at launch, family by family: the x-neighbour's phase-two arrivals, the y-neighbour's
    phase-one arrivals, a unit on each neighbour's barrier cell. -/
theorem O₀_eq (d : Dev nD) : O₀ d
    = (∑ k : Fin 8, tallyAt (cellD (xn d) 3 k) () N) + (∑ k : Fin 8, tallyAt (cellD (yn d) 1 k) () N)
      + tallyAt (cellB (xn d)) () 1 + tallyAt (cellB (yn d)) () 1 := by
  rw [Fin.sum_univ_eight, Fin.sum_univ_eight]
  show (0 : CellTallies nD τ sig Unit)
      + tallyAt (cellD (xn d) 3 7) () N + tallyAt (cellD (xn d) 3 6) () N + tallyAt (cellD (xn d) 3 5) () N + tallyAt (cellD (xn d) 3 4) () N
      + tallyAt (cellD (xn d) 3 3) () N + tallyAt (cellD (xn d) 3 2) () N + tallyAt (cellD (xn d) 3 1) () N + tallyAt (cellD (xn d) 3 0) () N
      + tallyAt (cellD (yn d) 1 7) () N + tallyAt (cellD (yn d) 1 6) () N + tallyAt (cellD (yn d) 1 5) () N + tallyAt (cellD (yn d) 1 4) () N
      + tallyAt (cellD (yn d) 1 3) () N + tallyAt (cellD (yn d) 1 2) () N + tallyAt (cellD (yn d) 1 1) () N + tallyAt (cellD (yn d) 1 0) () N
      + tallyAt (cellB (xn d)) () 1 + tallyAt (cellB (yn d)) () 1 = _
  rw [zero_add]; ac_rfl

/-- The units the eight cells of family `a` of device `e` are owed, read at one transfer cell. -/
theorem sum_tallyD (e c : Dev nD) (a b : Fin 4) (k : Fin 8) :
    ∑ j : Fin 8, tallyAt (cellD e a j) () N (cellD c b k) () = if c = e ∧ b = a then N else 0 := by
  simp only [tallyAt_apply, cellD_inj, and_true]
  by_cases h : c = e ∧ b = a
  · rw [if_pos h]; obtain ⟨rfl, rfl⟩ := h
    simp only [true_and]
    rw [Finset.sum_ite_eq Finset.univ k fun _ => N, if_pos (Finset.mem_univ _)]
  · rw [if_neg h]; exact Finset.sum_eq_zero fun j _ => if_neg fun h' => h ⟨h'.1, h'.2.1⟩

theorem tallyB_apply (d c : Dev nD) : tallyAt (cellB d) () 1 (cellB c) () = if c = d then 1 else 0 := by
  rw [tallyAt_apply]; simp only [cellB_inj, and_true]

/-- What device `d` owes device `c`'s barrier cell: a unit if it is `c`'s y-neighbour, a unit if it is `c`'s x-neighbour. -/
theorem owed_B (d c : Dev nD) : O₀ d (cellB c) () = (if d = yn c then 1 else 0) + (if d = xn c then 1 else 0) := by
  have h0 (e : Dev nD) (a : Fin 4) : ∑ j : Fin 8, tallyAt (cellD e a j) () N (cellB c) () = 0 :=
    Finset.sum_eq_zero fun j _ => by rw [tallyAt_ne_cell (cellB_ne_cellD _ _ _ _)]; rfl
  rw [O₀_eq]
  simp only [Pi.add_apply, Finsupp.add_apply, Finset.sum_apply, Finsupp.finset_sum_apply, h0, tallyB_apply, zero_add]
  rw [add_comm]
  exact congrArg₂ _ (if_congr (eq_yn_comm c d) rfl rfl) (if_congr (eq_xn_comm c d) rfl rfl)

theorem owed_D1 (d c : Dev nD) (k : Fin 8) : O₀ d (cellD c 1 k) () = if d = yn c then N else 0 := by
  rw [O₀_eq]
  simp only [Pi.add_apply, Finsupp.add_apply, Finset.sum_apply, Finsupp.finset_sum_apply, sum_tallyD]
  rw [tallyAt_ne_cell (cellD_ne_cellB _ _ _ _), tallyAt_ne_cell (cellD_ne_cellB _ _ _ _), Finsupp.zero_apply,
    if_neg (fun h : c = xn d ∧ (1 : Fin 4) = 3 => absurd h.2 (by decide)), zero_add, add_zero, add_zero]
  exact if_congr ⟨fun h => (eq_yn_comm c d).mp h.1, fun h => ⟨(eq_yn_comm c d).mpr h, trivial⟩⟩ rfl rfl

theorem owed_D3 (d c : Dev nD) (k : Fin 8) : O₀ d (cellD c 3 k) () = if d = xn c then N else 0 := by
  rw [O₀_eq]
  simp only [Pi.add_apply, Finsupp.add_apply, Finset.sum_apply, Finsupp.finset_sum_apply, sum_tallyD]
  rw [tallyAt_ne_cell (cellD_ne_cellB _ _ _ _), tallyAt_ne_cell (cellD_ne_cellB _ _ _ _), Finsupp.zero_apply,
    if_neg (fun h : c = yn d ∧ (3 : Fin 4) = 1 => absurd h.2 (by decide)), add_zero, add_zero, add_zero]
  exact if_congr ⟨fun h => (eq_xn_comm c d).mp h.1, fun h => ⟨(eq_xn_comm c d).mpr h, trivial⟩⟩ rfl rfl

theorem launch_B (c : Dev nD) :
    tallyOn (cellB c) (launchCredit (Pipeline.owing O₀) 0 (cellB c)) = (tallyAt (cellB c) () 2 : CellTallies nD τ sig Unit) := by
  unfold tallyAt; refine congrArg _ (Finsupp.ext fun u => ?_); cases u
  rw [Pipeline.launchCredit_owing, Finsupp.single_eq_same, Finset.sum_congr rfl fun d _ => owed_B d c, Finset.sum_add_distrib,
    Finset.sum_ite_eq' Finset.univ (yn c) fun _ => 1, Finset.sum_ite_eq' Finset.univ (xn c) fun _ => 1, if_pos (Finset.mem_univ _), if_pos (Finset.mem_univ _)]

theorem launch_D1 (c : Dev nD) (k : Fin 8) :
    tallyOn (cellD c 1 k) (launchCredit (Pipeline.owing O₀) 0 (cellD c 1 k)) = (tallyAt (cellD c 1 k) () N : CellTallies nD τ sig Unit) := by
  unfold tallyAt; refine congrArg _ (Finsupp.ext fun u => ?_); cases u
  rw [Pipeline.launchCredit_owing, Finsupp.single_eq_same, Finset.sum_congr rfl fun d _ => owed_D1 d c k, Finset.sum_ite_eq' Finset.univ (yn c) fun _ => N,
    if_pos (Finset.mem_univ _)]

theorem launch_D3 (c : Dev nD) (k : Fin 8) :
    tallyOn (cellD c 3 k) (launchCredit (Pipeline.owing O₀) 0 (cellD c 3 k)) = (tallyAt (cellD c 3 k) () N : CellTallies nD τ sig Unit) := by
  unfold tallyAt; refine congrArg _ (Finsupp.ext fun u => ?_); cases u
  rw [Pipeline.launchCredit_owing, Finsupp.single_eq_same, Finset.sum_congr rfl fun d _ => owed_D3 d c k, Finset.sum_ite_eq' Finset.univ (xn c) fun _ => N,
    if_pos (Finset.mem_univ _)]

/-- The seventeen semaphores of a device that others pay: its barrier semaphore and its sixteen arrival semaphores. -/
def credSem : Unit ⊕ (Fin 8 ⊕ Fin 8) → SemLoc sig
  | .inl _ => .reg barS
  | .inr (.inl k) => .dma (dsem 1 k)
  | .inr (.inr k) => .dma (dsem 3 k)

theorem credSem_injective : Function.Injective credSem := by
  rintro (_ | k | k) (_ | k' | k') h
  · rfl
  · cases h
  · cases h
  · cases h
  · have h2 : (SemLoc.dma (dsem 1 k) : SemLoc sig) = .dma (dsem 1 k') := h
    injection h2 with h2; rw [(dsem_injective h2).2]
  · have h2 : (SemLoc.dma (dsem 1 k) : SemLoc sig) = .dma (dsem 3 k') := h
    injection h2 with h2; exact absurd (dsem_injective h2).1 (by decide)
  · cases h
  · have h2 : (SemLoc.dma (dsem 3 k) : SemLoc sig) = .dma (dsem 1 k') := h
    injection h2 with h2; exact absurd (dsem_injective h2).1 (by decide)
  · have h2 : (SemLoc.dma (dsem 3 k) : SemLoc sig) = .dma (dsem 3 k') := h
    injection h2 with h2; rw [(dsem_injective h2).2]

/-- The credit the launch deals a device: two barrier units and the sixteen arrivals. -/
theorem creds_intro (c : Dev nD) : (Pipeline.launchCred O₀ c : sProp 𝕄) ⊢ creds c := by
  unfold Pipeline.launchCred creds
  refine (bigSep_subset (Finset.subset_univ (Finset.univ.map ⟨credSem, credSem_injective⟩))).trans ?_
  rw [bigSep_map, bigSep_univ_sum, bigSep_univ_sum, bigSep_univ_of_subsingleton (), bigSep_fin8, bigSep_fin8]
  show (iprop(cred (tallyOn (cellB c) (launchCredit (Pipeline.owing O₀) 0 (cellB c)))
      ∗ (sep8 fun k => cred (tallyOn (cellD c 1 k) (launchCredit (Pipeline.owing O₀) 0 (cellD c 1 k))))
      ∗ (sep8 fun k => cred (tallyOn (cellD c 3 k) (launchCredit (Pipeline.owing O₀) 0 (cellD c 3 k))))) : sProp 𝕄) ⊢ _
  rw [launch_B]; simp only [launch_D1, launch_D3]
  exact .rfl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sWhole cWhole
  iintro ⟨Hs, -, ⟨%f, Hf⟩, ⟨%g, Hg⟩⟩
  isplitl [Hs]; · iexact Hs
  isplitl [Hf]
  · iexists f; iexact Hf
  · iexists g; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sWhole cWhole
  iintro ⟨⟨%f, Hf⟩, ⟨%g, Hg⟩, Hz⟩
  isplitr; · iempintro
  isplitl [Hz]; · iexact Hz
  isplitl [Hf]
  · iexists f; iexact Hf
  · iexists g; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The result array after the run -/

attribute [local irreducible] outAt in
/-- The result window's one block is the whole array, written back at the one point: the array ends at what the
    body left in the staging buffer. -/
theorem arrAt_o (c : Dev nD) : (dats (F := F) m 0 c).arrAt (1 : Fin 2) cfg0.N = outAt m c := by
  rw [show cfg0.N = t0_0.val + 1 from rfl, (dats (F := F) m 0 c).arrAt_succ (1 : Fin 2) t0_0, if_pos (flush0_1 t0_0)]
  -- the block's offsets are zero, so reading through it reads the array,
  have hz : (fun a => (cfg0.win 1).index t0_0 a * (cfg0.win 1).size a) = fun _ => 0 := funext fun a => Nat.zero_mul _
  have hr (f : Buf (Elt F) ((cfg0.win 1).arr.view.loc (c : Thread nD τ))) : ((cfg0.win 1).blk t0_0).view.read (Elt F) f = f :=
    Memref.read_access_unit_zero (Elt F) main_v1 hz _ f
  -- and the array after the write-back reads as what was written
  have h1 := View.read_write_univ (v := ((cfg0.win 1).blk t0_0).view) (Val := Elt F) ((dats m 0 c).arrAt 1 ↑t0_0) ((dats m 0 c).flushed 1 t0_0)
  rw [hr] at h1
  exact h1

end Launch

/-- At the compiled mesh of four devices, from any memory with zero counters: every weakly fair execution of @main
    terminates without fault, each device's arrays ending at the proof data's contents — given each device's body. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ Launch.ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := Launch.share_eq m)
    (hdistinct := winFacts0.arr_inj)
    (O₀ := O₀) (howed₀ := fun _ => rfl) (howedN := fun _ => rfl)
    (L := L) (lv := lv) (hL := L_of_ne) (hwaits := Launch.waits m)
    (G := Launch.G m) (G' := Launch.G' m) (u₀ := Launch.u₀)
    (hu₀ := by
      unfold Launch.u₀
      iintro Hu
      ihave H := (ownU_pair _ _) $$ Hu
      icases H with ⟨HP, HX⟩
      imod (Launch.fund_proto m) $$ HX with HG
      imodintro
      isplitl [HP] <;> iassumption)
    (hglob := Launch.glob m)
    (hA := fun _ _ => rfl) (hpf := fun _ k => k.elim0)
    (X := start m) (Y := fun _ => iprop(emp)) (Z := fun _ => iprop(emp))
    (hX := Launch.start_intro m ρ) (hin := Launch.phi0_intro m) (hout := Launch.phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : (dats (F := F) m 0 c).arrAt (0 : Fin 2) cfg0.N = m (win0_0.arr.view.loc (c : Thread nD τ)) := by
  exact (dats (F := F) m 0 c).arrAt_in (0 : Fin 2) rfl _

/-- The result array after the run holds the result block. -/
theorem finalA_o (c : Dev nD) : (dats (F := F) m 0 c).arrAt (1 : Fin 2) cfg0.N = outAt m c := by
  exact Launch.arrAt_o m c

end Cert.Kernel.AR

end
-- ==== Proof.lean ====
/-
  The all-reduce on a 2 × 2 mesh against the sum of the input's two halves.

  Each of the four devices holds one of the two 512-row blocks of the input and ends with the sum of both: it sends the
  half of its block it is in charge of to the device holding the other block, forwards what it receives to the device
  in charge of the other half, and adds what arrives to its own rows. The three frames are the run of the protocol (every
  wait is below everything the waiter still owes, so every fair execution ends) with the values dropped; at the ideal
  instance rounding through bf16 is the identity, so every device's result is its block plus the other block, which
  is the reference's sum up to the order of the two summands.
-/
import proofs.«900151_g7700000000000152_dist_ar_v7x_xy2x2_y_m512_n512_f32_1_alg».proof.Defs
import proofs.«900151_g7700000000000152_dist_ar_v7x_xy2x2_y_m512_n512_f32_1_alg».proof.Proof.Gen.Kernel
import proofs.«900151_g7700000000000152_dist_ar_v7x_xy2x2_y_m512_n512_f32_1_alg».proof.Proof.Gen.KernelIdeal
import proofs.«900151_g7700000000000152_dist_ar_v7x_xy2x2_y_m512_n512_f32_1_alg».proof.Proof.Gen.ReferenceIdeal
import proofs.«900151_g7700000000000152_dist_ar_v7x_xy2x2_y_m512_n512_f32_1_alg».proof.Proof.Gen.Pre_finite_inputs_Kernel
import proofs.«900151_g7700000000000152_dist_ar_v7x_xy2x2_y_m512_n512_f32_1_alg».proof.Proof.Gen.Pre_finite_inputs_ReferenceIdeal
import proofs.«900151_g7700000000000152_dist_ar_v7x_xy2x2_y_m512_n512_f32_1_alg».proof.Proof.Gen.ReferenceIdeal.Run
import proofs.«900151_g7700000000000152_dist_ar_v7x_xy2x2_y_m512_n512_f32_1_alg».proof.Proof.Gen.ReferenceIdeal.Read
import proofs.«900151_g7700000000000152_dist_ar_v7x_xy2x2_y_m512_n512_f32_1_alg».proof.Proof.ARBody
import proofs.«900151_g7700000000000152_dist_ar_v7x_xy2x2_y_m512_n512_f32_1_alg».proof.Proof.ARLaunch
import proofs.«900151_g7700000000000152_dist_ar_v7x_xy2x2_y_m512_n512_f32_1_alg».proof.Proof.ARValue
import proofs.«900151_g7700000000000152_dist_ar_v7x_xy2x2_y_m512_n512_f32_1_alg».proof.Proof.K.ARBody
import proofs.«900151_g7700000000000152_dist_ar_v7x_xy2x2_y_m512_n512_f32_1_alg».proof.Proof.K.ARLaunch
import Idealize.ShloMosaic.Adequacy
import Idealize.ShloMosaic.Init

noncomputable section

namespace Cert.Proof

open Idealize.ShloMosaic Idealize.SL.Sem

/-- The kernel as printed runs on the four devices and leaves every device's input block as it was: the same protocol,
    read at the word-level instance. -/
theorem frame_p : Cert.frame_Kernel := fun m ρ _ =>
  (θ_run Cert.Kernel.defs _ _).mono
    (fun _ h c => (h c 0).trans (Cert.Kernel.AR.finalA_x m c))
    (Cert.Kernel.AR.run_main m ρ (Cert.Kernel.AR.body_obligation m))

/-- The idealized kernel runs on the four devices and leaves every device's input block as it was. -/
theorem frame_pi : Cert.frame_KernelIdeal := fun m ρ _ =>
  (θ_run Cert.KernelIdeal.defs _ _).mono
    (fun _ h c => (h c 0).trans (Cert.KernelIdeal.AR.finalA_x m c))
    (Cert.KernelIdeal.AR.run_main m ρ (Cert.KernelIdeal.AR.body_obligation m))

/-- The reference runs and leaves the whole input as it was: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance every device's result is the reference's, from memories in which each device holds its block. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c 1).trans ((Cert.KernelIdeal.AR.finalA_o m c).trans (Cert.KernelIdeal.AR.result_eq m _ hagree c)),
        (h c 0).trans (Cert.KernelIdeal.AR.finalA_x m c)⟩)
      (Cert.KernelIdeal.AR.run_main m ρ (Cert.KernelIdeal.AR.body_obligation m))
  · exact (θ_run Cert.ReferenceIdeal.defs _ _).mono
      (fun _ h => ⟨((h 0).1).trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
